-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v177) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8525x85 : Shape := ⟨3, ![64, 8525, 85]⟩
abbrev S64x8525x88 : Shape := ⟨3, ![64, 8525, 88]⟩
abbrev S8525x2 : Shape := ⟨2, ![8525, 2]⟩
abbrev S64 : Shape := ⟨1, ![64]⟩
abbrev S_ : Shape := ⟨0, ![]⟩

class Facts : Prop where
  bcast_S_S64x8525x85 : S_.BroadcastsInDim S64x8525x85 (![] : Fin 0 → Fin S64x8525x85.rank)
  reducesTo_S64x8525x85_S_d0_1_2 : S64x8525x85.ReducesTo [0, 1, 2] S_
  h_S_ : 0 < S_.numel
  bcast_S_S64x8525x88 : S_.BroadcastsInDim S64x8525x88 (![] : Fin 0 → Fin S64x8525x88.rank)
  reducesTo_S64x8525x88_S_d0_1_2 : S64x8525x88.ReducesTo [0, 1, 2] S_
  bcast_S_S8525x2 : S_.BroadcastsInDim S8525x2 (![] : Fin 0 → Fin S8525x2.rank)
  reducesTo_S8525x2_S_d0_1 : S8525x2.ReducesTo [0, 1] S_

variable [Facts]

def fn {F : FTy → Type} [FloatOps F] (main_arg0 : FVec F S64x8525x85 .f32) (main_arg1 : FVec F S64x8525x88 .f32) (main_arg2 : FVec F S8525x2 .f32) (main_arg3 : IVec S64 32) : IVec S_ 1 :=
  let main_v0 : FVec F S64x8525x85 .f32 := Host.absf main_arg0
  let main_cst : FVec F S_ .f32 := constant S_ .f32 0x7F800000#32
  let main_v1 : FVec F S64x8525x85 .f32 := broadcastInDim S64x8525x85 ![] bcast_S_S64x8525x85 main_cst
  let main_v2 : IVec S64x8525x85 1 := cmpf .olt main_v0 main_v1
  let main_c : IVec S_ 1 := constantI S_ 1 1#1
  let main_v3 : IVec S_ 1 := (fun x v => Host.reduce IntOp.andi x v reducesTo_S64x8525x85_S_d0_1_2 h_S_) main_v2 main_c
  let main_v4 : FVec F S64x8525x88 .f32 := Host.absf main_arg1
  let main_cst_0 : FVec F S_ .f32 := constant S_ .f32 0x7F800000#32
  let main_v5 : FVec F S64x8525x88 .f32 := broadcastInDim S64x8525x88 ![] bcast_S_S64x8525x88 main_cst_0
  let main_v6 : IVec S64x8525x88 1 := cmpf .olt main_v4 main_v5
  let main_c_1 : IVec S_ 1 := constantI S_ 1 1#1
  let main_v7 : IVec S_ 1 := (fun x v => Host.reduce IntOp.andi x v reducesTo_S64x8525x88_S_d0_1_2 h_S_) main_v6 main_c_1
  let main_v8 : IVec S_ 1 := andi main_v3 main_v7
  let main_v9 : FVec F S8525x2 .f32 := Host.absf main_arg2
  let main_cst_2 : FVec F S_ .f32 := constant S_ .f32 0x7F800000#32
  let main_v10 : FVec F S8525x2 .f32 := broadcastInDim S8525x2 ![] bcast_S_S8525x2 main_cst_2
  let main_v11 : IVec S8525x2 1 := cmpf .olt main_v9 main_v10
  let main_c_3 : IVec S_ 1 := constantI S_ 1 1#1
  let main_v12 : IVec S_ 1 := (fun x v => Host.reduce IntOp.andi x v reducesTo_S8525x2_S_d0_1 h_S_) main_v11 main_c_3
  let main_v13 : IVec S_ 1 := andi main_v8 main_v12
  main_v13
-- ==== Kernel.lean ====
abbrev S64x8525x85 : Shape := ⟨3, ![64, 8525, 85]⟩
abbrev S64x8525x88 : Shape := ⟨3, ![64, 8525, 88]⟩
abbrev S8525x2 : Shape := ⟨2, ![8525, 2]⟩
abbrev S64 : Shape := ⟨1, ![64]⟩
abbrev S2x5x32 : Shape := ⟨3, ![2, 5, 32]⟩
abbrev S32x256x85 : Shape := ⟨3, ![32, 256, 85]⟩
abbrev S32x256x88 : Shape := ⟨3, ![32, 256, 88]⟩
abbrev S256x2 : Shape := ⟨2, ![256, 2]⟩
abbrev S1x5x32 : Shape := ⟨3, ![1, 5, 32]⟩
abbrev S32x256 : Shape := ⟨2, ![32, 256]⟩
abbrev S32x256x1 : Shape := ⟨3, ![32, 256, 1]⟩
abbrev S32x256x80 : Shape := ⟨3, ![32, 256, 80]⟩
abbrev S32 : Shape := ⟨1, ![32]⟩
abbrev S32x256x4 : Shape := ⟨3, ![32, 256, 4]⟩
abbrev S1x256x2 : Shape := ⟨3, ![1, 256, 2]⟩
abbrev S32x256x2 : Shape := ⟨3, ![32, 256, 2]⟩
abbrev S1x32 : Shape := ⟨2, ![1, 32]⟩
abbrev S5x32 : Shape := ⟨2, ![5, 32]⟩
abbrev S5x64 : Shape := ⟨2, ![5, 64]⟩
abbrev S1x64 : Shape := ⟨2, ![1, 64]⟩
abbrev S_ : Shape := ⟨0, ![]⟩

abbrev nBuf : Space → Nat
  | .hbm => 50
  | .vmem => 9
  | .smem => 0
  | _ => 0

abbrev bufTy : (tb : Table) → Fin (tcTables nBuf tb) → BufTy
  | .hbm, ⟨0, _⟩ => ⟨S64x8525x85, .f32⟩
  | .hbm, ⟨1, _⟩ => ⟨S64x8525x88, .f32⟩
  | .hbm, ⟨2, _⟩ => ⟨S8525x2, .f32⟩
  | .hbm, ⟨3, _⟩ => ⟨S64, .i32⟩
  | .hbm, ⟨4, _⟩ => ⟨S2x5x32, .f32⟩
  | .hbm, ⟨5, _⟩ => ⟨S1x5x32, .f32⟩
  | .hbm, ⟨6, _⟩ => ⟨S5x32, .f32⟩
  | .hbm, ⟨7, _⟩ => ⟨S1x5x32, .f32⟩
  | .hbm, ⟨8, _⟩ => ⟨S5x32, .f32⟩
  | .hbm, ⟨9, _⟩ => ⟨S5x64, .f32⟩
  | .hbm, ⟨10, _⟩ => ⟨S1x64, .f32⟩
  | .hbm, ⟨11, _⟩ => ⟨S64, .f32⟩
  | .hbm, ⟨12, _⟩ => ⟨S1x64, .f32⟩
  | .hbm, ⟨13, _⟩ => ⟨S64, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S64, .f32⟩
  | .hbm, ⟨18, _⟩ => ⟨S1x64, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S64, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S64, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .local _ .vmem, ⟨0, _⟩ => ⟨S32x256x85, .f32⟩
  | .local _ .vmem, ⟨1, _⟩ => ⟨S32x256x85, .f32⟩
  | .local _ .vmem, ⟨2, _⟩ => ⟨S32x256x88, .f32⟩
  | .local _ .vmem, ⟨3, _⟩ => ⟨S32x256x88, .f32⟩
  | .local _ .vmem, ⟨4, _⟩ => ⟨S256x2, .f32⟩
  | .local _ .vmem, ⟨5, _⟩ => ⟨S256x2, .f32⟩
  | .local _ .vmem, ⟨6, _⟩ => ⟨S1x5x32, .f32⟩
  | .local _ .vmem, ⟨7, _⟩ => ⟨S1x5x32, .f32⟩
  | .local _ .vmem, ⟨8, _⟩ => ⟨S1x5x32, .f32⟩
  | _, _ => ⟨S64x8525x85, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_cst_9 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 34], ![false, false]⟩

def k0_cond2 (i : grid0.Coords) : BitVec 1 :=
  let arg1 : BitVec 32 := BitVec.ofNat 32 (i 1).val
  let c33_i32 : BitVec 32 := 33#32
  let v197 : BitVec 1 := Scalar.cmpi .eq arg1 c33_i32
  let v198 : BitVec 32 := Scalar.extui v197
  let c0_i32_41 : BitVec 32 := 0#32
  let v199 : BitVec 1 := Scalar.cmpi .ne v198 c0_i32_41
  v199

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x256x85 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x256x88 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x5x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x5x32_S1x5x32_0_0_0 : ∀ a, (![0, 0, 0] : Fin 3 → Nat) a + S1x5x32.size a ≤ S1x5x32.size a
  h_S1x5x32 : 0 < S1x5x32.numel
  shapeCasts_S1x5x32_S1x5x32 : S1x5x32.ShapeCasts S1x5x32
  inb_S32x256x85_S32x256x85_0_0_0 : ∀ a, (![0, 0, 0] : Fin 3 → Nat) a + S32x256x85.size a ≤ S32x256x85.size a
  h_S32x256x85 : 0 < S32x256x85.numel
  inb_S32x256x88_S32x256x88_0_0_0 : ∀ a, (![0, 0, 0] : Fin 3 → Nat) a + S32x256x88.size a ≤ S32x256x88.size a
  h_S32x256x88 : 0 < S32x256x88.numel
  inb_S256x2_S256x2_0_0 : ∀ a, (![0, 0] : Fin 2 → Nat) a + S256x2.size a ≤ S256x2.size a
  h_S256x2 : 0 < S256x2.numel
  iota_S32x256_d1_w32 : S32x256.Iotas .tc 32 [1]
  natLt_1_32 : 1 < 32
  shapeCasts_S32x256_S32x256x1 : S32x256.ShapeCasts S32x256x1
  slices_S32x256x85_o0_0_0_S32x256x80 : S32x256x85.Slices ![0, 0, 0] S32x256x80
  slices_S32x256x88_o0_0_0_S32x256x80 : S32x256x88.Slices ![0, 0, 0] S32x256x80
  broadcasts_S32x256x1_S32x256x80 : S32x256x1.Broadcasts S32x256x80
  reduces_S32x256x80_S32x256 : S32x256x80.Reduces [2] S32x256
  reduces_S32x256_S32 : S32x256.Reduces [1] S32
  slices_S32x256x85_o0_0_80_S32x256x1 : S32x256x85.Slices ![0, 0, 80] S32x256x1
  shapeCasts_S32x256x1_S32x256 : S32x256x1.ShapeCasts S32x256
  slices_S32x256x88_o0_0_85_S32x256x1 : S32x256x88.Slices ![0, 0, 85] S32x256x1
  slices_S32x256x85_o0_0_81_S32x256x4 : S32x256x85.Slices ![0, 0, 81] S32x256x4
  shapeCasts_S256x2_S1x256x2 : S256x2.ShapeCasts S1x256x2
  shapeCasts_S1x256x2_S1x256x2 : S1x256x2.ShapeCasts S1x256x2
  broadcasts_S1x256x2_S32x256x2 : S1x256x2.Broadcasts S32x256x2
  slices_S32x256x4_o0_0_0_S32x256x2 : S32x256x4.Slices ![0, 0, 0] S32x256x2
  slices_S32x256x4_o0_0_2_S32x256x2 : S32x256x4.Slices ![0, 0, 2] S32x256x2
  concatenates_S32x256x2_S32x256x2_S32x256x4_d2 : Shape.Concatenates [S32x256x2, S32x256x2] S32x256x4 2
  slices_S32x256x88_o0_0_81_S32x256x4 : S32x256x88.Slices ![0, 0, 81] S32x256x4
  slices_S32x256x4_o0_0_0_S32x256x1 : S32x256x4.Slices ![0, 0, 0] S32x256x1
  slices_S32x256x4_o0_0_1_S32x256x1 : S32x256x4.Slices ![0, 0, 1] S32x256x1
  slices_S32x256x4_o0_0_2_S32x256x1 : S32x256x4.Slices ![0, 0, 2] S32x256x1
  slices_S32x256x4_o0_0_3_S32x256x1 : S32x256x4.Slices ![0, 0, 3] S32x256x1
  slices_S32x256x88_o0_0_80_S32x256x1 : S32x256x88.Slices ![0, 0, 80] S32x256x1
  slices_S32x256x88_o0_0_86_S32x256x1 : S32x256x88.Slices ![0, 0, 86] S32x256x1
  shapeCasts_S32_S1x32 : S32.ShapeCasts S1x32
  concatenates_S1x32_S1x32_S1x32_S1x32_S1x32_S5x32_d0 : Shape.Concatenates [S1x32, S1x32, S1x32, S1x32, S1x32] S5x32 0
  shapeCasts_S5x32_S1x5x32 : S5x32.ShapeCasts S1x5x32
  slices_S2x5x32_S1x5x32_0_0_0 : S2x5x32.Slices ![0, 0, 0] S1x5x32
  shapeCasts_S1x5x32_S5x32 : S1x5x32.ShapeCasts S5x32
  slices_S2x5x32_S1x5x32_1_0_0 : S2x5x32.Slices ![1, 0, 0] S1x5x32
  concatenates_S5x32_S5x32_S5x64_d1 : Shape.Concatenates [S5x32, S5x32] S5x64 1
  slices_S5x64_S1x64_0_0 : S5x64.Slices ![0, 0] S1x64
  shapeCasts_S1x64_S64 : S1x64.ShapeCasts S64
  slices_S5x64_S1x64_1_0 : S5x64.Slices ![1, 0] S1x64
  slices_S5x64_S1x64_2_0 : S5x64.Slices ![2, 0] S1x64
  slices_S5x64_S1x64_3_0 : S5x64.Slices ![3, 0] S1x64
  slices_S5x64_S1x64_4_0 : S5x64.Slices ![4, 0] S1x64
  reducesTo_S64_S_d0 : S64.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S32x256x85.size a < S64x8525x85.size a
  hwx0_0 : ∀ i : grid0.Coords, EltTy.bits .f32 = 32 ∨ (Rect.unit (s := S64x8525x85) (fun a => cc0_transform_0 i a * S32x256x85.size a) (fun a => (Pipeline.Clip.of (cc0_transform_0 i a) (S32x256x85.size a) (S64x8525x85.size a)).extent (S32x256x85.size a)) fun a => Pipeline.Clip.inb (Pipeline.Clip.ok_of (hstart0_0 i a))).WholeWords (EltTy.packing .f32)
  hwxs0_0 : ∀ i : grid0.Coords, EltTy.bits .f32 = 32 ∨ (Rect.unit (s := S32x256x85) (fun _ => 0) (fun a => (Pipeline.Clip.of (cc0_transform_0 i a) (S32x256x85.size a) (S64x8525x85.size a)).extent (S32x256x85.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S32x256x88.size a < S64x8525x88.size a
  hwx0_1 : ∀ i : grid0.Coords, EltTy.bits .f32 = 32 ∨ (Rect.unit (s := S64x8525x88) (fun a => cc0_transform_1 i a * S32x256x88.size a) (fun a => (Pipeline.Clip.of (cc0_transform_1 i a) (S32x256x88.size a) (S64x8525x88.size a)).extent (S32x256x88.size a)) fun a => Pipeline.Clip.inb (Pipeline.Clip.ok_of (hstart0_1 i a))).WholeWords (EltTy.packing .f32)
  hwxs0_1 : ∀ i : grid0.Coords, EltTy.bits .f32 = 32 ∨ (Rect.unit (s := S32x256x88) (fun _ => 0) (fun a => (Pipeline.Clip.of (cc0_transform_1 i a) (S32x256x88.size a) (S64x8525x88.size a)).extent (S32x256x88.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S256x2.size a < S8525x2.size a
  hwx0_2 : ∀ i : grid0.Coords, EltTy.bits .f32 = 32 ∨ (Rect.unit (s := S8525x2) (fun a => cc0_transform_2 i a * S256x2.size a) (fun a => (Pipeline.Clip.of (cc0_transform_2 i a) (S256x2.size a) (S8525x2.size a)).extent (S256x2.size a)) fun a => Pipeline.Clip.inb (Pipeline.Clip.ok_of (hstart0_2 i a))).WholeWords (EltTy.packing .f32)
  hwxs0_2 : ∀ i : grid0.Coords, EltTy.bits .f32 = 32 ∨ (Rect.unit (s := S256x2) (fun _ => 0) (fun a => (Pipeline.Clip.of (cc0_transform_2 i a) (S256x2.size a) (S8525x2.size a)).extent (S256x2.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x5x32.size a ≤ S2x5x32.size a
  hwx0_3 : ∀ i : grid0.Coords, EltTy.bits .f32 = 32 ∨ (Rect.block (s := S2x5x32) S1x5x32.size (cc0_transform_3 i) (hinb0_3 i)).WholeWords (EltTy.packing .f32)

variable [Facts₀]

abbrev win0_0 : Pipeline.Window sig grid0 :=
  Pipeline.Window.ofSpecClip (Memref.whole main_arg0) S32x256x85.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S32x256x88.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg2) S256x2.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_v0) S1x5x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S64x8525x85 : Shape := ⟨3, ![64, 8525, 85]⟩
abbrev S64x8525x88 : Shape := ⟨3, ![64, 8525, 88]⟩
abbrev S8525x2 : Shape := ⟨2, ![8525, 2]⟩
abbrev S64 : Shape := ⟨1, ![64]⟩
abbrev S64x8525x80 : Shape := ⟨3, ![64, 8525, 80]⟩
abbrev S_ : Shape := ⟨0, ![]⟩
abbrev S64x8525x1 : Shape := ⟨3, ![64, 8525, 1]⟩
abbrev S64x8525 : Shape := ⟨2, ![64, 8525]⟩
abbrev S64x8525x4 : Shape := ⟨3, ![64, 8525, 4]⟩
abbrev S1x8525x2 : Shape := ⟨3, ![1, 8525, 2]⟩
abbrev S64x8525x2 : Shape := ⟨3, ![64, 8525, 2]⟩

abbrev nBuf : Space → Nat
  | .hbm => 232
  | .vmem => 0
  | .smem => 0
  | _ => 0

abbrev hbmTy0_0 (i : Nat) : BufTy := match i % 128 with
  | 0 => ⟨S64x8525x85, .f32⟩
  | 1 => ⟨S64x8525x88, .f32⟩
  | 2 => ⟨S8525x2, .f32⟩
  | 3 => ⟨S64, .i32⟩
  | 4 => ⟨S64, .f32⟩
  | 5 => ⟨S64x8525x80, .f32⟩
  | 6 => ⟨S64x8525x80, .f32⟩
  | 7 => ⟨S64x8525x80, .f32⟩
  | 8 => ⟨S_, .f32⟩
  | 9 => ⟨S64x8525x80, .f32⟩
  | 10 => ⟨S64x8525x80, .f32⟩
  | 11 => ⟨S_, .f32⟩
  | 12 => ⟨S64x8525x80, .f32⟩
  | 13 => ⟨S64x8525x80, .f32⟩
  | 14 => ⟨S64x8525x80, .f32⟩
  | 15 => ⟨S_, .f32⟩
  | 16 => ⟨S64x8525x80, .f32⟩
  | 17 => ⟨S64x8525x80, .i1⟩
  | 18 => ⟨S64x8525x80, .f32⟩
  | 19 => ⟨S_, .f32⟩
  | 20 => ⟨S64x8525x80, .f32⟩
  | 21 => ⟨S64x8525x80, .f32⟩
  | 22 => ⟨S64x8525x80, .f32⟩
  | 23 => ⟨S_, .f32⟩
  | 24 => ⟨S64x8525x80, .f32⟩
  | 25 => ⟨S64x8525x80, .f32⟩
  | 26 => ⟨S_, .f32⟩
  | 27 => ⟨S64x8525x80, .f32⟩
  | 28 => ⟨S64x8525x80, .f32⟩
  | 29 => ⟨S64x8525x80, .f32⟩
  | 30 => ⟨S64x8525x80, .f32⟩
  | 31 => ⟨S64x8525x80, .f32⟩
  | 32 => ⟨S64x8525x80, .f32⟩
  | 33 => ⟨S_, .f32⟩
  | 34 => ⟨S64x8525x80, .f32⟩
  | 35 => ⟨S64x8525x80, .f32⟩
  | 36 => ⟨S_, .f32⟩
  | 37 => ⟨S64x8525x80, .f32⟩
  | 38 => ⟨S64x8525x80, .f32⟩
  | 39 => ⟨S_, .f32⟩
  | 40 => ⟨S64x8525x80, .f32⟩
  | 41 => ⟨S64x8525x80, .f32⟩
  | 42 => ⟨S64x8525x80, .f32⟩
  | 43 => ⟨S64x8525x80, .f32⟩
  | 44 => ⟨S_, .f32⟩
  | 45 => ⟨S64x8525x80, .f32⟩
  | 46 => ⟨S64x8525x80, .f32⟩
  | 47 => ⟨S64x8525x80, .f32⟩
  | 48 => ⟨S_, .f32⟩
  | 49 => ⟨S64, .f32⟩
  | 50 => ⟨S64, .f32⟩
  | 51 => ⟨S_, .f32⟩
  | 52 => ⟨S_, .f32⟩
  | 53 => ⟨S_, .f32⟩
  | 54 => ⟨S_, .f32⟩
  | 55 => ⟨S_, .f32⟩
  | 56 => ⟨S64, .f32⟩
  | 57 => ⟨S64, .f32⟩
  | 58 => ⟨S_, .f32⟩
  | 59 => ⟨S_, .f32⟩
  | 60 => ⟨S_, .f32⟩
  | 61 => ⟨S_, .f32⟩
  | 62 => ⟨S64x8525x1, .f32⟩
  | 63 => ⟨S64x8525, .f32⟩
  | 64 => ⟨S_, .f32⟩
  | 65 => ⟨S64x8525, .f32⟩
  | 66 => ⟨S64x8525, .i1⟩
  | 67 => ⟨S64x8525, .f32⟩
  | 68 => ⟨S64x8525x1, .f32⟩
  | 69 => ⟨S64x8525, .f32⟩
  | 70 => ⟨S64x8525, .f32⟩
  | 71 => ⟨S64x8525, .f32⟩
  | 72 => ⟨S_, .f32⟩
  | 73 => ⟨S64x8525, .f32⟩
  | 74 => ⟨S64x8525, .f32⟩
  | 75 => ⟨S_, .f32⟩
  | 76 => ⟨S64x8525, .f32⟩
  | 77 => ⟨S64x8525, .f32⟩
  | 78 => ⟨S_, .f32⟩
  | 79 => ⟨S64x8525, .f32⟩
  | 80 => ⟨S64x8525, .f32⟩
  | 81 => ⟨S64x8525, .f32⟩
  | 82 => ⟨S64x8525, .f32⟩
  | 83 => ⟨S64x8525, .f32⟩
  | 84 => ⟨S_, .f32⟩
  | 85 => ⟨S64, .f32⟩
  | 86 => ⟨S64, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S64x8525x1, .f32⟩
  | 94 => ⟨S64x8525, .f32⟩
  | 95 => ⟨S_, .f32⟩
  | 96 => ⟨S64x8525, .f32⟩
  | 97 => ⟨S64x8525, .i1⟩
  | 98 => ⟨S64x8525, .f32⟩
  | 99 => ⟨S64x8525x4, .f32⟩
  | 100 => ⟨S1x8525x2, .f32⟩
  | 101 => ⟨S64x8525x2, .f32⟩
  | 102 => ⟨S64x8525x2, .f32⟩
  | 103 => ⟨S64x8525x2, .f32⟩
  | 104 => ⟨S64x8525x2, .f32⟩
  | 105 => ⟨S64x8525x2, .f32⟩
  | 106 => ⟨S64x8525x2, .f32⟩
  | 107 => ⟨S64x8525x4, .f32⟩
  | 108 => ⟨S64x8525x4, .f32⟩
  | 109 => ⟨S64x8525x1, .f32⟩
  | 110 => ⟨S64x8525, .f32⟩
  | 111 => ⟨S64x8525x1, .f32⟩
  | 112 => ⟨S64x8525, .f32⟩
  | 113 => ⟨S64x8525, .f32⟩
  | 114 => ⟨S64x8525x1, .f32⟩
  | 115 => ⟨S64x8525, .f32⟩
  | 116 => ⟨S64x8525x1, .f32⟩
  | 117 => ⟨S64x8525, .f32⟩
  | 118 => ⟨S64x8525, .f32⟩
  | 119 => ⟨S64x8525x1, .f32⟩
  | 120 => ⟨S64x8525, .f32⟩
  | 121 => ⟨S64x8525x1, .f32⟩
  | 122 => ⟨S64x8525, .f32⟩
  | 123 => ⟨S64x8525, .f32⟩
  | 124 => ⟨S64x8525x1, .f32⟩
  | 125 => ⟨S64x8525, .f32⟩
  | 126 => ⟨S64x8525x1, .f32⟩
  | 127 => ⟨S64x8525, .f32⟩
  | _ => ⟨S64x8525x85, .f32⟩

abbrev hbmTy0_1 (i : Nat) : BufTy := match i % 128 with
  | 0 => ⟨S64x8525, .f32⟩
  | 1 => ⟨S64x8525, .f32⟩
  | 2 => ⟨S_, .f32⟩
  | 3 => ⟨S_, .f32⟩
  | 4 => ⟨S64x8525, .f32⟩
  | 5 => ⟨S64x8525, .f32⟩
  | 6 => ⟨S64x8525, .f32⟩
  | 7 => ⟨S_, .f32⟩
  | 8 => ⟨S_, .f32⟩
  | 9 => ⟨S64x8525, .f32⟩
  | 10 => ⟨S64x8525, .f32⟩
  | 11 => ⟨S64x8525, .f32⟩
  | 12 => ⟨S64x8525x1, .f32⟩
  | 13 => ⟨S64x8525, .f32⟩
  | 14 => ⟨S64x8525x1, .f32⟩
  | 15 => ⟨S64x8525, .f32⟩
  | 16 => ⟨S64x8525, .f32⟩
  | 17 => ⟨S_, .f32⟩
  | 18 => ⟨S_, .f32⟩
  | 19 => ⟨S64x8525, .f32⟩
  | 20 => ⟨S64x8525, .f32⟩
  | 21 => ⟨S64x8525x1, .f32⟩
  | 22 => ⟨S64x8525, .f32⟩
  | 23 => ⟨S64x8525x1, .f32⟩
  | 24 => ⟨S64x8525, .f32⟩
  | 25 => ⟨S64x8525, .f32⟩
  | 26 => ⟨S_, .f32⟩
  | 27 => ⟨S_, .f32⟩
  | 28 => ⟨S64x8525, .f32⟩
  | 29 => ⟨S64x8525, .f32⟩
  | 30 => ⟨S64x8525, .f32⟩
  | 31 => ⟨S64x8525x1, .f32⟩
  | 32 => ⟨S64x8525, .f32⟩
  | 33 => ⟨S64x8525x1, .f32⟩
  | 34 => ⟨S64x8525, .f32⟩
  | 35 => ⟨S64x8525, .f32⟩
  | 36 => ⟨S_, .f32⟩
  | 37 => ⟨S_, .f32⟩
  | 38 => ⟨S64x8525, .f32⟩
  | 39 => ⟨S64x8525, .f32⟩
  | 40 => ⟨S64x8525x1, .f32⟩
  | 41 => ⟨S64x8525, .f32⟩
  | 42 => ⟨S64x8525x1, .f32⟩
  | 43 => ⟨S64x8525, .f32⟩
  | 44 => ⟨S64x8525, .f32⟩
  | 45 => ⟨S_, .f32⟩
  | 46 => ⟨S_, .f32⟩
  | 47 => ⟨S64x8525, .f32⟩
  | 48 => ⟨S64x8525, .f32⟩
  | 49 => ⟨S64x8525, .f32⟩
  | 50 => ⟨S64x8525, .f32⟩
  | 51 => ⟨S64x8525, .f32⟩
  | 52 => ⟨S_, .f32⟩
  | 53 => ⟨S64x8525, .f32⟩
  | 54 => ⟨S64x8525, .f32⟩
  | 55 => ⟨S64x8525, .f32⟩
  | 56 => ⟨S64x8525x1, .f32⟩
  | 57 => ⟨S64x8525, .f32⟩
  | 58 => ⟨S64x8525x1, .f32⟩
  | 59 => ⟨S64x8525, .f32⟩
  | 60 => ⟨S64x8525, .f32⟩
  | 61 => ⟨S64x8525x1, .f32⟩
  | 62 => ⟨S64x8525, .f32⟩
  | 63 => ⟨S64x8525x1, .f32⟩
  | 64 => ⟨S64x8525, .f32⟩
  | 65 => ⟨S64x8525, .f32⟩
  | 66 => ⟨S64x8525x1, .f32⟩
  | 67 => ⟨S64x8525, .f32⟩
  | 68 => ⟨S64x8525x1, .f32⟩
  | 69 => ⟨S64x8525, .f32⟩
  | 70 => ⟨S64x8525, .f32⟩
  | 71 => ⟨S64x8525x1, .f32⟩
  | 72 => ⟨S64x8525, .f32⟩
  | 73 => ⟨S64x8525x1, .f32⟩
  | 74 => ⟨S64x8525, .f32⟩
  | 75 => ⟨S64x8525, .f32⟩
  | 76 => ⟨S64x8525, .f32⟩
  | 77 => ⟨S64x8525, .f32⟩
  | 78 => ⟨S64x8525, .f32⟩
  | 79 => ⟨S64x8525, .f32⟩
  | 80 => ⟨S_, .f32⟩
  | 81 => ⟨S64x8525, .f32⟩
  | 82 => ⟨S64x8525, .f32⟩
  | 83 => ⟨S64x8525, .f32⟩
  | 84 => ⟨S64x8525, .f32⟩
  | 85 => ⟨S64x8525x1, .f32⟩
  | 86 => ⟨S64x8525, .f32⟩
  | 87 => ⟨S_, .f32⟩
  | 88 => ⟨S_, .f32⟩
  | 89 => ⟨S_, .f32⟩
  | 90 => ⟨S_, .f32⟩
  | 91 => ⟨S_, .f32⟩
  | 92 => ⟨S64x8525, .f32⟩
  | 93 => ⟨S64x8525, .f32⟩
  | 94 => ⟨S64x8525, .f32⟩
  | 95 => ⟨S64x8525, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | _ => ⟨S64x8525x85, .f32⟩

abbrev hbmTy (i : Nat) : BufTy := match i / 128 with
  | 0 => hbmTy0_0 i
  | 1 => hbmTy0_1 i
  | _ => ⟨S64x8525x85, .f32⟩

abbrev bufTy : (tb : Table) → Fin (tcTables nBuf tb) → BufTy
  | .hbm, ⟨i, _⟩ => hbmTy i
  | _, _ => ⟨S64x8525x85, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_9 : Ref sig .tc := ⟨.hbm, 48, rfl⟩
abbrev main_v34 : Ref sig .tc := ⟨.hbm, 49, rfl⟩
abbrev main_v35 : Ref sig .tc := ⟨.hbm, 50, rfl⟩
abbrev main_cst_10 : Ref sig .tc := ⟨.hbm, 51, rfl⟩
abbrev main_v36 : Ref sig .tc := ⟨.hbm, 52, rfl⟩
abbrev main_cst_11 : Ref sig .tc := ⟨.hbm, 53, rfl⟩
abbrev main_v37 : Ref sig .tc := ⟨.hbm, 54, rfl⟩
abbrev main_cst_12 : Ref sig .tc := ⟨.hbm, 55, rfl⟩
abbrev main_v38 : Ref sig .tc := ⟨.hbm, 56, rfl⟩
abbrev main_v39 : Ref sig .tc := ⟨.hbm, 57, rfl⟩
abbrev main_cst_13 : Ref sig .tc := ⟨.hbm, 58, rfl⟩
abbrev main_v40 : Ref sig .tc := ⟨.hbm, 59, rfl⟩
abbrev main_cst_14 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_15 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_16 : Ref sig .tc := ⟨.hbm, 72, rfl⟩
abbrev main_v51 : Ref sig .tc := ⟨.hbm, 73, rfl⟩
abbrev main_v52 : Ref sig .tc := ⟨.hbm, 74, rfl⟩
abbrev main_cst_17 : Ref sig .tc := ⟨.hbm, 75, rfl⟩
abbrev main_v53 : Ref sig .tc := ⟨.hbm, 76, rfl⟩
abbrev main_v54 : Ref sig .tc := ⟨.hbm, 77, rfl⟩
abbrev main_cst_18 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_19 : Ref sig .tc := ⟨.hbm, 84, rfl⟩
abbrev main_v60 : Ref sig .tc := ⟨.hbm, 85, rfl⟩
abbrev main_v61 : Ref sig .tc := ⟨.hbm, 86, rfl⟩
abbrev main_cst_20 : Ref sig .tc := ⟨.hbm, 87, rfl⟩
abbrev main_v62 : Ref sig .tc := ⟨.hbm, 88, rfl⟩
abbrev main_cst_21 : Ref sig .tc := ⟨.hbm, 89, rfl⟩
abbrev main_v63 : Ref sig .tc := ⟨.hbm, 90, rfl⟩
abbrev main_cst_22 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_23 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_cst_24 : Ref sig .tc := ⟨.hbm, 130, rfl⟩
abbrev main_call0_v0 : Ref sig .tc := ⟨.hbm, 131, rfl⟩
abbrev main_call0_v1 : Ref sig .tc := ⟨.hbm, 132, rfl⟩
abbrev main_v101 : Ref sig .tc := ⟨.hbm, 133, rfl⟩
abbrev main_v102 : Ref sig .tc := ⟨.hbm, 134, rfl⟩
abbrev main_cst_25 : Ref sig .tc := ⟨.hbm, 135, rfl⟩
abbrev main_call1_v0 : Ref sig .tc := ⟨.hbm, 136, rfl⟩
abbrev main_call1_v1 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_cst_26 : Ref sig .tc := ⟨.hbm, 145, rfl⟩
abbrev main_call2_v0 : Ref sig .tc := ⟨.hbm, 146, rfl⟩
abbrev main_call2_v1 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_cst_27 : Ref sig .tc := ⟨.hbm, 154, rfl⟩
abbrev main_call3_v0 : Ref sig .tc := ⟨.hbm, 155, rfl⟩
abbrev main_call3_v1 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_cst_28 : Ref sig .tc := ⟨.hbm, 164, rfl⟩
abbrev main_call4_v0 : Ref sig .tc := ⟨.hbm, 165, rfl⟩
abbrev main_call4_v1 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_cst_29 : Ref sig .tc := ⟨.hbm, 173, rfl⟩
abbrev main_call5_v0 : Ref sig .tc := ⟨.hbm, 174, rfl⟩
abbrev main_call5_v1 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_cst_30 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_cst_31 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_cst_32 : Ref sig .tc := ⟨.hbm, 215, rfl⟩
abbrev main_v166 : Ref sig .tc := ⟨.hbm, 216, rfl⟩
abbrev main_cst_33 : Ref sig .tc := ⟨.hbm, 217, rfl⟩
abbrev main_v167 : Ref sig .tc := ⟨.hbm, 218, rfl⟩
abbrev main_cst_34 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_cst_35 : Ref sig .tc := ⟨.hbm, 224, rfl⟩
abbrev main_v172 : Ref sig .tc := ⟨.hbm, 225, rfl⟩
abbrev main_cst_36 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩

abbrev nD : Nat := 1
abbrev τ : Topo := Topo.v7x

variable {F : FTy → Type} [FloatOps F]

class Facts₀ : Prop where
  slices_S64x8525x85_S64x8525x80_0_0_0 : S64x8525x85.Slices ![0, 0, 0] S64x8525x80
  bcast_S_S64x8525x80 : S_.BroadcastsInDim S64x8525x80 (![] : Fin 0 → Fin S64x8525x80.rank)
  slices_S64x8525x88_S64x8525x80_0_0_0 : S64x8525x88.Slices ![0, 0, 0] S64x8525x80
  reducesTo_S64x8525x80_S64_d1_2 : S64x8525x80.ReducesTo [1, 2] S64
  h_S_ : 0 < S_.numel
  reducesTo_S64_S_d0 : S64.ReducesTo [0] S_
  slices_S64x8525x88_S64x8525x1_0_0_85 : S64x8525x88.Slices ![0, 0, 85] S64x8525x1
  shapeCasts_S64x8525x1_S64x8525 : S64x8525x1.ShapeCasts S64x8525
  bcast_S_S64x8525 : S_.BroadcastsInDim S64x8525 (![] : Fin 0 → Fin S64x8525.rank)
  slices_S64x8525x85_S64x8525x1_0_0_80 : S64x8525x85.Slices ![0, 0, 80] S64x8525x1
  reducesTo_S64x8525_S64_d1 : S64x8525.ReducesTo [1] S64
  slices_S64x8525x88_S64x8525x1_0_0_86 : S64x8525x88.Slices ![0, 0, 86] S64x8525x1
  slices_S64x8525x85_S64x8525x4_0_0_81 : S64x8525x85.Slices ![0, 0, 81] S64x8525x4
  bcast_S8525x2_S1x8525x2_1_2 : S8525x2.BroadcastsInDim S1x8525x2 (![1, 2] : Fin 2 → Fin S1x8525x2.rank)
  slices_S64x8525x4_S64x8525x2_0_0_0 : S64x8525x4.Slices ![0, 0, 0] S64x8525x2
  bcast_S1x8525x2_S64x8525x2_0_1_2 : S1x8525x2.BroadcastsInDim S64x8525x2 (![0, 1, 2] : Fin 3 → Fin S64x8525x2.rank)
  slices_S64x8525x4_S64x8525x2_0_0_2 : S64x8525x4.Slices ![0, 0, 2] S64x8525x2
  concatenates_S64x8525x2_S64x8525x2_S64x8525x4_d2 : Shape.Concatenates [S64x8525x2, S64x8525x2] S64x8525x4 2
  slices_S64x8525x88_S64x8525x4_0_0_81 : S64x8525x88.Slices ![0, 0, 81] S64x8525x4
  slices_S64x8525x4_S64x8525x1_0_0_0 : S64x8525x4.Slices ![0, 0, 0] S64x8525x1
  slices_S64x8525x4_S64x8525x1_0_0_1 : S64x8525x4.Slices ![0, 0, 1] S64x8525x1
  slices_S64x8525x4_S64x8525x1_0_0_2 : S64x8525x4.Slices ![0, 0, 2] S64x8525x1
  slices_S64x8525x4_S64x8525x1_0_0_3 : S64x8525x4.Slices ![0, 0, 3] S64x8525x1
  slices_S64x8525x88_S64x8525x1_0_0_80 : S64x8525x88.Slices ![0, 0, 80] S64x8525x1
  reducesTo_S64x8525_S_d0_1 : S64x8525.ReducesTo [0, 1] S_

variable [Facts₀]

class Facts : Prop extends Facts₀ where

variable [Facts]
-- ==== Proof.BodyBits.lean ====
/-
  The kernel body at one grid point, as a triple over whatever the five buffers hold. The body zeroes the five running
  sums when the point is the first of its half (tt = 0), loads the three input blocks, adds the point's five partial
  sums (each the masked sum over the block's rows of an elementwise term) to the running sums, and copies them to the
  output's block when the point is the last of its half (tt = 33); the input buffers end as they were. The arithmetic
  stays folded in the payloads' names: this module is about which buffer ends holding what.
-/
import proofs.«430690_j60112362275593_1_alg».proof.Proof.Gen.Kernel.Frame
import proofs.«430690_j60112362275593_1_alg».proof.Proof.Gen.Kernel.Skeleton
import Idealize.ShloMosaic.Lib.Tactic

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## Whole memrefs read and written at their own sizes -/

section Whole

variable {sg : RefSig} {Val : EltTy → Type} {κ : Kind} {sp : Space} {s : Shape} {e : EltTy} {m : Memref sg κ sp s e}

/-- A load through a whole memref at zero offsets and the memref's own sizes reads what the memref reads. -/
theorem readAt_unit_zero_eq_read (h : m.IsWhole) {off : Fin s.rank → Nat} (hz : off = fun _ => 0)
    (inb : ∀ a, off a + s.size a ≤ s.size a) (g : m.view.ty.Contents Val) :
    m.view.readAt Val (Rect.unit off s.size inb).toLoadRect g = m.view.read Val g := by
  obtain ⟨b, rfl, rfl, rfl, hm⟩ := h; cases hm
  exact Memref.readAt_unit_zero Val b hz inb g

/-- The same at the raw contents that read `X`: the load reads `X`. -/
theorem readAt_unit_zero_unread (h : m.IsWhole) {off : Fin s.rank → Nat} (hz : off = fun _ => 0)
    (inb : ∀ a, off a + s.size a ≤ s.size a) (X : s.Idx → Val e) :
    m.view.readAt Val (Rect.unit off s.size inb).toLoadRect (h.unread X) = X :=
  (readAt_unit_zero_eq_read h hz inb _).trans (h.read_unread X)

/-- After an unmasked store through a whole memref at zero offsets and its own sizes, whatever was stored before,
    the memref reads the payload. -/
theorem read_writes_unit_zero (h : m.IsWhole) {off : Fin s.rank → Nat} (hz : off = fun _ => 0)
    (inb : ∀ a, off a + s.size a ≤ s.size a) (f : m.view.ty.Contents Val) (w : s.Idx → Val e)
    (L : List (View.Piece Val s e)) :
    m.view.read Val (m.view.writes Val f (⟨Rect.unit off s.size inb, w⟩ :: L)) = w := by
  obtain ⟨b, rfl, rfl, rfl, hm⟩ := h; cases hm
  exact Memref.write_access_unit_zero_univ Val b hz inb _ w

end Whole

/-! ## The body's two conditions, from the grid coordinates -/

/-- The first conditional's condition (the scratch is zeroed): the inner coordinate is 0. -/
abbrev condReset (i : grid0.Coords) : Prop :=
  (Scalar.cmpi .ne (Scalar.extui (Scalar.cmpi .eq (BitVec.ofNat 32 (i 1).val) 0#32)) 0#32) = 1#1
/-- The second conditional's condition (the scratch is copied out): the inner coordinate is 33. -/
abbrev condCopy (i : grid0.Coords) : Prop := k0_cond2 i = 1#1

theorem hcondReset : ∀ t : Fin cfg0.N, condReset (grid0.coords t) ↔ t.val % 34 = 0 :=
  (by decide +kernel : ∀ t : Fin grid0.N, condReset (grid0.coords t) ↔ t.val % 34 = 0)
theorem hcondCopy : ∀ t : Fin cfg0.N, condCopy (grid0.coords t) ↔ t.val % 34 = 33 :=
  (by decide +kernel : ∀ t : Fin grid0.N, condCopy (grid0.coords t) ↔ t.val % 34 = 33)

theorem zeros3 : (![0, 0, 0] : Fin 3 → Nat) = fun _ => 0 := funext fun a => by fin_cases a <;> rfl
theorem zeros2 : (![0, 0] : Fin 2 → Nat) = fun _ => 0 := funext fun a => by fin_cases a <;> rfl
/-! ## The body at a point -/

/-- The five running sums after the body at a point, from the three staging blocks and the sums found. -/
def newAcc (i : grid0.Coords) (X0 : Vec F S32x256x85 .f32) (X1 : Vec F S32x256x88 .f32) (X2 : Vec F S256x2 .f32)
    (S : Vec F S1x5x32 .f32) : Vec F S1x5x32 .f32 :=
  k0_pay1 (k0_pay21 X1 (k0_pay3 i) (k0_pay10 (k0_pay7 i X0 X1)) (k0_pay11 (k0_pay4 i) (k0_pay6 X1) (k0_pay8 X0) (k0_pay9 X0))
    (k0_pay12 X0 X1 (k0_pay3 i)) (k0_pay13 X0 X2) (k0_pay14 X1)
    (k0_pay18 (k0_pay13 X0 X2) (k0_pay14 X1) (k0_pay15 X0 X1 X2) (k0_pay16 X0 X1 X2))
    (k0_pay19 (k0_pay13 X0 X2) (k0_pay14 X1) (k0_pay15 X0 X1 X2) (k0_pay16 X0 X1 X2))
    (k0_pay20 (k0_pay13 X0 X2)) S)

/-- The scratch after the body at point `t`: reset to zero first when the inner coordinate is 0. -/
def accAfter (t : Fin cfg0.N) (X0 : Vec F S32x256x85 .f32) (X1 : Vec F S32x256x88 .f32) (X2 : Vec F S256x2 .f32)
    (S : Vec F S1x5x32 .f32) : Vec F S1x5x32 .f32 :=
  newAcc (grid0.coords t) X0 X1 X2 (if t.val % 34 = 0 then k0_pay2 else S)

/-- The output's staging buffer after the body: the scratch copied when the inner coordinate is 33, untouched
    otherwise. -/
def outAfter (t : Fin cfg0.N) (X0 : Vec F S32x256x85 .f32) (X1 : Vec F S32x256x88 .f32) (X2 : Vec F S256x2 .f32)
    (O S : Vec F S1x5x32 .f32) : Vec F S1x5x32 .f32 :=
  if t.val % 34 = 33 then accAfter t X0 X1 X2 S else O

/-! ## The body on any whole memrefs, by the case of the point

The printed function is its skeleton, and its four parts theirs; the run goes through the loads (each reads what its
whole memref holds), the conditionals (decided by the case) and the unmasked whole stores (each leaves its payload). -/

/-- The body at a point strictly inside a row of the grid (inner coordinate neither 0 nor 33): the five partial
    sums are added to the scratch; the output's buffer is not touched. -/
theorem body_mid (c : Dev nD) (i : grid0.Coords)
    (arg2 : Memref sig .tc .vmem S32x256x85 .f32) (harg2 : arg2.IsWhole) (arg3 : Memref sig .tc .vmem S32x256x88 .f32) (harg3 : arg3.IsWhole)
    (arg4 : Memref sig .tc .vmem S256x2 .f32) (harg4 : arg4.IsWhole) (arg5 : Memref sig .tc .vmem S1x5x32 .f32) (harg5 : arg5.IsWhole)
    (arg6 : Memref sig .tc .vmem S1x5x32 .f32) (harg6 : arg6.IsWhole)
    (hc0 : ¬condReset i) (hc1 : ¬condCopy i)
    (X0 : Vec F S32x256x85 .f32) (X1 : Vec F S32x256x88 .f32) (X2 : Vec F S256x2 .f32) (O S : Vec F S1x5x32 .f32) (K : PUnit → sProp 𝕄) :
    iprop((owns (c : Thread nD τ) arg2 fullShare X0 ∗ owns (c : Thread nD τ) arg3 fullShare X1 ∗ owns (c : Thread nD τ) arg4 fullShare X2
            ∗ owns (c : Thread nD τ) arg5 fullShare O ∗ owns (c : Thread nD τ) arg6 fullShare S)
          ∗ (iprop(owns (c : Thread nD τ) arg2 fullShare X0 ∗ owns (c : Thread nD τ) arg3 fullShare X1 ∗ owns (c : Thread nD τ) arg4 fullShare X2
                  ∗ owns (c : Thread nD τ) arg5 fullShare O ∗ owns (c : Thread nD τ) arg6 fullShare (newAcc i X0 X1 X2 S)) -∗ K ⟨⟩))
      ⊢ wp frame (wpE (defs₀ (F := F)) Variants.none c none) Set.univ (cc0__reduce_kernel i arg2 harg2 arg3 harg3 arg4 harg4 arg5 harg5 arg6 harg6) K := by
  simp only [cc0__reduce_kernel_eq_skeleton]; unfold cc0__reduce_kernel_skel
  simp only [k0_part1_eq_skeleton, k0_part2_eq_skeleton, k0_part3_eq_skeleton, k0_part4_eq_skeleton]
  unfold k0_part1_skel k0_part2_skel k0_part3_skel k0_part4_skel
  unfold owns
  iintro ⟨⟨⟨%f0, %hf0, H0⟩, ⟨%f1, %hf1, H1⟩, ⟨%f2, %hf2, H2⟩, ⟨%f3, %hf3, H3⟩, ⟨%f6, %hf6, H6⟩⟩, Hk⟩
  obtain rfl := harg2.eq_unread hf0; obtain rfl := harg3.eq_unread hf1; obtain rfl := harg4.eq_unread hf2
  obtain rfl := harg5.eq_unread hf3; obtain rfl := harg6.eq_unread hf6
  have hr0 := readAt_unit_zero_unread (Val := Elt F) harg2 zeros3 inb_S32x256x85_S32x256x85_0_0_0 X0
  have hr1 := readAt_unit_zero_unread (Val := Elt F) harg3 zeros3 inb_S32x256x88_S32x256x88_0_0_0 X1
  have hr2 := readAt_unit_zero_unread (Val := Elt F) harg4 zeros2 inb_S256x2_S256x2_0_0 X2
  have hr6 := readAt_unit_zero_unread (Val := Elt F) harg6 zeros3 inb_S1x5x32_S1x5x32_0_0_0 S
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr; rotate_left
  · iexact H6
  ipureintro
  rw [read_writes_unit_zero harg6 zeros3]
  simp only [hr0, hr1, hr2, hr6]
  rfl

/-- The body at the first point of a row of the grid (inner coordinate 0): the scratch is zeroed, then the five
    partial sums are added to it; the output's buffer is not touched. -/
theorem body_reset (c : Dev nD) (i : grid0.Coords)
    (arg2 : Memref sig .tc .vmem S32x256x85 .f32) (harg2 : arg2.IsWhole) (arg3 : Memref sig .tc .vmem S32x256x88 .f32) (harg3 : arg3.IsWhole)
    (arg4 : Memref sig .tc .vmem S256x2 .f32) (harg4 : arg4.IsWhole) (arg5 : Memref sig .tc .vmem S1x5x32 .f32) (harg5 : arg5.IsWhole)
    (arg6 : Memref sig .tc .vmem S1x5x32 .f32) (harg6 : arg6.IsWhole)
    (hc0 : condReset i) (hc1 : ¬condCopy i)
    (X0 : Vec F S32x256x85 .f32) (X1 : Vec F S32x256x88 .f32) (X2 : Vec F S256x2 .f32) (O S : Vec F S1x5x32 .f32) (K : PUnit → sProp 𝕄) :
    iprop((owns (c : Thread nD τ) arg2 fullShare X0 ∗ owns (c : Thread nD τ) arg3 fullShare X1 ∗ owns (c : Thread nD τ) arg4 fullShare X2
            ∗ owns (c : Thread nD τ) arg5 fullShare O ∗ owns (c : Thread nD τ) arg6 fullShare S)
          ∗ (iprop(owns (c : Thread nD τ) arg2 fullShare X0 ∗ owns (c : Thread nD τ) arg3 fullShare X1 ∗ owns (c : Thread nD τ) arg4 fullShare X2
                  ∗ owns (c : Thread nD τ) arg5 fullShare O ∗ owns (c : Thread nD τ) arg6 fullShare (newAcc i X0 X1 X2 k0_pay2)) -∗ K ⟨⟩))
      ⊢ wp frame (wpE (defs₀ (F := F)) Variants.none c none) Set.univ (cc0__reduce_kernel i arg2 harg2 arg3 harg3 arg4 harg4 arg5 harg5 arg6 harg6) K := by
  simp only [cc0__reduce_kernel_eq_skeleton]; unfold cc0__reduce_kernel_skel
  simp only [k0_part1_eq_skeleton, k0_part2_eq_skeleton, k0_part3_eq_skeleton, k0_part4_eq_skeleton]
  unfold k0_part1_skel k0_part2_skel k0_part3_skel k0_part4_skel
  unfold owns
  iintro ⟨⟨⟨%f0, %hf0, H0⟩, ⟨%f1, %hf1, H1⟩, ⟨%f2, %hf2, H2⟩, ⟨%f3, %hf3, H3⟩, ⟨%f6, %hf6, H6⟩⟩, Hk⟩
  obtain rfl := harg2.eq_unread hf0; obtain rfl := harg3.eq_unread hf1; obtain rfl := harg4.eq_unread hf2
  obtain rfl := harg5.eq_unread hf3; obtain rfl := harg6.eq_unread hf6
  have hr0 := readAt_unit_zero_unread (Val := Elt F) harg2 zeros3 inb_S32x256x85_S32x256x85_0_0_0 X0
  have hr1 := readAt_unit_zero_unread (Val := Elt F) harg3 zeros3 inb_S32x256x88_S32x256x88_0_0_0 X1
  have hr2 := readAt_unit_zero_unread (Val := Elt F) harg4 zeros2 inb_S256x2_S256x2_0_0 X2
  have hr6 := readAt_unit_zero_unread (Val := Elt F) harg6 zeros3 inb_S1x5x32_S1x5x32_0_0_0 S
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr; rotate_left
  · iexact H6
  ipureintro
  -- the load after the zeroing store reads the zeros
  have hv : body_reset.sl.v191 (F := F) c arg6 = k0_pay2 := View.readCov_cons_toLoadRect _ _ _ _
  refine Eq.trans (read_writes_unit_zero harg6 zeros3 _ _ _ _) ?_
  rw [hv]
  rfl

/-- The body at the last point of a row of the grid (inner coordinate 33): the five partial sums are added to the
    scratch, and the scratch is copied to the output's buffer. -/
theorem body_copy (c : Dev nD) (i : grid0.Coords)
    (arg2 : Memref sig .tc .vmem S32x256x85 .f32) (harg2 : arg2.IsWhole) (arg3 : Memref sig .tc .vmem S32x256x88 .f32) (harg3 : arg3.IsWhole)
    (arg4 : Memref sig .tc .vmem S256x2 .f32) (harg4 : arg4.IsWhole) (arg5 : Memref sig .tc .vmem S1x5x32 .f32) (harg5 : arg5.IsWhole)
    (arg6 : Memref sig .tc .vmem S1x5x32 .f32) (harg6 : arg6.IsWhole)
    (hc0 : ¬condReset i) (hc1 : condCopy i)
    (X0 : Vec F S32x256x85 .f32) (X1 : Vec F S32x256x88 .f32) (X2 : Vec F S256x2 .f32) (O S : Vec F S1x5x32 .f32) (K : PUnit → sProp 𝕄) :
    iprop((owns (c : Thread nD τ) arg2 fullShare X0 ∗ owns (c : Thread nD τ) arg3 fullShare X1 ∗ owns (c : Thread nD τ) arg4 fullShare X2
            ∗ owns (c : Thread nD τ) arg5 fullShare O ∗ owns (c : Thread nD τ) arg6 fullShare S)
          ∗ (iprop(owns (c : Thread nD τ) arg2 fullShare X0 ∗ owns (c : Thread nD τ) arg3 fullShare X1 ∗ owns (c : Thread nD τ) arg4 fullShare X2
                  ∗ owns (c : Thread nD τ) arg5 fullShare (newAcc i X0 X1 X2 S) ∗ owns (c : Thread nD τ) arg6 fullShare (newAcc i X0 X1 X2 S)) -∗ K ⟨⟩))
      ⊢ wp frame (wpE (defs₀ (F := F)) Variants.none c none) Set.univ (cc0__reduce_kernel i arg2 harg2 arg3 harg3 arg4 harg4 arg5 harg5 arg6 harg6) K := by
  simp only [cc0__reduce_kernel_eq_skeleton]; unfold cc0__reduce_kernel_skel
  simp only [k0_part1_eq_skeleton, k0_part2_eq_skeleton, k0_part3_eq_skeleton, k0_part4_eq_skeleton]
  unfold k0_part1_skel k0_part2_skel k0_part3_skel k0_part4_skel
  unfold owns
  iintro ⟨⟨⟨%f0, %hf0, H0⟩, ⟨%f1, %hf1, H1⟩, ⟨%f2, %hf2, H2⟩, ⟨%f3, %hf3, H3⟩, ⟨%f6, %hf6, H6⟩⟩, Hk⟩
  obtain rfl := harg2.eq_unread hf0; obtain rfl := harg3.eq_unread hf1; obtain rfl := harg4.eq_unread hf2
  obtain rfl := harg5.eq_unread hf3; obtain rfl := harg6.eq_unread hf6
  have hr0 := readAt_unit_zero_unread (Val := Elt F) harg2 zeros3 inb_S32x256x85_S32x256x85_0_0_0 X0
  have hr1 := readAt_unit_zero_unread (Val := Elt F) harg3 zeros3 inb_S32x256x88_S32x256x88_0_0_0 X1
  have hr2 := readAt_unit_zero_unread (Val := Elt F) harg4 zeros2 inb_S256x2_S256x2_0_0 X2
  have hr6 := readAt_unit_zero_unread (Val := Elt F) harg6 zeros3 inb_S1x5x32_S1x5x32_0_0_0 S
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; rotate_left
    · iexact H3
    ipureintro
    -- the copied value is what the load of the scratch after its store reads: the store's payload
    refine Eq.trans (read_writes_unit_zero harg5 zeros3 _ _ _ _) ?_
    refine Eq.trans (View.readCov_cons_toLoadRect _ _ _ _) ?_
    rfl
  iexists _; isplitr; rotate_left
  · iexact H6
  ipureintro
  refine Eq.trans (read_writes_unit_zero harg6 zeros3 _ _ _ _) ?_
  rfl

/-- The body at point `t`: the three input buffers are read and left as found; the scratch ends holding
    `accAfter`, the output's buffer `outAfter`. -/
theorem sound_body (c : Dev nD) (t : Fin cfg0.N) (X0 : Vec F S32x256x85 .f32) (X1 : Vec F S32x256x88 .f32)
    (X2 : Vec F S256x2 .f32) (O S : Vec F S1x5x32 .f32) (K : PUnit → sProp 𝕄) :
    iprop((owns (c : Thread nD τ) (win0_0.stage (cfg0.slots t 0)) fullShare X0
            ∗ owns (c : Thread nD τ) (win0_1.stage (cfg0.slots t 1)) fullShare X1
            ∗ owns (c : Thread nD τ) (win0_2.stage (cfg0.slots t 2)) fullShare X2
            ∗ owns (c : Thread nD τ) (win0_3.stage (cfg0.slots t 3)) fullShare O
            ∗ owns (c : Thread nD τ) (Memref.whole cc0_scratch0) fullShare S)
          ∗ (iprop(owns (c : Thread nD τ) (win0_0.stage (cfg0.slots t 0)) fullShare X0
                  ∗ owns (c : Thread nD τ) (win0_1.stage (cfg0.slots t 1)) fullShare X1
                  ∗ owns (c : Thread nD τ) (win0_2.stage (cfg0.slots t 2)) fullShare X2
                  ∗ owns (c : Thread nD τ) (win0_3.stage (cfg0.slots t 3)) fullShare (outAfter t X0 X1 X2 O S)
                  ∗ owns (c : Thread nD τ) (Memref.whole cc0_scratch0) fullShare (accAfter t X0 X1 X2 S)) -∗ K ⟨⟩))
      ⊢ wp frame (wpE (defs₀ (F := F)) Variants.none c none) Set.univ (bodyAt0 (F := F) t) K := by
  by_cases h0 : t.val % 34 = 0
  · -- the first point of a row: the scratch is zeroed first, nothing is copied out
    have hc0 : condReset (grid0.coords t) := (hcondReset t).2 h0
    have hc1 : ¬condCopy (grid0.coords t) := fun h => by have := (hcondCopy t).1 h; omega
    have hO : outAfter t X0 X1 X2 O S = O := by unfold outAfter; rw [if_neg (by omega)]
    have hS : accAfter t X0 X1 X2 S = newAcc (grid0.coords t) X0 X1 X2 k0_pay2 := by unfold accAfter; rw [if_pos h0]
    rw [hO, hS]
    exact body_reset c (grid0.coords t) _ _ _ _ _ _ _ _ _ _ hc0 hc1 X0 X1 X2 O S K
  · have hc0 : ¬condReset (grid0.coords t) := fun h => h0 ((hcondReset t).1 h)
    have hS : accAfter t X0 X1 X2 S = newAcc (grid0.coords t) X0 X1 X2 S := by unfold accAfter; rw [if_neg h0]
    by_cases h33 : t.val % 34 = 33
    · -- the last point of a row: the scratch is copied out after the sums are added
      have hc1 : condCopy (grid0.coords t) := (hcondCopy t).2 h33
      have hO : outAfter t X0 X1 X2 O S = newAcc (grid0.coords t) X0 X1 X2 S := by unfold outAfter; rw [if_pos h33, hS]
      rw [hO, hS]
      exact body_copy c (grid0.coords t) _ _ _ _ _ _ _ _ _ _ hc0 hc1 X0 X1 X2 O S K
    · -- a point inside a row: the sums are added, nothing else
      have hc1 : ¬condCopy (grid0.coords t) := fun h => h33 ((hcondCopy t).1 h)
      have hO : outAfter t X0 X1 X2 O S = O := by unfold outAfter; rw [if_neg h33]
      rw [hO, hS]
      exact body_mid c (grid0.coords t) _ _ _ _ _ _ _ _ _ _ hc0 hc1 X0 X1 X2 O S K

end Cert.Kernel.Hand

end
-- ==== Proof.FrameBits.lean ====
/-
  The frame of the word-level kernel: it runs to the end, faults nowhere and leaves its four argument arrays as they
  were. At the word level what the body leaves in the running sums and in the output's block after the last point of
  a half depends on the unnamed words past the clipped input blocks' end, so the proof data is relational: every
  window's relation says nothing, the invariant holds the scratch at some contents, and the four arguments are read
  back as inputs (the three staged arrays) or as a buffer the region and the later operations never write.
-/
import proofs.«430690_j60112362275593_1_alg».proof.Proof.BodyBits

set_option maxRecDepth 16384

noncomputable section

namespace Cert.Kernel.HandRel

open Cert.Kernel Cert.Kernel.Gen Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Proof data that name no staging contents

At the word level the five running sums depend, at the last inner point, on words of the clipped input blocks
that nothing names; the frame does not read them. So the data relate nothing: each window's relation holds of
any two contents, the invariant is the class's (the scratch at anything), nothing is owed. -/

/-- The relational proof data of the one pipeline on core `c`. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The class invariant with the scratch as a memref owned at some contents. -/
theorem PhiA_eq (c : Dev nD) :
    (Pipeline.ΦA spec0 c : sProp 𝕄)
      = iprop((∃ S, owns (c : Thread nD τ) (Memref.whole cc0_scratch0) fullShare S) ∗ (∃ r, prngReg c r)) := by
  unfold Pipeline.ΦA; rw [scopedRest0_eq]; simp only [owns_whole]

/-- The body obligation: at every point the body runs from whatever the five buffers hold and hands each
    back at some contents. -/
theorem body_obligation (c : Dev nD) :
    (rdat (F := F) m c).BodyObligation (defs₀ (F := F)) Variants.none () Set.univ := fun t Y _ => by
  rw [bigSep_W0, bigSep_W0]
  show iprop(Pipeline.ΦA spec0 c ∗ (rdat (F := F) m c).owesAt () t.castSucc
        ∗ owns (c : Thread nD τ) (win0_0.stage (cfg0.slots t 0)) fullShare (Y 0)
        ∗ owns (c : Thread nD τ) (win0_1.stage (cfg0.slots t 1)) fullShare (Y 1)
        ∗ owns (c : Thread nD τ) (win0_2.stage (cfg0.slots t 2)) fullShare (Y 2)
        ∗ owns (c : Thread nD τ) (win0_3.stage (cfg0.slots t 3)) fullShare (Y 3))
      ⊢ wp frame (wpE (defs₀ (F := F)) Variants.none c none) Set.univ (bodyAt0 (F := F) t) fun _ =>
        iprop(Pipeline.ΦA spec0 c ∗ (rdat (F := F) m c).owesAt () t.castSucc
          ∗ (∃ X, ⌜True⌝ ∗ owns (c : Thread nD τ) (win0_0.stage (cfg0.slots t 0)) fullShare X)
          ∗ (∃ X, ⌜True⌝ ∗ owns (c : Thread nD τ) (win0_1.stage (cfg0.slots t 1)) fullShare X)
          ∗ (∃ X, ⌜True⌝ ∗ owns (c : Thread nD τ) (win0_2.stage (cfg0.slots t 2)) fullShare X)
          ∗ (∃ X, ⌜True⌝ ∗ owns (c : Thread nD τ) (win0_3.stage (cfg0.slots t 3)) fullShare X))
  rw [PhiA_eq]
  iintro ⟨⟨⟨%S, HS⟩, Hg⟩, Hp, H0, H1, H2, H3⟩
  iapply (sound_body c t (Y 0) (Y 1) (Y 2) (Y 3) S _)
  isplitl [H0 H1 H2 H3 HS]
  · isplitl [H0]; · iexact H0
    isplitl [H1]; · iexact H1
    isplitl [H2]; · iexact H2
    isplitl [H3]; · iexact H3
    iexact HS
  iintro ⟨H0, H1, H2, H3, HS⟩
  isplitl [HS Hg]
  · isplitl [HS]
    · iexists _; iexact HS
    iexact Hg
  isplitl [Hp]; · iexact Hp
  isplitl [H0]
  · iexists _; isplitr; · ipureintro; trivial
    iexact H0
  isplitl [H1]
  · iexists _; isplitr; · ipureintro; trivial
    iexact H1
  isplitl [H2]
  · iexists _; isplitr; · ipureintro; trivial
    iexact H2
  · iexists _; isplitr; · ipureintro; trivial
    iexact H3

/-! ## The run and the frame -/

/-- No host operation after the region writes `main_arg3`. -/
theorem hostOps1_keeps_arg3 :
    (hostOps1 : List (HloOp τ sig (Elt F))).Forall fun op => Proc.devRef .tc main_arg3 ∉ op.writes := by
  simp only [hostOps1, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)

/-- The buffers the host operations after the region may write: every one but `main_arg3`. -/
def T : Finset (Ref sig .tc) := Finset.univ.filter fun b => b ≠ main_arg3

theorem sfx_T : ∀ ops ∈ ([hostOps1] : List (List (HloOp τ sig (Elt F)))), ∀ op ∈ ops,
    ∀ b : Ref sig .tc, Proc.devRef .tc b ∈ op.writes → b ∈ T := by
  intro ops hops op hop b hb
  simp only [List.mem_cons, List.mem_nil_iff, or_false] at hops
  subst hops
  simp only [T, Finset.mem_filter, Finset.mem_univ, true_and]
  rintro rfl
  exact (List.forall_iff_forall_mem.mp hostOps1_keeps_arg3) op hop hb

set_option backward.isDefEq.respectTransparency.types false in
/-- Every weakly fair execution of @main ends; at the end each array of the pipeline holds some contents it may
    hold after the write-backs, and every bypassing buffer the host operations do not write is as at entry. -/
theorem run_main : θ_run defs (onTc (τ := τ) (main (F := F))) (s₀ m ρ)
    (RDat.FramePostR cfg0 (rdat (F := F) m) T (fun c b => V0 m c (Proc.devRef .tc b))) :=
  Pipeline.RDat.θ_run_frame_around_T_track cfgs (0 : Fin 1) launch0 defs₀ Variants.none (rdat (F := F) m) T m ρ main
    (hbody := body_obligation m) (hshare := fun c => (rdat (F := F) m c).share_full fun _ => rfl)
    (howed := fun _ _ => rfl) (V₀ := V0 m) (opss := [hostOps1]) (hsub := sfx_sub) (hfresh := sfx_fresh)
    (hkeep := sfx_keeps) (hT := sfx_T) (hmain := hmain m Variants.none) (hA := fun _ _ => rfl)
    (hin := fun _ => Idealize.SL.BI.Entails.refl _) (hout := fun _ => Idealize.SL.BI.Entails.refl _)

/-- The frame of the word-level kernel: @main runs to the end and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h.arr_in c 0 rfl).trans (V_main_arg0 m c),
     (h.arr_in c 1 rfl).trans (V_main_arg1 m c),
     (h.arr_in c 2 rfl).trans (V_main_arg2 m c),
     ((h c).2 main_arg3 (Finset.mem_sdiff.mpr ⟨Pipeline.mem_restRefs_of main_arg3 (by decide) (by decide),
        by simp only [T, Finset.mem_filter, Finset.mem_univ, true_and, ne_eq, not_true_eq_false, not_false_eq_true]⟩)).trans
       (V_main_arg3 m c)⟩) (run_main m ρ)

end Cert.Kernel.HandRel

end
-- ==== Proof.BodyIdeal.lean ====
/-
  The kernel body at one grid point, as a triple over whatever the five buffers hold. The body zeroes the five running
  sums when the point is the first of its half (tt = 0), loads the three input blocks, adds the point's five partial
  sums (each the masked sum over the block's rows of an elementwise term) to the running sums, and copies them to the
  output's block when the point is the last of its half (tt = 33); the input buffers end as they were. The arithmetic
  stays folded in the payloads' names: this module is about which buffer ends holding what.
-/
import proofs.«430690_j60112362275593_1_alg».proof.Proof.Gen.KernelIdeal.Frame
import proofs.«430690_j60112362275593_1_alg».proof.Proof.Gen.KernelIdeal.Skeleton
import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## Whole memrefs read and written at their own sizes -/

section Whole

variable {sg : RefSig} {Val : EltTy → Type} {κ : Kind} {sp : Space} {s : Shape} {e : EltTy} {m : Memref sg κ sp s e}

/-- A load through a whole memref at zero offsets and the memref's own sizes reads what the memref reads. -/
theorem readAt_unit_zero_eq_read (h : m.IsWhole) {off : Fin s.rank → Nat} (hz : off = fun _ => 0)
    (inb : ∀ a, off a + s.size a ≤ s.size a) (g : m.view.ty.Contents Val) :
    m.view.readAt Val (Rect.unit off s.size inb).toLoadRect g = m.view.read Val g := by
  obtain ⟨b, rfl, rfl, rfl, hm⟩ := h; cases hm
  exact Memref.readAt_unit_zero Val b hz inb g

/-- The same at the raw contents that read `X`: the load reads `X`. -/
theorem readAt_unit_zero_unread (h : m.IsWhole) {off : Fin s.rank → Nat} (hz : off = fun _ => 0)
    (inb : ∀ a, off a + s.size a ≤ s.size a) (X : s.Idx → Val e) :
    m.view.readAt Val (Rect.unit off s.size inb).toLoadRect (h.unread X) = X :=
  (readAt_unit_zero_eq_read h hz inb _).trans (h.read_unread X)

/-- After an unmasked store through a whole memref at zero offsets and its own sizes, whatever was stored before,
    the memref reads the payload. -/
theorem read_writes_unit_zero (h : m.IsWhole) {off : Fin s.rank → Nat} (hz : off = fun _ => 0)
    (inb : ∀ a, off a + s.size a ≤ s.size a) (f : m.view.ty.Contents Val) (w : s.Idx → Val e)
    (L : List (View.Piece Val s e)) :
    m.view.read Val (m.view.writes Val f (⟨Rect.unit off s.size inb, w⟩ :: L)) = w := by
  obtain ⟨b, rfl, rfl, rfl, hm⟩ := h; cases hm
  exact Memref.write_access_unit_zero_univ Val b hz inb _ w

end Whole

/-! ## The body's two conditions, from the grid coordinates -/

/-- The first conditional's condition (the scratch is zeroed): the inner coordinate is 0. -/
abbrev condReset (i : grid0.Coords) : Prop :=
  (Scalar.cmpi .ne (Scalar.extui (Scalar.cmpi .eq (BitVec.ofNat 32 (i 1).val) 0#32)) 0#32) = 1#1
/-- The second conditional's condition (the scratch is copied out): the inner coordinate is 33. -/
abbrev condCopy (i : grid0.Coords) : Prop := k0_cond2 i = 1#1

theorem hcondReset : ∀ t : Fin cfg0.N, condReset (grid0.coords t) ↔ t.val % 34 = 0 :=
  (by decide +kernel : ∀ t : Fin grid0.N, condReset (grid0.coords t) ↔ t.val % 34 = 0)
theorem hcondCopy : ∀ t : Fin cfg0.N, condCopy (grid0.coords t) ↔ t.val % 34 = 33 :=
  (by decide +kernel : ∀ t : Fin grid0.N, condCopy (grid0.coords t) ↔ t.val % 34 = 33)

theorem zeros3 : (![0, 0, 0] : Fin 3 → Nat) = fun _ => 0 := funext fun a => by fin_cases a <;> rfl
theorem zeros2 : (![0, 0] : Fin 2 → Nat) = fun _ => 0 := funext fun a => by fin_cases a <;> rfl
/-! ## The body at a point -/

/-- The five running sums after the body at a point, from the three staging blocks and the sums found. -/
def newAcc (i : grid0.Coords) (X0 : Vec F S32x256x85 .f32) (X1 : Vec F S32x256x88 .f32) (X2 : Vec F S256x2 .f32)
    (S : Vec F S1x5x32 .f32) : Vec F S1x5x32 .f32 :=
  k0_pay1 (k0_pay21 X1 (k0_pay3 i) (k0_pay10 (k0_pay7 i X0 X1)) (k0_pay11 (k0_pay4 i) (k0_pay6 X1) (k0_pay8 X0) (k0_pay9 X0))
    (k0_pay12 X0 X1 (k0_pay3 i)) (k0_pay13 X0 X2) (k0_pay14 X1)
    (k0_pay18 (k0_pay13 X0 X2) (k0_pay14 X1) (k0_pay15 X0 X1 X2) (k0_pay16 X0 X1 X2))
    (k0_pay19 (k0_pay13 X0 X2) (k0_pay14 X1) (k0_pay15 X0 X1 X2) (k0_pay16 X0 X1 X2))
    (k0_pay20 (k0_pay13 X0 X2)) S)

/-- The scratch after the body at point `t`: reset to zero first when the inner coordinate is 0. -/
def accAfter (t : Fin cfg0.N) (X0 : Vec F S32x256x85 .f32) (X1 : Vec F S32x256x88 .f32) (X2 : Vec F S256x2 .f32)
    (S : Vec F S1x5x32 .f32) : Vec F S1x5x32 .f32 :=
  newAcc (grid0.coords t) X0 X1 X2 (if t.val % 34 = 0 then k0_pay2 else S)

/-- The output's staging buffer after the body: the scratch copied when the inner coordinate is 33, untouched
    otherwise. -/
def outAfter (t : Fin cfg0.N) (X0 : Vec F S32x256x85 .f32) (X1 : Vec F S32x256x88 .f32) (X2 : Vec F S256x2 .f32)
    (O S : Vec F S1x5x32 .f32) : Vec F S1x5x32 .f32 :=
  if t.val % 34 = 33 then accAfter t X0 X1 X2 S else O

/-! ## The body on any whole memrefs, by the case of the point

The printed function is its skeleton, and its four parts theirs; the run goes through the loads (each reads what its
whole memref holds), the conditionals (decided by the case) and the unmasked whole stores (each leaves its payload). -/

/-- The body at a point strictly inside a row of the grid (inner coordinate neither 0 nor 33): the five partial
    sums are added to the scratch; the output's buffer is not touched. -/
theorem body_mid (c : Dev nD) (i : grid0.Coords)
    (arg2 : Memref sig .tc .vmem S32x256x85 .f32) (harg2 : arg2.IsWhole) (arg3 : Memref sig .tc .vmem S32x256x88 .f32) (harg3 : arg3.IsWhole)
    (arg4 : Memref sig .tc .vmem S256x2 .f32) (harg4 : arg4.IsWhole) (arg5 : Memref sig .tc .vmem S1x5x32 .f32) (harg5 : arg5.IsWhole)
    (arg6 : Memref sig .tc .vmem S1x5x32 .f32) (harg6 : arg6.IsWhole)
    (hc0 : ¬condReset i) (hc1 : ¬condCopy i)
    (X0 : Vec F S32x256x85 .f32) (X1 : Vec F S32x256x88 .f32) (X2 : Vec F S256x2 .f32) (O S : Vec F S1x5x32 .f32) (K : PUnit → sProp 𝕄) :
    iprop((owns (c : Thread nD τ) arg2 fullShare X0 ∗ owns (c : Thread nD τ) arg3 fullShare X1 ∗ owns (c : Thread nD τ) arg4 fullShare X2
            ∗ owns (c : Thread nD τ) arg5 fullShare O ∗ owns (c : Thread nD τ) arg6 fullShare S)
          ∗ (iprop(owns (c : Thread nD τ) arg2 fullShare X0 ∗ owns (c : Thread nD τ) arg3 fullShare X1 ∗ owns (c : Thread nD τ) arg4 fullShare X2
                  ∗ owns (c : Thread nD τ) arg5 fullShare O ∗ owns (c : Thread nD τ) arg6 fullShare (newAcc i X0 X1 X2 S)) -∗ K ⟨⟩))
      ⊢ wp frame (wpE (defs₀ (F := F)) Variants.none c none) Set.univ (cc0__reduce_kernel i arg2 harg2 arg3 harg3 arg4 harg4 arg5 harg5 arg6 harg6) K := by
  simp only [cc0__reduce_kernel_eq_skeleton]; unfold cc0__reduce_kernel_skel
  simp only [k0_part1_eq_skeleton, k0_part2_eq_skeleton, k0_part3_eq_skeleton, k0_part4_eq_skeleton]
  unfold k0_part1_skel k0_part2_skel k0_part3_skel k0_part4_skel
  unfold owns
  iintro ⟨⟨⟨%f0, %hf0, H0⟩, ⟨%f1, %hf1, H1⟩, ⟨%f2, %hf2, H2⟩, ⟨%f3, %hf3, H3⟩, ⟨%f6, %hf6, H6⟩⟩, Hk⟩
  obtain rfl := harg2.eq_unread hf0; obtain rfl := harg3.eq_unread hf1; obtain rfl := harg4.eq_unread hf2
  obtain rfl := harg5.eq_unread hf3; obtain rfl := harg6.eq_unread hf6
  have hr0 := readAt_unit_zero_unread (Val := Elt F) harg2 zeros3 inb_S32x256x85_S32x256x85_0_0_0 X0
  have hr1 := readAt_unit_zero_unread (Val := Elt F) harg3 zeros3 inb_S32x256x88_S32x256x88_0_0_0 X1
  have hr2 := readAt_unit_zero_unread (Val := Elt F) harg4 zeros2 inb_S256x2_S256x2_0_0 X2
  have hr6 := readAt_unit_zero_unread (Val := Elt F) harg6 zeros3 inb_S1x5x32_S1x5x32_0_0_0 S
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr; rotate_left
  · iexact H6
  ipureintro
  rw [read_writes_unit_zero harg6 zeros3]
  simp only [hr0, hr1, hr2, hr6]
  rfl

/-- The body at the first point of a row of the grid (inner coordinate 0): the scratch is zeroed, then the five
    partial sums are added to it; the output's buffer is not touched. -/
theorem body_reset (c : Dev nD) (i : grid0.Coords)
    (arg2 : Memref sig .tc .vmem S32x256x85 .f32) (harg2 : arg2.IsWhole) (arg3 : Memref sig .tc .vmem S32x256x88 .f32) (harg3 : arg3.IsWhole)
    (arg4 : Memref sig .tc .vmem S256x2 .f32) (harg4 : arg4.IsWhole) (arg5 : Memref sig .tc .vmem S1x5x32 .f32) (harg5 : arg5.IsWhole)
    (arg6 : Memref sig .tc .vmem S1x5x32 .f32) (harg6 : arg6.IsWhole)
    (hc0 : condReset i) (hc1 : ¬condCopy i)
    (X0 : Vec F S32x256x85 .f32) (X1 : Vec F S32x256x88 .f32) (X2 : Vec F S256x2 .f32) (O S : Vec F S1x5x32 .f32) (K : PUnit → sProp 𝕄) :
    iprop((owns (c : Thread nD τ) arg2 fullShare X0 ∗ owns (c : Thread nD τ) arg3 fullShare X1 ∗ owns (c : Thread nD τ) arg4 fullShare X2
            ∗ owns (c : Thread nD τ) arg5 fullShare O ∗ owns (c : Thread nD τ) arg6 fullShare S)
          ∗ (iprop(owns (c : Thread nD τ) arg2 fullShare X0 ∗ owns (c : Thread nD τ) arg3 fullShare X1 ∗ owns (c : Thread nD τ) arg4 fullShare X2
                  ∗ owns (c : Thread nD τ) arg5 fullShare O ∗ owns (c : Thread nD τ) arg6 fullShare (newAcc i X0 X1 X2 k0_pay2)) -∗ K ⟨⟩))
      ⊢ wp frame (wpE (defs₀ (F := F)) Variants.none c none) Set.univ (cc0__reduce_kernel i arg2 harg2 arg3 harg3 arg4 harg4 arg5 harg5 arg6 harg6) K := by
  simp only [cc0__reduce_kernel_eq_skeleton]; unfold cc0__reduce_kernel_skel
  simp only [k0_part1_eq_skeleton, k0_part2_eq_skeleton, k0_part3_eq_skeleton, k0_part4_eq_skeleton]
  unfold k0_part1_skel k0_part2_skel k0_part3_skel k0_part4_skel
  unfold owns
  iintro ⟨⟨⟨%f0, %hf0, H0⟩, ⟨%f1, %hf1, H1⟩, ⟨%f2, %hf2, H2⟩, ⟨%f3, %hf3, H3⟩, ⟨%f6, %hf6, H6⟩⟩, Hk⟩
  obtain rfl := harg2.eq_unread hf0; obtain rfl := harg3.eq_unread hf1; obtain rfl := harg4.eq_unread hf2
  obtain rfl := harg5.eq_unread hf3; obtain rfl := harg6.eq_unread hf6
  have hr0 := readAt_unit_zero_unread (Val := Elt F) harg2 zeros3 inb_S32x256x85_S32x256x85_0_0_0 X0
  have hr1 := readAt_unit_zero_unread (Val := Elt F) harg3 zeros3 inb_S32x256x88_S32x256x88_0_0_0 X1
  have hr2 := readAt_unit_zero_unread (Val := Elt F) harg4 zeros2 inb_S256x2_S256x2_0_0 X2
  have hr6 := readAt_unit_zero_unread (Val := Elt F) harg6 zeros3 inb_S1x5x32_S1x5x32_0_0_0 S
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr; rotate_left
  · iexact H6
  ipureintro
  -- the load after the zeroing store reads the zeros
  have hv : body_reset.sl.v191 (F := F) c arg6 = k0_pay2 := View.readCov_cons_toLoadRect _ _ _ _
  refine Eq.trans (read_writes_unit_zero harg6 zeros3 _ _ _ _) ?_
  rw [hv]
  rfl

/-- The body at the last point of a row of the grid (inner coordinate 33): the five partial sums are added to the
    scratch, and the scratch is copied to the output's buffer. -/
theorem body_copy (c : Dev nD) (i : grid0.Coords)
    (arg2 : Memref sig .tc .vmem S32x256x85 .f32) (harg2 : arg2.IsWhole) (arg3 : Memref sig .tc .vmem S32x256x88 .f32) (harg3 : arg3.IsWhole)
    (arg4 : Memref sig .tc .vmem S256x2 .f32) (harg4 : arg4.IsWhole) (arg5 : Memref sig .tc .vmem S1x5x32 .f32) (harg5 : arg5.IsWhole)
    (arg6 : Memref sig .tc .vmem S1x5x32 .f32) (harg6 : arg6.IsWhole)
    (hc0 : ¬condReset i) (hc1 : condCopy i)
    (X0 : Vec F S32x256x85 .f32) (X1 : Vec F S32x256x88 .f32) (X2 : Vec F S256x2 .f32) (O S : Vec F S1x5x32 .f32) (K : PUnit → sProp 𝕄) :
    iprop((owns (c : Thread nD τ) arg2 fullShare X0 ∗ owns (c : Thread nD τ) arg3 fullShare X1 ∗ owns (c : Thread nD τ) arg4 fullShare X2
            ∗ owns (c : Thread nD τ) arg5 fullShare O ∗ owns (c : Thread nD τ) arg6 fullShare S)
          ∗ (iprop(owns (c : Thread nD τ) arg2 fullShare X0 ∗ owns (c : Thread nD τ) arg3 fullShare X1 ∗ owns (c : Thread nD τ) arg4 fullShare X2
                  ∗ owns (c : Thread nD τ) arg5 fullShare (newAcc i X0 X1 X2 S) ∗ owns (c : Thread nD τ) arg6 fullShare (newAcc i X0 X1 X2 S)) -∗ K ⟨⟩))
      ⊢ wp frame (wpE (defs₀ (F := F)) Variants.none c none) Set.univ (cc0__reduce_kernel i arg2 harg2 arg3 harg3 arg4 harg4 arg5 harg5 arg6 harg6) K := by
  simp only [cc0__reduce_kernel_eq_skeleton]; unfold cc0__reduce_kernel_skel
  simp only [k0_part1_eq_skeleton, k0_part2_eq_skeleton, k0_part3_eq_skeleton, k0_part4_eq_skeleton]
  unfold k0_part1_skel k0_part2_skel k0_part3_skel k0_part4_skel
  unfold owns
  iintro ⟨⟨⟨%f0, %hf0, H0⟩, ⟨%f1, %hf1, H1⟩, ⟨%f2, %hf2, H2⟩, ⟨%f3, %hf3, H3⟩, ⟨%f6, %hf6, H6⟩⟩, Hk⟩
  obtain rfl := harg2.eq_unread hf0; obtain rfl := harg3.eq_unread hf1; obtain rfl := harg4.eq_unread hf2
  obtain rfl := harg5.eq_unread hf3; obtain rfl := harg6.eq_unread hf6
  have hr0 := readAt_unit_zero_unread (Val := Elt F) harg2 zeros3 inb_S32x256x85_S32x256x85_0_0_0 X0
  have hr1 := readAt_unit_zero_unread (Val := Elt F) harg3 zeros3 inb_S32x256x88_S32x256x88_0_0_0 X1
  have hr2 := readAt_unit_zero_unread (Val := Elt F) harg4 zeros2 inb_S256x2_S256x2_0_0 X2
  have hr6 := readAt_unit_zero_unread (Val := Elt F) harg6 zeros3 inb_S1x5x32_S1x5x32_0_0_0 S
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; rotate_left
    · iexact H3
    ipureintro
    -- the copied value is what the load of the scratch after its store reads: the store's payload
    refine Eq.trans (read_writes_unit_zero harg5 zeros3 _ _ _ _) ?_
    refine Eq.trans (View.readCov_cons_toLoadRect _ _ _ _) ?_
    rfl
  iexists _; isplitr; rotate_left
  · iexact H6
  ipureintro
  refine Eq.trans (read_writes_unit_zero harg6 zeros3 _ _ _ _) ?_
  rfl

/-- The body at point `t`: the three input buffers are read and left as found; the scratch ends holding
    `accAfter`, the output's buffer `outAfter`. -/
theorem sound_body (c : Dev nD) (t : Fin cfg0.N) (X0 : Vec F S32x256x85 .f32) (X1 : Vec F S32x256x88 .f32)
    (X2 : Vec F S256x2 .f32) (O S : Vec F S1x5x32 .f32) (K : PUnit → sProp 𝕄) :
    iprop((owns (c : Thread nD τ) (win0_0.stage (cfg0.slots t 0)) fullShare X0
            ∗ owns (c : Thread nD τ) (win0_1.stage (cfg0.slots t 1)) fullShare X1
            ∗ owns (c : Thread nD τ) (win0_2.stage (cfg0.slots t 2)) fullShare X2
            ∗ owns (c : Thread nD τ) (win0_3.stage (cfg0.slots t 3)) fullShare O
            ∗ owns (c : Thread nD τ) (Memref.whole cc0_scratch0) fullShare S)
          ∗ (iprop(owns (c : Thread nD τ) (win0_0.stage (cfg0.slots t 0)) fullShare X0
                  ∗ owns (c : Thread nD τ) (win0_1.stage (cfg0.slots t 1)) fullShare X1
                  ∗ owns (c : Thread nD τ) (win0_2.stage (cfg0.slots t 2)) fullShare X2
                  ∗ owns (c : Thread nD τ) (win0_3.stage (cfg0.slots t 3)) fullShare (outAfter t X0 X1 X2 O S)
                  ∗ owns (c : Thread nD τ) (Memref.whole cc0_scratch0) fullShare (accAfter t X0 X1 X2 S)) -∗ K ⟨⟩))
      ⊢ wp frame (wpE (defs₀ (F := F)) Variants.none c none) Set.univ (bodyAt0 (F := F) t) K := by
  by_cases h0 : t.val % 34 = 0
  · -- the first point of a row: the scratch is zeroed first, nothing is copied out
    have hc0 : condReset (grid0.coords t) := (hcondReset t).2 h0
    have hc1 : ¬condCopy (grid0.coords t) := fun h => by have := (hcondCopy t).1 h; omega
    have hO : outAfter t X0 X1 X2 O S = O := by unfold outAfter; rw [if_neg (by omega)]
    have hS : accAfter t X0 X1 X2 S = newAcc (grid0.coords t) X0 X1 X2 k0_pay2 := by unfold accAfter; rw [if_pos h0]
    rw [hO, hS]
    exact body_reset c (grid0.coords t) _ _ _ _ _ _ _ _ _ _ hc0 hc1 X0 X1 X2 O S K
  · have hc0 : ¬condReset (grid0.coords t) := fun h => h0 ((hcondReset t).1 h)
    have hS : accAfter t X0 X1 X2 S = newAcc (grid0.coords t) X0 X1 X2 S := by unfold accAfter; rw [if_neg h0]
    by_cases h33 : t.val % 34 = 33
    · -- the last point of a row: the scratch is copied out after the sums are added
      have hc1 : condCopy (grid0.coords t) := (hcondCopy t).2 h33
      have hO : outAfter t X0 X1 X2 O S = newAcc (grid0.coords t) X0 X1 X2 S := by unfold outAfter; rw [if_pos h33, hS]
      rw [hO, hS]
      exact body_copy c (grid0.coords t) _ _ _ _ _ _ _ _ _ _ hc0 hc1 X0 X1 X2 O S K
    · -- a point inside a row: the sums are added, nothing else
      have hc1 : ¬condCopy (grid0.coords t) := fun h => h33 ((hcondCopy t).1 h)
      have hO : outAfter t X0 X1 X2 O S = O := by unfold outAfter; rw [if_neg h33]
      rw [hO, hS]
      exact body_mid c (grid0.coords t) _ _ _ _ _ _ _ _ _ _ hc0 hc1 X0 X1 X2 O S K

end Cert.KernelIdeal.Hand

end
-- ==== Proof.Spec.lean ====
/-
  What both programs compute, as one function of the four argument arrays over the extended reals.

  For a batch row b and an anchor d, with x = outs[b, d, ·], g = gres[b, d, ·] and (gx, gy) = grids[d, ·]:
  the class scores pass through the logistic function s; the focal-loss terms are
  -1/4 (1 - s)² log (s + ε) on a positive class and -3/4 s² log (1 - s + ε) on a negative one (a class is
  positive when its target word equals 1); the confidence term is -log (s₈₀ + ε) where the centre-radius mask is 1;
  the regression term is (1 - GIoU) · centerness where the in-box mask is 1, GIoU being computed from the predicted
  box (gx - o₀, gy - o₁, gx + o₂, gy + o₃) and the target box g₈₁ … g₈₄.
  Five sums over the anchors per batch row (`rowSum`), then the scalar loss (`loss`).
-/
import Idealize.ShloMosaic.PureOps.Ideal
import Idealize.ShloMosaic.Lib.ValueIdx

noncomputable section

namespace Cert.Spec

open Idealize.ShloMosaic Idealize.ShloMosaic.ValueIdx
open scoped BigOperators

/-- The arrays' shapes. -/
abbrev SOuts : Shape := ⟨3, ![64, 8525, 85]⟩
abbrev SGres : Shape := ⟨3, ![64, 8525, 88]⟩
abbrev SGrids : Shape := ⟨2, ![8525, 2]⟩
abbrev SNums : Shape := ⟨1, ![64]⟩

/-- The constants, as the binary values their words denote. -/
def one : EReal := Ideal.ofBits .f32 0x3F800000#32
def eps : EReal := Ideal.ofBits .f32 0x358637BD#32
def negQuarter : EReal := Ideal.ofBits .f32 0xBE800000#32
def negThreeQuarters : EReal := Ideal.ofBits .f32 0xBF400000#32
def zero : EReal := Ideal.ofBits .f32 0x00000000#32
def five : EReal := Ideal.ofBits .f32 0x40A00000#32
def sixtyFour : EReal := Ideal.ofBits .f32 0x42800000#32

/-- The indicator of "this word equals 1". -/
def ind (y : EReal) : EReal := if y = one then 1 else 0

/-- The focal-loss term of a positive class. -/
def lpos (x g : EReal) : EReal :=
  ((negQuarter * ((one - Ideal.logistic x) * (one - Ideal.logistic x))) * Ideal.log (Ideal.logistic x + eps)) * ind g
/-- The focal-loss term of a negative class. -/
def lneg (x g : EReal) : EReal :=
  ((negThreeQuarters * (Ideal.logistic x * Ideal.logistic x)) * Ideal.log ((one - Ideal.logistic x) + eps)) * (one - ind g)
/-- The confidence term. -/
def conf (x g : EReal) : EReal := (-(Ideal.log (Ideal.logistic x + eps))) * ind g

/-- The generalized intersection over union of the boxes (p0, p1, p2, p3) and (q0, q1, q2, q3), each given by its
    left, top, right and bottom. -/
def giou (p0 p1 p2 p3 q0 q1 q2 q3 : EReal) : EReal :=
  let inter := max (min p2 q2 - max p0 q0) zero * max (min p3 q3 - max p1 q1) zero
  let areaP := max (p2 - p0) zero * max (p3 - p1) zero
  let areaQ := max (q2 - q0) zero * max (q3 - q1) zero
  let union := (areaP + areaQ) - inter
  let hull := (max p2 q2 - min p0 q0) * (max p3 q3 - min p1 q1)
  Ideal.div inter (union + eps) - Ideal.div (hull - union) (hull + eps)

variable (A0 : SOuts.Idx → EReal) (A1 : SGres.Idx → EReal) (A2 : SGrids.Idx → EReal)

/-- The GIoU of anchor d's predicted box in batch row b with its target box. -/
def giouAt (b : Fin 64) (d : Fin 8525) : EReal :=
  giou (A2 (ix2 d (0 : Fin 2)) - A0 (ix3 b d (81 : Fin 85))) (A2 (ix2 d (1 : Fin 2)) - A0 (ix3 b d (82 : Fin 85)))
       (A2 (ix2 d (0 : Fin 2)) + A0 (ix3 b d (83 : Fin 85))) (A2 (ix2 d (1 : Fin 2)) + A0 (ix3 b d (84 : Fin 85)))
       (A1 (ix3 b d (81 : Fin 88))) (A1 (ix3 b d (82 : Fin 88))) (A1 (ix3 b d (83 : Fin 88))) (A1 (ix3 b d (84 : Fin 88)))

/-- The five summands of anchor d in batch row b: positive-class focal loss, negative-class focal loss, confidence,
    regression, and the in-box count. -/
def rowTerm (k : Fin 5) (b : Fin 64) (d : Fin 8525) : EReal :=
  match k with
  | ⟨0, _⟩ => ∑ c : Fin 80, lpos (A0 (ix3 b d (Fin.castLE (by decide : 80 ≤ 85) c))) (A1 (ix3 b d (Fin.castLE (by decide : 80 ≤ 88) c)))
  | ⟨1, _⟩ => ∑ c : Fin 80, lneg (A0 (ix3 b d (Fin.castLE (by decide : 80 ≤ 85) c))) (A1 (ix3 b d (Fin.castLE (by decide : 80 ≤ 88) c)))
  | ⟨2, _⟩ => conf (A0 (ix3 b d (80 : Fin 85))) (A1 (ix3 b d (85 : Fin 88)))
  | ⟨3, _⟩ => ((one - giouAt A0 A1 A2 b d) * A1 (ix3 b d (80 : Fin 88))) * ind (A1 (ix3 b d (86 : Fin 88)))
  | ⟨4, _⟩ => ind (A1 (ix3 b d (86 : Fin 88)))

/-- The five sums over all anchors, per batch row. -/
def rowSum (k : Fin 5) (b : Fin 64) : EReal := ∑ d : Fin 8525, rowTerm A0 A1 A2 k b d

/-- The scalar loss from the five sums per batch row `M` and the positive counts `n` (as reals): the batch means
    of the first three sums over n (the third times 5), plus 5 times the total regression sum over the total
    in-box count, at least 1. -/
def lossOf (M : Fin 5 → Fin 64 → EReal) (n : Fin 64 → EReal) : EReal :=
  ((Ideal.div (∑ b : Fin 64, Ideal.div (M 0 b) (n b)) sixtyFour + Ideal.div (∑ b : Fin 64, Ideal.div (M 1 b) (n b)) sixtyFour)
    + five * Ideal.div (∑ b : Fin 64, Ideal.div (M 2 b) (n b)) sixtyFour)
    + Ideal.div (five * ∑ b : Fin 64, M 3 b) (max (∑ b : Fin 64, M 4 b) one)

/-- The loss of the four argument arrays. -/
def loss (N : SNums.Idx → BitVec 32) : EReal :=
  lossOf (rowSum A0 A1 A2) (fun b => (((N (ix1 b)).toInt : ℝ) : EReal))

end Cert.Spec

end
-- ==== Proof.PointSum.lean ====
/-
  What one grid point adds to the five running sums of its 32 batch rows, as a function of the argument arrays:
  point t = 34·p + tt covers the batch rows 32·p … 32·p + 31 and the anchors 256·tt … 256·tt + 255, of which only
  those below 8525 exist; an anchor past the end contributes nothing.
-/
import proofs.«430690_j60112362275593_1_alg».proof.Proof.Gen.KernelIdeal.Frame
import proofs.«430690_j60112362275593_1_alg».proof.Proof.Spec

noncomputable section

namespace Cert.KernelIdeal.Hand

open Cert.KernelIdeal Cert.KernelIdeal.Gen
open Idealize.ShloMosaic Idealize.ShloMosaic.TcCoe Idealize.SL.Sem
open scoped BigOperators

/-- The batch row that column b of the block at point t holds. -/
def rowOf (t : Fin cfg0.N) (b : Fin 32) : Fin 64 :=
  ⟨32 * (t.val / 34) + b.val, by have h : t.val < 68 := lt_of_lt_of_eq t.isLt (show cfg0.N = 68 from N_0); omega⟩

/-- The anchor that row r of the block at point t holds, when it exists. -/
def anchorOf (t : Fin cfg0.N) (r : Fin 256) (h : (t.val % 34) * 256 + r.val < 8525) : Fin 8525 := ⟨(t.val % 34) * 256 + r.val, h⟩

variable (m : (ℓ : Loc nD τ sig) → Buf (Elt Ideal) ℓ)

/-- The argument arrays of core c as functions of their indices. -/
abbrev outsArr (c : Dev nD) : Spec.SOuts.Idx → EReal := m ((c : Thread nD τ).loc main_arg0)
abbrev gresArr (c : Dev nD) : Spec.SGres.Idx → EReal := m ((c : Thread nD τ).loc main_arg1)
abbrev gridsArr (c : Dev nD) : Spec.SGrids.Idx → EReal := m ((c : Thread nD τ).loc main_arg2)
abbrev numsArr (c : Dev nD) : Spec.SNums.Idx → BitVec 32 := m ((c : Thread nD τ).loc main_arg3)

/-- What point t adds to sum k of column b: the summands of the anchors its block holds that exist. -/
def pointTerm (c : Dev nD) (t : Fin cfg0.N) (k : Fin 5) (b : Fin 32) : EReal :=
  ∑ r : Fin 256, if h : (t.val % 34) * 256 + r.val < 8525 then
    Spec.rowTerm (outsArr m c) (gresArr m c) (gridsArr m c) k (rowOf t b) (anchorOf t r h) else 0

/-- The same as an array of the scratch's shape. -/
def pointSum (c : Dev nD) (t : Fin cfg0.N) : S1x5x32.Idx → EReal := fun j => pointTerm m c t (j 1) (j 2)

end Cert.KernelIdeal.Hand

end
-- ==== Proof.BlockRead.lean ====
/-
  Reading a staging buffer at an index: at point t = 34·p + tt, row r of the block is anchor 256·tt + r and column b
  is batch row 32·p + b; when that anchor exists the buffer holds the array's word there, whatever fills the rows
  past the array's end. And the mask the body builds from the point's coordinates is 1 exactly on those rows.
-/
import proofs.«430690_j60112362275593_1_alg».proof.Proof.PointSum
import proofs.«430690_j60112362275593_1_alg».proof.Proof.Gen.KernelIdeal.Skeleton
import Idealize.ShloMosaic.Lib.Pipeline.Value
import Idealize.ShloMosaic.Lib.StableHlo.Predicate

noncomputable section

namespace Cert.KernelIdeal.Hand

open Cert.KernelIdeal Cert.KernelIdeal.Gen
open Idealize.ShloMosaic Idealize.ShloMosaic.TcCoe Idealize.SL.Sem Idealize.ShloMosaic.ValueIdx
open scoped BigOperators

variable (m : (ℓ : Loc nD τ sig) → Buf (Elt Ideal) ℓ)

/-- The block indices of the three input windows at point t = 34·p + tt: (p, tt, 0), (p, tt, 0) and (tt, 0). -/
theorem index0 : ∀ t : Fin grid0.N, win0_0.index t (0 : Fin 3) = t.val / 34 ∧ win0_0.index t 1 = t.val % 34 ∧ win0_0.index t 2 = 0 :=
  (by decide +kernel : ∀ t : Fin grid0.N, win0_0.index t (0 : Fin 3) = t.val / 34 ∧ win0_0.index t 1 = t.val % 34 ∧ win0_0.index t 2 = 0)
theorem index1 : ∀ t : Fin grid0.N, win0_1.index t (0 : Fin 3) = t.val / 34 ∧ win0_1.index t 1 = t.val % 34 ∧ win0_1.index t 2 = 0 :=
  (by decide +kernel : ∀ t : Fin grid0.N, win0_1.index t (0 : Fin 3) = t.val / 34 ∧ win0_1.index t 1 = t.val % 34 ∧ win0_1.index t 2 = 0)
theorem index2 : ∀ t : Fin grid0.N, win0_2.index t (0 : Fin 2) = t.val % 34 ∧ win0_2.index t 1 = 0 :=
  (by decide +kernel : ∀ t : Fin grid0.N, win0_2.index t (0 : Fin 2) = t.val % 34 ∧ win0_2.index t 1 = 0)

/-- A coordinate j of the block at block index ix whose array coordinate ix·k + j exists is among those the cut keeps. -/
theorem lt_extent {ix k d j : Nat} (hj : j < k) (h : ix * k + j < d) : j < (Pipeline.Clip.of ix k d).extent k := by
  unfold Pipeline.Clip.of
  split
  · exact hj
  · show j < d - ix * k
    omega

/-- The scores' buffer at a row that exists. -/
theorem fill0_apply (c : Dev nD) (t : Fin cfg0.N) (d0) (b : Fin 32) (r : Fin 256) (ch : Fin 85) (h : (t.val % 34) * 256 + r.val < 8525) :
    win0_0.fill (grid0.coords t) d0 (iblk m c 0 t) (ix3 b r ch) = outsArr m c (ix3 (rowOf t b) (anchorOf t r h) ch) := by
  have ht : t.val < 68 := lt_of_lt_of_eq t.isLt (show cfg0.N = 68 from N_0)
  -- the index lies in the part of the block inside the array
  have hmv : win0_0.moved (grid0.coords t) (ix3 b r ch) = true := by
    rw [Pipeline.Window.moved_iff]
    intro a
    fin_cases a
    · show b.val < (Pipeline.Clip.of (win0_0.index t 0) 32 64).extent 32
      rw [(index0 t).1]; exact lt_extent b.isLt (by omega)
    · show r.val < (Pipeline.Clip.of (win0_0.index t 1) 256 8525).extent 256
      rw [(index0 t).2.1]; exact lt_extent r.isLt h
    · show ch.val < (Pipeline.Clip.of (win0_0.index t 2) 85 85).extent 85
      rw [(index0 t).2.2]; exact lt_extent ch.isLt (by omega)
  unfold Pipeline.Window.fill; rw [dif_pos hmv]
  unfold iblk
  -- the block's coordinate on each axis is its block index times the block's size plus the coordinate inside it
  show V m c main_arg0 (((cfg0.win 0).blk t).view.emb _) = V m c main_arg0 (ix3 (rowOf t b) (anchorOf t r h) ch)
  congr 1
  funext a
  apply Fin.ext
  fin_cases a
  · show win0_0.index t 0 * 32 + 1 * b.val = 32 * (t.val / 34) + b.val
    rw [(index0 t).1]; omega
  · show win0_0.index t 1 * 256 + 1 * r.val = (t.val % 34) * 256 + r.val
    rw [(index0 t).2.1]; omega
  · show win0_0.index t 2 * 85 + 1 * ch.val = ch.val
    rw [(index0 t).2.2]; omega

/-- The targets' buffer at a row that exists. -/
theorem fill1_apply (c : Dev nD) (t : Fin cfg0.N) (d1) (b : Fin 32) (r : Fin 256) (ch : Fin 88) (h : (t.val % 34) * 256 + r.val < 8525) :
    win0_1.fill (grid0.coords t) d1 (iblk m c 1 t) (ix3 b r ch) = gresArr m c (ix3 (rowOf t b) (anchorOf t r h) ch) := by
  have ht : t.val < 68 := lt_of_lt_of_eq t.isLt (show cfg0.N = 68 from N_0)
  have hmv : win0_1.moved (grid0.coords t) (ix3 b r ch) = true := by
    rw [Pipeline.Window.moved_iff]
    intro a
    fin_cases a
    · show b.val < (Pipeline.Clip.of (win0_1.index t 0) 32 64).extent 32
      rw [(index1 t).1]; exact lt_extent b.isLt (by omega)
    · show r.val < (Pipeline.Clip.of (win0_1.index t 1) 256 8525).extent 256
      rw [(index1 t).2.1]; exact lt_extent r.isLt h
    · show ch.val < (Pipeline.Clip.of (win0_1.index t 2) 88 88).extent 88
      rw [(index1 t).2.2]; exact lt_extent ch.isLt (by omega)
  unfold Pipeline.Window.fill; rw [dif_pos hmv]
  unfold iblk
  show V m c main_arg1 (((cfg0.win 1).blk t).view.emb _) = V m c main_arg1 (ix3 (rowOf t b) (anchorOf t r h) ch)
  congr 1
  funext a
  apply Fin.ext
  fin_cases a
  · show win0_1.index t 0 * 32 + 1 * b.val = 32 * (t.val / 34) + b.val
    rw [(index1 t).1]; omega
  · show win0_1.index t 1 * 256 + 1 * r.val = (t.val % 34) * 256 + r.val
    rw [(index1 t).2.1]; omega
  · show win0_1.index t 2 * 88 + 1 * ch.val = ch.val
    rw [(index1 t).2.2]; omega

/-- The anchor centres' buffer at a row that exists. -/
theorem fill2_apply (c : Dev nD) (t : Fin cfg0.N) (d2) (r : Fin 256) (ch : Fin 2) (h : (t.val % 34) * 256 + r.val < 8525) :
    win0_2.fill (grid0.coords t) d2 (iblk m c 2 t) (ix2 r ch) = gridsArr m c (ix2 (anchorOf t r h) ch) := by
  have hmv : win0_2.moved (grid0.coords t) (ix2 r ch) = true := by
    rw [Pipeline.Window.moved_iff]
    intro a
    fin_cases a
    · show r.val < (Pipeline.Clip.of (win0_2.index t 0) 256 8525).extent 256
      rw [(index2 t).1]; exact lt_extent r.isLt h
    · show ch.val < (Pipeline.Clip.of (win0_2.index t 1) 2 2).extent 2
      rw [(index2 t).2]; exact lt_extent ch.isLt (by omega)
  unfold Pipeline.Window.fill; rw [dif_pos hmv]
  unfold iblk
  show V m c main_arg2 (((cfg0.win 2).blk t).view.emb _) = V m c main_arg2 (ix2 (anchorOf t r h) ch)
  congr 1
  funext a
  apply Fin.ext
  fin_cases a
  · show win0_2.index t 0 * 256 + 1 * r.val = (t.val % 34) * 256 + r.val
    rw [(index2 t).1]; omega
  · show win0_2.index t 1 * 2 + 1 * ch.val = ch.val
    rw [(index2 t).2]; omega

/-- The second grid coordinate of point t is t mod 34. -/
theorem coord1 : ∀ t : Fin grid0.N, ((grid0.coords t) 1).val = t.val % 34 :=
  (by decide +kernel : ∀ t : Fin grid0.N, ((grid0.coords t) 1).val = t.val % 34)

/-- The anchor's number as a 32-bit word: no wrap-around below 8704. -/
theorem anchor_toNat (tt r : ℕ) (htt : tt < 34) (hr : r < 256) :
    (IntOp.addi (BitVec.ofNat 32 r) (IntOp.muli (BitVec.ofNat 32 tt) 256#32)).toNat = tt * 256 + r := by
  show (BitVec.ofNat 32 r + BitVec.ofNat 32 tt * 256#32).toNat = tt * 256 + r
  rw [BitVec.toNat_add, BitVec.toNat_mul, BitVec.toNat_ofNat, BitVec.toNat_ofNat]
  show (r % 2 ^ 32 + tt % 2 ^ 32 * 256 % 2 ^ 32) % 2 ^ 32 = tt * 256 + r
  omega

/-- The signed comparison with 8525 is the comparison of the naturals. -/
theorem anchor_slt (tt r : ℕ) (htt : tt < 34) (hr : r < 256) :
    IntOp.cmpi .slt (IntOp.addi (BitVec.ofNat 32 r) (IntOp.muli (BitVec.ofNat 32 tt) 256#32)) 8525#32
      = if tt * 256 + r < 8525 then 1#1 else 0#1 := by
  have hn := anchor_toNat tt r htt hr
  have hiff := StableHlo.Predicate.slt_iff_toNat (a := IntOp.addi (BitVec.ofNat 32 r) (IntOp.muli (BitVec.ofNat 32 tt) 256#32)) (b := 8525#32)
    (by rw [hn]; omega) (by decide)
  rw [hn] at hiff
  by_cases hlt : tt * 256 + r < 8525
  · rw [if_pos hlt]; exact hiff.mpr hlt
  · rw [if_neg hlt]
    have hne : IntOp.cmpi .slt (IntOp.addi (BitVec.ofNat 32 r) (IntOp.muli (BitVec.ofNat 32 tt) 256#32)) 8525#32 ≠ 1#1 :=
      fun he => hlt (hiff.mp he)
    generalize IntOp.cmpi .slt (IntOp.addi (BitVec.ofNat 32 r) (IntOp.muli (BitVec.ofNat 32 tt) 256#32)) 8525#32 = x at hne
    apply BitVec.eq_of_toNat_eq
    have h1 : x.toNat < 2 := x.isLt
    have h2 : x.toNat ≠ 1 := fun h => hne (BitVec.eq_of_toNat_eq h)
    show x.toNat = 0
    omega

/-- The mask: 1 on the rows whose anchor exists, 0 past the array's end. -/
theorem valid_apply (t : Fin cfg0.N) (b : Fin 32) (r : Fin 256) :
    k0_pay3 (F := Ideal) (grid0.coords t) (ix2 b r) = if (t.val % 34) * 256 + r.val < 8525 then (1 : EReal) else 0 := by
  have hw : cmpi .slt (addi (iota .tc S32x256 32 [1] iota_S32x256_d1_w32)
        (broadcast S32x256 (Scalar.muli (BitVec.ofNat 32 (grid0.coords t 1).val) 256#32))) (broadcast S32x256 8525#32) (ix2 b r)
      = IntOp.cmpi .slt (IntOp.addi (BitVec.ofNat 32 r.val) (IntOp.muli (BitVec.ofNat 32 (t.val % 34)) 256#32)) 8525#32 := by
    show IntOp.cmpi .slt (IntOp.addi (iota .tc S32x256 32 [1] iota_S32x256_d1_w32 (ix2 b r))
      (IntOp.muli (BitVec.ofNat 32 (grid0.coords t 1).val) 256#32)) 8525#32 = _
    rw [iota_single_apply, coord1 t]
  unfold k0_pay3
  simp only [sitofp_apply, extui_apply]
  rw [hw, anchor_slt _ _ (Nat.mod_lt _ (by decide)) r.isLt]
  show (((BitVec.setWidth 32 (if t.val % 34 * 256 + r.val < 8525 then 1#1 else 0#1)).toInt : ℝ) : EReal) = _
  split
  · rw [show (BitVec.setWidth 32 1#1).toInt = 1 by decide, Int.cast_one, EReal.coe_one]
  · rw [show (BitVec.setWidth 32 0#1).toInt = 0 by decide, Int.cast_zero, EReal.coe_zero]

end Cert.KernelIdeal.Hand

end
-- ==== Proof.RowCls.lean ====
/-
  The first two of the five running sums — the focal loss over the 80 classes, on the positive and on the negative
  classes — after one grid point, started from zero: each is the sum, over the rows of the block whose anchor exists,
  of the summand the specification names; a row past the array's end carries the factor 0.
-/
import proofs.«430690_j60112362275593_1_alg».proof.Proof.BodyIdeal
import proofs.«430690_j60112362275593_1_alg».proof.Proof.BlockRead
import proofs.«430690_j60112362275593_1_alg».proof.Proof.PointSum
import proofs.«430690_j60112362275593_1_alg».proof.Proof.Spec
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open scoped BigOperators

variable (m : (ℓ : Loc nD τ sig) → Buf (Elt Ideal) ℓ)

/-! ## Single operations at an index -/

theorem logistic_apply_e {s : Shape} {φ : FTy} (a : FVec Ideal s φ) (i : s.Idx) : logistic a i = Ideal.logistic (a i) := rfl
theorem log_apply_e {s : Shape} {φ : FTy} (a : FVec Ideal s φ) (i : s.Idx) : log a i = Ideal.log (a i) := rfl

/-- The comparison with 1, widened and converted, is the indicator of "equals 1". -/
theorem ind_eq_e (y : EReal) :
    FloatOps.sitofp (F := Ideal) .f32 ((FloatOps.cmpf (F := Ideal) (φ := .f32) .oeq y (Ideal.ofBits .f32 0x3F800000#32)).setWidth 32) = Spec.ind y := by
  unfold Spec.ind Spec.one
  show (((((Ideal.cmp .oeq y (Ideal.ofBits .f32 0x3F800000#32)).setWidth 32).toInt : ℝ)) : EReal) = _
  unfold Ideal.cmp
  by_cases h : y = Ideal.ofBits .f32 0x3F800000#32
  · have e : (BitVec.setWidth 32 (BitVec.ofBool true)).toInt = 1 := by decide
    rw [if_pos h]
    simp only [h, decide_true, e]
    norm_num
  · have e : (BitVec.setWidth 32 (BitVec.ofBool false)).toInt = 0 := by decide
    rw [if_neg h]
    simp only [h, decide_false, e]
    norm_num

/-! ## The payloads at an index -/

/-- The class scores through the logistic function. -/
theorem pay5_apply (X0 : Vec Ideal S32x256x85 .f32) (b : Fin 32) (r : Fin 256) (c : Fin 80) :
    k0_pay5 X0 (ix3 b r c) = Ideal.logistic (X0 (ix3 b r (Fin.castLE (by decide : 80 ≤ 85) c))) := by
  unfold k0_pay5
  refine (logistic_apply_e _ _).trans (congrArg Ideal.logistic ?_)
  exact extractStridedSlice_apply _ _ _ _ _ (fun a => by
    match a with
    | ⟨0, _⟩ => exact (Nat.zero_add _).symm
    | ⟨1, _⟩ => exact (Nat.zero_add _).symm
    | ⟨2, _⟩ => exact (Nat.zero_add _).symm)

/-- The indicator of a positive class. -/
theorem pay6_apply (X1 : Vec Ideal S32x256x88 .f32) (b : Fin 32) (r : Fin 256) (c : Fin 80) :
    k0_pay6 X1 (ix3 b r c) = Spec.ind (X1 (ix3 b r (Fin.castLE (by decide : 80 ≤ 88) c))) := by
  unfold k0_pay6
  refine Eq.trans ?_ (ind_eq_e _)
  show FloatOps.sitofp (F := Ideal) .f32 ((FloatOps.cmpf (F := Ideal) (φ := .f32) .oeq _ (Ideal.ofBits .f32 0x3F800000#32)).setWidth 32) = _
  congr 3
  exact extractStridedSlice_apply _ _ _ _ _ (fun a => by
    match a with
    | ⟨0, _⟩ => exact (Nat.zero_add _).symm
    | ⟨1, _⟩ => exact (Nat.zero_add _).symm
    | ⟨2, _⟩ => exact (Nat.zero_add _).symm)

/-- The row mask as a column. -/
theorem pay4_apply (i : grid0.Coords) (b : Fin 32) (r : Fin 256) (u : Fin 1) :
    k0_pay4 (F := Ideal) i (ix3 b r u) = k0_pay3 (F := Ideal) i (ix2 b r) := by
  unfold k0_pay4
  refine shapeCast_apply _ _ _ _ ?_
  have hu : u.val = 0 := by omega
  rw [Shape.rowMajor_val_three, Shape.rowMajor_val_two]
  show b.val * 256 + r.val = (b.val * 256 + r.val) * 1 + u.val
  omega

/-- The row mask spread over the classes. -/
theorem valid80_apply (v : FVec Ideal S32x256x1 .f32) (h : S32x256x1.Broadcasts S32x256x80) (b : Fin 32) (r : Fin 256) (c : Fin 80) :
    broadcastTo S32x256x80 v h (ix3 b r c) = v (ix3 b r (0 : Fin 1)) := by
  refine broadcastTo_apply v h _ _ (fun a => ?_)
  match a with
  | ⟨0, _⟩ => rfl
  | ⟨1, _⟩ => rfl
  | ⟨2, _⟩ => rfl

/-- The positive-class term of one class of one row, times the row mask. -/
theorem pay7_apply (i : grid0.Coords) (X0 : Vec Ideal S32x256x85 .f32) (X1 : Vec Ideal S32x256x88 .f32)
    (b : Fin 32) (r : Fin 256) (c : Fin 80) :
    k0_pay7 i X0 X1 (ix3 b r c)
      = Spec.lpos (X0 (ix3 b r (Fin.castLE (by decide : 80 ≤ 85) c))) (X1 (ix3 b r (Fin.castLE (by decide : 80 ≤ 88) c)))
          * k0_pay3 (F := Ideal) i (ix2 b r) := by
  unfold k0_pay7
  show (((Ideal.ofBits .f32 0xBE800000#32 * ((Ideal.ofBits .f32 0x3F800000#32 - k0_pay5 X0 (ix3 b r c))
            * (Ideal.ofBits .f32 0x3F800000#32 - k0_pay5 X0 (ix3 b r c))))
          * Ideal.log (k0_pay5 X0 (ix3 b r c) + Ideal.ofBits .f32 0x358637BD#32)) * k0_pay6 X1 (ix3 b r c))
        * broadcastTo S32x256x80 (k0_pay4 (F := Ideal) i) _ (ix3 b r c) = _
  rw [valid80_apply, pay4_apply, pay5_apply, pay6_apply]
  rfl

/-- A sum over the classes, at a row. -/
theorem sum80_apply (v : FVec Ideal S32x256x80 .f32) (h : S32x256x80.Reduces [2] S32x256) (hφ : FKind.Formats .f32)
    (hacc : (0x00000000#32 : BitVec 32) = FKind.add.neutral .f32 hφ) (b : Fin 32) (r : Fin 256) :
    multiReduction .add [2] S32x256 v 0x00000000#32 h hφ hacc (ix2 b r) = ∑ c : Fin 80, v (ix3 b r c) := by
  refine (Ideal.multiReduction_add_single v 0x00000000#32 h hφ hacc (ix2 b r)).trans ?_
  show ∑ c : Fin 80, v (h.lift (ix2 b r) c) = _
  refine Finset.sum_congr rfl (fun c _ => congrArg v ?_)
  funext a
  match a with
  | ⟨0, _⟩ => exact Fin.ext rfl
  | ⟨1, _⟩ => exact Fin.ext rfl
  | ⟨2, _⟩ => exact Fin.ext rfl

/-- A sum over the rows of a block, at a column. -/
theorem sum256_apply (v : FVec Ideal S32x256 .f32) (h : S32x256.Reduces [1] S32) (hφ : FKind.Formats .f32)
    (hacc : (0x00000000#32 : BitVec 32) = FKind.add.neutral .f32 hφ) (b : Fin 32) :
    multiReduction .add [1] S32 v 0x00000000#32 h hφ hacc (ix1 b) = ∑ r : Fin 256, v (ix2 b r) := by
  refine (Ideal.multiReduction_add_single v 0x00000000#32 h hφ hacc (ix1 b)).trans ?_
  show ∑ r : Fin 256, v (h.lift (ix1 b) r) = _
  refine Finset.sum_congr rfl (fun r _ => congrArg v ?_)
  funext a
  match a with
  | ⟨0, _⟩ => exact Fin.ext rfl
  | ⟨1, _⟩ => exact Fin.ext rfl

/-- The first sum: over the rows and the classes. -/
theorem pay10_apply (v : FVec Ideal S32x256x80 .f32) (b : Fin 32) :
    k0_pay10 v (ix1 b) = ∑ r : Fin 256, ∑ c : Fin 80, v (ix3 b r c) := by
  unfold k0_pay10
  refine (sum256_apply _ _ _ _ b).trans ?_
  exact Finset.sum_congr rfl (fun r _ => sum80_apply _ _ _ _ b r)

/-- The negative-class weight of one class of one row. -/
theorem pay8_apply (X0 : Vec Ideal S32x256x85 .f32) (b : Fin 32) (r : Fin 256) (c : Fin 80) :
    k0_pay8 X0 (ix3 b r c)
      = Spec.negThreeQuarters * (Ideal.logistic (X0 (ix3 b r (Fin.castLE (by decide : 80 ≤ 85) c)))
          * Ideal.logistic (X0 (ix3 b r (Fin.castLE (by decide : 80 ≤ 85) c)))) := by
  unfold k0_pay8
  show Ideal.ofBits .f32 0xBF400000#32 * (k0_pay5 X0 (ix3 b r c) * k0_pay5 X0 (ix3 b r c)) = _
  rw [pay5_apply]
  rfl

/-- One minus the score of one class of one row. -/
theorem pay9_apply (X0 : Vec Ideal S32x256x85 .f32) (b : Fin 32) (r : Fin 256) (c : Fin 80) :
    k0_pay9 X0 (ix3 b r c) = Spec.one - Ideal.logistic (X0 (ix3 b r (Fin.castLE (by decide : 80 ≤ 85) c))) := by
  unfold k0_pay9
  show Ideal.ofBits .f32 0x3F800000#32 - k0_pay5 X0 (ix3 b r c) = _
  rw [pay5_apply]
  rfl

/-- The second sum: over the rows and the classes. -/
theorem pay11_apply (v14 : FVec Ideal S32x256x1 .f32) (v21 v36 v38 : FVec Ideal S32x256x80 .f32) (b : Fin 32) :
    k0_pay11 v14 v21 v36 v38 (ix1 b)
      = ∑ r : Fin 256, ∑ c : Fin 80,
          ((v36 (ix3 b r c) * Ideal.log (v38 (ix3 b r c) + Spec.eps)) * (Spec.one - v21 (ix3 b r c))) * v14 (ix3 b r (0 : Fin 1)) := by
  unfold k0_pay11
  refine (sum256_apply _ _ _ _ b).trans ?_
  refine Finset.sum_congr rfl (fun r _ => (sum80_apply _ _ _ _ b r).trans ?_)
  refine Finset.sum_congr rfl (fun c _ => ?_)
  show ((v36 (ix3 b r c) * Ideal.log (v38 (ix3 b r c) + Ideal.ofBits .f32 0x358637BD#32))
          * (Ideal.ofBits .f32 0x3F800000#32 - v21 (ix3 b r c))) * broadcastTo S32x256x80 v14 _ (ix3 b r c) = _
  rw [valid80_apply]
  rfl

/-! ## The five sums stacked and added to the running sums -/

/-- Row 0 of the stack of five sum vectors is the first. -/
theorem stack_row0 (v185 v186 v187 v188 v189 : FVec Ideal S1x32 .f32)
    (h : Shape.Concatenates ([(⟨S1x32, v185⟩ : (s : Shape) × (s.Idx → EReal)), ⟨S1x32, v186⟩, ⟨S1x32, v187⟩, ⟨S1x32, v188⟩, ⟨S1x32, v189⟩].map (·.1)) S5x32 0)
    (b : Fin 32) :
    concatenate S5x32 0 [⟨S1x32, v185⟩, ⟨S1x32, v186⟩, ⟨S1x32, v187⟩, ⟨S1x32, v188⟩, ⟨S1x32, v189⟩] h (ix2 (0 : Fin 5) b)
      = v185 (ix2 (0 : Fin 1) b) := by
  refine concatenate_apply_piece (0 : Fin S5x32.rank) _ h (ix2 (0 : Fin 5) b) 0 (by show 0 < 5; decide) S1x32 v185 rfl rfl 0 rfl
    (ix2 (0 : Fin 1) b) (fun a ha => ?_) rfl
  match a with
  | ⟨0, _⟩ => exact absurd rfl ha
  | ⟨1, _⟩ => rfl

/-- Row 1 of the stack of five sum vectors is the second. -/
theorem stack_row1 (v185 v186 v187 v188 v189 : FVec Ideal S1x32 .f32)
    (h : Shape.Concatenates ([(⟨S1x32, v185⟩ : (s : Shape) × (s.Idx → EReal)), ⟨S1x32, v186⟩, ⟨S1x32, v187⟩, ⟨S1x32, v188⟩, ⟨S1x32, v189⟩].map (·.1)) S5x32 0)
    (b : Fin 32) :
    concatenate S5x32 0 [⟨S1x32, v185⟩, ⟨S1x32, v186⟩, ⟨S1x32, v187⟩, ⟨S1x32, v188⟩, ⟨S1x32, v189⟩] h (ix2 (1 : Fin 5) b)
      = v186 (ix2 (0 : Fin 1) b) := by
  refine concatenate_apply_piece (0 : Fin S5x32.rank) _ h (ix2 (1 : Fin 5) b) 1 (by show 1 < 5; decide) S1x32 v186 rfl rfl 1 rfl
    (ix2 (0 : Fin 1) b) (fun a ha => ?_) rfl
  match a with
  | ⟨0, _⟩ => exact absurd rfl ha
  | ⟨1, _⟩ => rfl

/-- The first running sum after the body: the sum found plus the first sum vector. -/
theorem pay21_row0 (v4 : Vec Ideal S32x256x88 .f32) (v13 : FVec Ideal S32x256 .f32) (v49 v51 v68 : FVec Ideal S32 .f32)
    (v77 v78 : FVec Ideal S32x256x4 .f32) (v137 v140 : FVec Ideal S32x256 .f32) (v141 : FVec Ideal S32x256x1 .f32)
    (S : Vec Ideal S1x5x32 .f32) (b : Fin 32) :
    k0_pay21 v4 v13 v49 v51 v68 v77 v78 v137 v140 v141 S (ix3 (0 : Fin 1) (0 : Fin 5) b)
      = S (ix3 (0 : Fin 1) (0 : Fin 5) b) + v49 (ix1 b) := by
  unfold k0_pay21
  refine (addf_apply _ _ _).trans (congrArg (S (ix3 (0 : Fin 1) (0 : Fin 5) b) + ·) ?_)
  refine (shapeCast_ab_1ab_apply _ _ (0 : Fin 1) (0 : Fin 5) b).trans ?_
  refine (stack_row0 _ _ _ _ _ _ b).trans ?_
  exact shapeCast_a_1a_apply _ _ (0 : Fin 1) b

/-- The second running sum after the body: the sum found plus the second sum vector. -/
theorem pay21_row1 (v4 : Vec Ideal S32x256x88 .f32) (v13 : FVec Ideal S32x256 .f32) (v49 v51 v68 : FVec Ideal S32 .f32)
    (v77 v78 : FVec Ideal S32x256x4 .f32) (v137 v140 : FVec Ideal S32x256 .f32) (v141 : FVec Ideal S32x256x1 .f32)
    (S : Vec Ideal S1x5x32 .f32) (b : Fin 32) :
    k0_pay21 v4 v13 v49 v51 v68 v77 v78 v137 v140 v141 S (ix3 (0 : Fin 1) (1 : Fin 5) b)
      = S (ix3 (0 : Fin 1) (1 : Fin 5) b) + v51 (ix1 b) := by
  unfold k0_pay21
  refine (addf_apply _ _ _).trans (congrArg (S (ix3 (0 : Fin 1) (1 : Fin 5) b) + ·) ?_)
  refine (shapeCast_ab_1ab_apply _ _ (0 : Fin 1) (1 : Fin 5) b).trans ?_
  refine (stack_row1 _ _ _ _ _ _ b).trans ?_
  exact shapeCast_a_1a_apply _ _ (0 : Fin 1) b

/-! ## The two sums after the body, over any three blocks -/

/-- The first running sum after the body: what was found plus, over the rows and the classes, the positive-class term
    times the row's mask. -/
theorem newAcc_row0 (i : grid0.Coords) (X0 : Vec Ideal S32x256x85 .f32) (X1 : Vec Ideal S32x256x88 .f32)
    (X2 : Vec Ideal S256x2 .f32) (S : Vec Ideal S1x5x32 .f32) (b : Fin 32) :
    newAcc (F := Ideal) i X0 X1 X2 S (ix3 (0 : Fin 1) (0 : Fin 5) b)
      = S (ix3 (0 : Fin 1) (0 : Fin 5) b)
        + ∑ r : Fin 256, ∑ c : Fin 80,
            Spec.lpos (X0 (ix3 b r (Fin.castLE (by decide : 80 ≤ 85) c))) (X1 (ix3 b r (Fin.castLE (by decide : 80 ≤ 88) c)))
              * k0_pay3 (F := Ideal) i (ix2 b r) := by
  unfold newAcc k0_pay1
  show shapeCast S1x5x32 (k0_pay21 X1 _ _ _ _ _ _ _ _ _ S) _ (ix3 (0 : Fin 1) (0 : Fin 5) b) = _
  rw [shapeCast_self]
  refine (pay21_row0 _ _ _ _ _ _ _ _ _ _ S b).trans (congrArg (S (ix3 (0 : Fin 1) (0 : Fin 5) b) + ·) ?_)
  refine (pay10_apply _ b).trans ?_
  exact Finset.sum_congr rfl fun r _ => Finset.sum_congr rfl fun c _ => pay7_apply i X0 X1 b r c

/-- The second running sum after the body: what was found plus, over the rows and the classes, the negative-class term
    times the row's mask. -/
theorem newAcc_row1 (i : grid0.Coords) (X0 : Vec Ideal S32x256x85 .f32) (X1 : Vec Ideal S32x256x88 .f32)
    (X2 : Vec Ideal S256x2 .f32) (S : Vec Ideal S1x5x32 .f32) (b : Fin 32) :
    newAcc (F := Ideal) i X0 X1 X2 S (ix3 (0 : Fin 1) (1 : Fin 5) b)
      = S (ix3 (0 : Fin 1) (1 : Fin 5) b)
        + ∑ r : Fin 256, ∑ c : Fin 80,
            Spec.lneg (X0 (ix3 b r (Fin.castLE (by decide : 80 ≤ 85) c))) (X1 (ix3 b r (Fin.castLE (by decide : 80 ≤ 88) c)))
              * k0_pay3 (F := Ideal) i (ix2 b r) := by
  unfold newAcc k0_pay1
  show shapeCast S1x5x32 (k0_pay21 X1 _ _ _ _ _ _ _ _ _ S) _ (ix3 (0 : Fin 1) (1 : Fin 5) b) = _
  rw [shapeCast_self]
  refine (pay21_row1 _ _ _ _ _ _ _ _ _ _ S b).trans (congrArg (S (ix3 (0 : Fin 1) (1 : Fin 5) b) + ·) ?_)
  refine (pay11_apply _ _ _ _ b).trans ?_
  refine Finset.sum_congr rfl fun r _ => Finset.sum_congr rfl fun c _ => ?_
  rw [pay8_apply, pay9_apply, pay6_apply, pay4_apply]
  rfl

/-! ## At a grid point's filled blocks -/

/-- From zero, the first running sum after the body at point t is what the point adds to it. -/
theorem delta_row0 (c : Dev nD) (t : Fin cfg0.N) (d0 d1 d2) (b : Fin 32) :
    newAcc (F := Ideal) (grid0.coords t) (win0_0.fill (grid0.coords t) d0 (iblk m c 0 t))
        (win0_1.fill (grid0.coords t) d1 (iblk m c 1 t)) (win0_2.fill (grid0.coords t) d2 (iblk m c 2 t))
        (fun _ => (0 : EReal)) (ix3 (0 : Fin 1) (0 : Fin 5) b) = pointTerm m c t 0 b := by
  rw [newAcc_row0, zero_add]
  unfold pointTerm
  refine Finset.sum_congr rfl (fun r _ => ?_)
  by_cases h : (t.val % 34) * 256 + r.val < 8525
  · rw [dif_pos h, valid_apply, if_pos h]
    show _ = ∑ ch : Fin 80, Spec.lpos (outsArr m c (ix3 (rowOf t b) (anchorOf t r h) (Fin.castLE (by decide : 80 ≤ 85) ch)))
        (gresArr m c (ix3 (rowOf t b) (anchorOf t r h) (Fin.castLE (by decide : 80 ≤ 88) ch)))
    refine Finset.sum_congr rfl (fun ch _ => ?_)
    rw [mul_one, fill0_apply m c t d0 b r _ h, fill1_apply m c t d1 b r _ h]
  · rw [dif_neg h, valid_apply, if_neg h]
    exact Finset.sum_eq_zero (fun ch _ => mul_zero _)

/-- From zero, the second running sum after the body at point t is what the point adds to it. -/
theorem delta_row1 (c : Dev nD) (t : Fin cfg0.N) (d0 d1 d2) (b : Fin 32) :
    newAcc (F := Ideal) (grid0.coords t) (win0_0.fill (grid0.coords t) d0 (iblk m c 0 t))
        (win0_1.fill (grid0.coords t) d1 (iblk m c 1 t)) (win0_2.fill (grid0.coords t) d2 (iblk m c 2 t))
        (fun _ => (0 : EReal)) (ix3 (0 : Fin 1) (1 : Fin 5) b) = pointTerm m c t 1 b := by
  rw [newAcc_row1, zero_add]
  unfold pointTerm
  refine Finset.sum_congr rfl (fun r _ => ?_)
  by_cases h : (t.val % 34) * 256 + r.val < 8525
  · rw [dif_pos h, valid_apply, if_pos h]
    show _ = ∑ ch : Fin 80, Spec.lneg (outsArr m c (ix3 (rowOf t b) (anchorOf t r h) (Fin.castLE (by decide : 80 ≤ 85) ch)))
        (gresArr m c (ix3 (rowOf t b) (anchorOf t r h) (Fin.castLE (by decide : 80 ≤ 88) ch)))
    refine Finset.sum_congr rfl (fun ch _ => ?_)
    rw [mul_one, fill0_apply m c t d0 b r _ h, fill1_apply m c t d1 b r _ h]
  · rw [dif_neg h, valid_apply, if_neg h]
    exact Finset.sum_eq_zero (fun ch _ => mul_zero _)

end Cert.KernelIdeal.Hand

end
-- ==== Proof.RowConf.lean ====
/-
  Rows 2 and 4 of the five running sums: what one grid point adds to the confidence sums and to the in-box counts.

  The scratch after the body is the scratch before plus five vectors of 32 sums stacked as rows. Row 2 is, per block
  column b, the sum over the block's 256 rows r of (0 - log (s(x₈₀) + ε)) · [g₈₅ = 1] · valid(r), and row 4 the sum of
  [g₈₆ = 1] · valid(r), where x and g are the scores' and targets' words at (b, r) and valid(r) is 1 when the row's anchor
  exists and 0 past the array's end. On a row that exists the words are the argument arrays' and the factor 1 drops; past
  the end the factor 0 makes the product 0 whatever the buffer holds there. So each row's sum is the point's term.
-/
import proofs.«430690_j60112362275593_1_alg».proof.Proof.BodyIdeal
import proofs.«430690_j60112362275593_1_alg».proof.Proof.BlockRead
import proofs.«430690_j60112362275593_1_alg».proof.Proof.PointSum
import proofs.«430690_j60112362275593_1_alg».proof.Proof.Spec
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open scoped BigOperators

/-- The indicator the body builds by comparing a word with the word of 1, as a float. -/
theorem ind_eq_f (y : EReal) :
    FloatOps.sitofp (F := Ideal) .f32 ((FloatOps.cmpf (F := Ideal) .oeq y (Ideal.ofBits .f32 0x3F800000#32)).setWidth 32) = Spec.ind y := by
  show (((((BitVec.ofBool (decide (y = Ideal.ofBits .f32 0x3F800000#32))).setWidth 32).toInt : ℤ) : ℝ) : EReal)
      = if y = Ideal.ofBits .f32 0x3F800000#32 then 1 else 0
  by_cases h : y = Ideal.ofBits .f32 0x3F800000#32
  · rw [if_pos h, decide_eq_true h]
    show (((1 : ℤ) : ℝ) : EReal) = 1
    norm_num
  · rw [if_neg h, decide_eq_false h]
    show (((0 : ℤ) : ℝ) : EReal) = 0
    norm_num

/-- The logistic function and the logarithm act element by element. -/
theorem logistic_apply_f {s : Shape} (a : FVec Ideal s .f32) (i : s.Idx) : logistic a i = Ideal.logistic (a i) := rfl
theorem log_apply_f {s : Shape} (a : FVec Ideal s .f32) (i : s.Idx) : log a i = Ideal.log (a i) := rfl

/-- The sum along the 256 rows of a block of 32 columns, at column b. -/
theorem rowsum_apply_f (v : FVec Ideal S32x256 .f32) (h : S32x256.Reduces [1] S32) (hφ : FKind.Formats .f32)
    (hacc : (0x00000000#32 : BitVec 32) = FKind.add.neutral .f32 hφ) (b : Fin 32) :
    multiReduction (F := Ideal) .add [1] S32 v 0x00000000#32 h hφ hacc (ix1 b) = ∑ r : Fin 256, v (ix2 b r) := by
  refine (Ideal.multiReduction_add_single v 0x00000000#32 h hφ hacc (ix1 b)).trans ?_
  refine Finset.sum_congr rfl fun r _ => congrArg v ?_
  funext a
  match a with
  | ⟨0, _⟩ => rfl
  | ⟨1, _⟩ => rfl

/-- One channel of a block cut out and its unit axis dropped: at (a, b) it is the block at (a, b, k), k the channel. -/
theorem col_apply_f {α : Type} {n0 n1 n2 : ℕ} (o : ℕ) (X : (⟨3, ![n0, n1, n2]⟩ : Shape).Idx → α)
    (h : (⟨3, ![n0, n1, n2]⟩ : Shape).Slices ![0, 0, o] ⟨3, ![n0, n1, 1]⟩)
    (h' : (⟨3, ![n0, n1, 1]⟩ : Shape).ShapeCasts ⟨2, ![n0, n1]⟩) (a : Fin n0) (b : Fin n1) (k : Fin n2) (hk : k.val = o) :
    shapeCast ⟨2, ![n0, n1]⟩ (extractStridedSlice ⟨3, ![n0, n1, 1]⟩ ![0, 0, o] X h) h' (ix2 a b) = X (ix3 a b k) := by
  refine (shapeCast_apply _ h' (ix2 a b) (ix3 a b (0 : Fin 1)) ?_).trans ?_
  · rw [Shape.rowMajor_val_three, Shape.rowMajor_val_two]
    show (a.val * n1 + b.val) * 1 + 0 = a.val * n1 + b.val
    omega
  · refine extractStridedSlice_apply _ X h _ _ fun ax => ?_
    match ax with
    | ⟨0, _⟩ => exact (Nat.zero_add _).symm
    | ⟨1, _⟩ => exact (Nat.zero_add _).symm
    | ⟨2, _⟩ => exact hk.trans (Nat.add_zero _).symm

/-- Five vectors of 32 sums stacked as the rows of a [1, 5, 32] array and added to the sums found: row k at column b. -/
theorem stack_apply_f (S : Vec Ideal S1x5x32 .f32) (w0 w1 w2 w3 w4 : FVec Ideal S32 .f32)
    (k : Fin 5) (b : Fin 32) :
    addf S (shapeCast S1x5x32 (concatenate S5x32 0 [⟨S1x32, shapeCast S1x32 w0 shapeCasts_S32_S1x32⟩, ⟨S1x32, shapeCast S1x32 w1 shapeCasts_S32_S1x32⟩,
        ⟨S1x32, shapeCast S1x32 w2 shapeCasts_S32_S1x32⟩, ⟨S1x32, shapeCast S1x32 w3 shapeCasts_S32_S1x32⟩, ⟨S1x32, shapeCast S1x32 w4 shapeCasts_S32_S1x32⟩]
        concatenates_S1x32_S1x32_S1x32_S1x32_S1x32_S5x32_d0) shapeCasts_S5x32_S1x5x32) (ix3 (0 : Fin 1) k b)
      = S (ix3 (0 : Fin 1) k b) + (![w0, w1, w2, w3, w4] k) (ix1 b) := by
  rw [addf_apply]
  congr 1
  refine (shapeCast_ab_1ab_apply _ shapeCasts_S5x32_S1x5x32 (0 : Fin 1) k b).trans ?_
  have hi : ∀ c : Fin S1x32.rank, c.cast (rfl : S1x32.rank = S5x32.rank) ≠ (0 : Fin 2) →
      ((ix2 (0 : Fin 1) b) c).val = ((ix2 k b) (c.cast (rfl : S1x32.rank = S5x32.rank))).val := by
    intro c hc
    match c with
    | ⟨0, _⟩ => exact absurd rfl hc
    | ⟨1, _⟩ => rfl
  match k with
  | ⟨0, _⟩ =>
    refine (concatenate_apply_piece (t := S5x32) (0 : Fin 2) [⟨S1x32, shapeCast S1x32 w0 shapeCasts_S32_S1x32⟩, ⟨S1x32, shapeCast S1x32 w1 shapeCasts_S32_S1x32⟩,
        ⟨S1x32, shapeCast S1x32 w2 shapeCasts_S32_S1x32⟩, ⟨S1x32, shapeCast S1x32 w3 shapeCasts_S32_S1x32⟩, ⟨S1x32, shapeCast S1x32 w4 shapeCasts_S32_S1x32⟩]
      concatenates_S1x32_S1x32_S1x32_S1x32_S1x32_S5x32_d0 (ix2 (0 : Fin 5) b) 0 (by show (0 : ℕ) < 5; omega) S1x32 _ rfl rfl 0 rfl
      (ix2 (0 : Fin 1) b) hi rfl).trans ?_
    exact shapeCast_a_1a_apply _ _ _ _
  | ⟨1, _⟩ =>
    refine (concatenate_apply_piece (t := S5x32) (0 : Fin 2) [⟨S1x32, shapeCast S1x32 w0 shapeCasts_S32_S1x32⟩, ⟨S1x32, shapeCast S1x32 w1 shapeCasts_S32_S1x32⟩,
        ⟨S1x32, shapeCast S1x32 w2 shapeCasts_S32_S1x32⟩, ⟨S1x32, shapeCast S1x32 w3 shapeCasts_S32_S1x32⟩, ⟨S1x32, shapeCast S1x32 w4 shapeCasts_S32_S1x32⟩]
      concatenates_S1x32_S1x32_S1x32_S1x32_S1x32_S5x32_d0 (ix2 (1 : Fin 5) b) 1 (by show (1 : ℕ) < 5; omega) S1x32 _ rfl rfl 1 rfl
      (ix2 (0 : Fin 1) b) hi rfl).trans ?_
    exact shapeCast_a_1a_apply _ _ _ _
  | ⟨2, _⟩ =>
    refine (concatenate_apply_piece (t := S5x32) (0 : Fin 2) [⟨S1x32, shapeCast S1x32 w0 shapeCasts_S32_S1x32⟩, ⟨S1x32, shapeCast S1x32 w1 shapeCasts_S32_S1x32⟩,
        ⟨S1x32, shapeCast S1x32 w2 shapeCasts_S32_S1x32⟩, ⟨S1x32, shapeCast S1x32 w3 shapeCasts_S32_S1x32⟩, ⟨S1x32, shapeCast S1x32 w4 shapeCasts_S32_S1x32⟩]
      concatenates_S1x32_S1x32_S1x32_S1x32_S1x32_S5x32_d0 (ix2 (2 : Fin 5) b) 2 (by show (2 : ℕ) < 5; omega) S1x32 _ rfl rfl 2 rfl
      (ix2 (0 : Fin 1) b) hi rfl).trans ?_
    exact shapeCast_a_1a_apply _ _ _ _
  | ⟨3, _⟩ =>
    refine (concatenate_apply_piece (t := S5x32) (0 : Fin 2) [⟨S1x32, shapeCast S1x32 w0 shapeCasts_S32_S1x32⟩, ⟨S1x32, shapeCast S1x32 w1 shapeCasts_S32_S1x32⟩,
        ⟨S1x32, shapeCast S1x32 w2 shapeCasts_S32_S1x32⟩, ⟨S1x32, shapeCast S1x32 w3 shapeCasts_S32_S1x32⟩, ⟨S1x32, shapeCast S1x32 w4 shapeCasts_S32_S1x32⟩]
      concatenates_S1x32_S1x32_S1x32_S1x32_S1x32_S5x32_d0 (ix2 (3 : Fin 5) b) 3 (by show (3 : ℕ) < 5; omega) S1x32 _ rfl rfl 3 rfl
      (ix2 (0 : Fin 1) b) hi rfl).trans ?_
    exact shapeCast_a_1a_apply _ _ _ _
  | ⟨4, _⟩ =>
    refine (concatenate_apply_piece (t := S5x32) (0 : Fin 2) [⟨S1x32, shapeCast S1x32 w0 shapeCasts_S32_S1x32⟩, ⟨S1x32, shapeCast S1x32 w1 shapeCasts_S32_S1x32⟩,
        ⟨S1x32, shapeCast S1x32 w2 shapeCasts_S32_S1x32⟩, ⟨S1x32, shapeCast S1x32 w3 shapeCasts_S32_S1x32⟩, ⟨S1x32, shapeCast S1x32 w4 shapeCasts_S32_S1x32⟩]
      concatenates_S1x32_S1x32_S1x32_S1x32_S1x32_S5x32_d0 (ix2 (4 : Fin 5) b) 4 (by show (4 : ℕ) < 5; omega) S1x32 _ rfl rfl 4 rfl
      (ix2 (0 : Fin 1) b) hi rfl).trans ?_
    exact shapeCast_a_1a_apply _ _ _ _

/-- Rows 2 and 4 of the same. -/
theorem stack2_apply_f (S : Vec Ideal S1x5x32 .f32) (w0 w1 w2 w3 w4 : FVec Ideal S32 .f32) (b : Fin 32) :
    addf S (shapeCast S1x5x32 (concatenate S5x32 0 [⟨S1x32, shapeCast S1x32 w0 shapeCasts_S32_S1x32⟩, ⟨S1x32, shapeCast S1x32 w1 shapeCasts_S32_S1x32⟩,
        ⟨S1x32, shapeCast S1x32 w2 shapeCasts_S32_S1x32⟩, ⟨S1x32, shapeCast S1x32 w3 shapeCasts_S32_S1x32⟩, ⟨S1x32, shapeCast S1x32 w4 shapeCasts_S32_S1x32⟩]
        concatenates_S1x32_S1x32_S1x32_S1x32_S1x32_S5x32_d0) shapeCasts_S5x32_S1x5x32) (ix3 (0 : Fin 1) (2 : Fin 5) b)
      = S (ix3 (0 : Fin 1) (2 : Fin 5) b) + w2 (ix1 b) :=
  stack_apply_f S w0 w1 w2 w3 w4 2 b

theorem stack4_apply_f (S : Vec Ideal S1x5x32 .f32) (w0 w1 w2 w3 w4 : FVec Ideal S32 .f32) (b : Fin 32) :
    addf S (shapeCast S1x5x32 (concatenate S5x32 0 [⟨S1x32, shapeCast S1x32 w0 shapeCasts_S32_S1x32⟩, ⟨S1x32, shapeCast S1x32 w1 shapeCasts_S32_S1x32⟩,
        ⟨S1x32, shapeCast S1x32 w2 shapeCasts_S32_S1x32⟩, ⟨S1x32, shapeCast S1x32 w3 shapeCasts_S32_S1x32⟩, ⟨S1x32, shapeCast S1x32 w4 shapeCasts_S32_S1x32⟩]
        concatenates_S1x32_S1x32_S1x32_S1x32_S1x32_S5x32_d0) shapeCasts_S5x32_S1x5x32) (ix3 (0 : Fin 1) (4 : Fin 5) b)
      = S (ix3 (0 : Fin 1) (4 : Fin 5) b) + w4 (ix1 b) :=
  stack_apply_f S w0 w1 w2 w3 w4 4 b

/-- The scratch after the body is the last sum of the body's arithmetic: the closing shape cast changes nothing. -/
theorem newAcc_eq_f (i : grid0.Coords) (X0 : Vec Ideal S32x256x85 .f32) (X1 : Vec Ideal S32x256x88 .f32) (X2 : Vec Ideal S256x2 .f32)
    (S : Vec Ideal S1x5x32 .f32) :
    newAcc (F := Ideal) i X0 X1 X2 S
      = k0_pay21 X1 (k0_pay3 i) (k0_pay10 (k0_pay7 i X0 X1)) (k0_pay11 (k0_pay4 i) (k0_pay6 X1) (k0_pay8 X0) (k0_pay9 X0))
          (k0_pay12 X0 X1 (k0_pay3 i)) (k0_pay13 X0 X2) (k0_pay14 X1)
          (k0_pay18 (k0_pay13 X0 X2) (k0_pay14 X1) (k0_pay15 X0 X1 X2) (k0_pay16 X0 X1 X2))
          (k0_pay19 (k0_pay13 X0 X2) (k0_pay14 X1) (k0_pay15 X0 X1 X2) (k0_pay16 X0 X1 X2))
          (k0_pay20 (k0_pay13 X0 X2)) S := by
  unfold newAcc k0_pay1
  exact shapeCast_self _ _

/-- Row 2 of the scratch after the body: the sums found plus the confidence terms of the block's rows, masked. -/
theorem newAcc_row2_f (i : grid0.Coords) (X0 : Vec Ideal S32x256x85 .f32) (X1 : Vec Ideal S32x256x88 .f32) (X2 : Vec Ideal S256x2 .f32)
    (S : Vec Ideal S1x5x32 .f32) (b : Fin 32) :
    newAcc (F := Ideal) i X0 X1 X2 S (ix3 (0 : Fin 1) (2 : Fin 5) b)
      = S (ix3 (0 : Fin 1) (2 : Fin 5) b)
        + ∑ r : Fin 256, Spec.conf (X0 (ix3 b r (80 : Fin 85))) (X1 (ix3 b r (85 : Fin 88))) * k0_pay3 (F := Ideal) i (ix2 b r) := by
  rw [newAcc_eq_f]
  unfold k0_pay21
  refine (stack2_apply_f S _ _ _ _ _ b).trans ?_
  congr 1
  unfold k0_pay12
  refine (rowsum_apply_f _ _ _ _ b).trans ?_
  refine Finset.sum_congr rfl fun r _ => ?_
  rw [mulf_apply, mulf_apply]
  congr 1
  rw [subf_apply, broadcast_apply, log_apply_f, addf_apply, logistic_apply_f, broadcast_apply, sitofp_apply, extui_apply, cmpf_apply, broadcast_apply,
    col_apply_f 80 X0 _ _ b r (80 : Fin 85) rfl, col_apply_f 85 X1 _ _ b r (85 : Fin 88) rfl]
  unfold Spec.conf Spec.eps
  rw [← ind_eq_f]
  congr 1
  show Ideal.ofBits .f32 0x00000000#32 - _ = _
  rw [Ideal.ofBits_zero_f32, zero_sub]
  rfl

/-- Row 4 of the scratch after the body: the sums found plus the in-box indicators of the block's rows, masked. -/
theorem newAcc_row4_f (i : grid0.Coords) (X0 : Vec Ideal S32x256x85 .f32) (X1 : Vec Ideal S32x256x88 .f32) (X2 : Vec Ideal S256x2 .f32)
    (S : Vec Ideal S1x5x32 .f32) (b : Fin 32) :
    newAcc (F := Ideal) i X0 X1 X2 S (ix3 (0 : Fin 1) (4 : Fin 5) b)
      = S (ix3 (0 : Fin 1) (4 : Fin 5) b)
        + ∑ r : Fin 256, Spec.ind (X1 (ix3 b r (86 : Fin 88))) * k0_pay3 (F := Ideal) i (ix2 b r) := by
  rw [newAcc_eq_f]
  unfold k0_pay21
  refine (stack4_apply_f S _ _ _ _ _ b).trans ?_
  congr 1
  refine (rowsum_apply_f _ _ _ _ b).trans ?_
  refine Finset.sum_congr rfl fun r _ => ?_
  rw [mulf_apply]
  congr 1
  rw [sitofp_apply, extui_apply, cmpf_apply, broadcast_apply, col_apply_f 86 X1 _ _ b r (86 : Fin 88) rfl]
  exact ind_eq_f _

variable (m : (ℓ : Loc nD τ sig) → Buf (Elt Ideal) ℓ)

/-- What point t adds to the confidence sums: the confidence terms of the anchors its block holds that exist. -/
theorem delta_row2 (c : Dev nD) (t : Fin cfg0.N) (d0 d1 d2) (b : Fin 32) :
    newAcc (F := Ideal) (grid0.coords t) (win0_0.fill (grid0.coords t) d0 (iblk m c 0 t)) (win0_1.fill (grid0.coords t) d1 (iblk m c 1 t))
      (win0_2.fill (grid0.coords t) d2 (iblk m c 2 t)) (fun _ => (0 : EReal)) (ix3 (0 : Fin 1) (2 : Fin 5) b) = pointTerm m c t 2 b := by
  refine (newAcc_row2_f _ _ _ _ _ b).trans ?_
  show (0 : EReal) + _ = _
  rw [zero_add]
  unfold pointTerm
  refine Finset.sum_congr rfl fun r _ => ?_
  rw [valid_apply]
  by_cases h : (t.val % 34) * 256 + r.val < 8525
  · rw [if_pos h, dif_pos h, mul_one, fill0_apply m c t d0 b r _ h, fill1_apply m c t d1 b r _ h]
    rfl
  · rw [if_neg h, dif_neg h, mul_zero]

/-- What point t adds to the in-box counts: the indicators of the anchors its block holds that exist. -/
theorem delta_row4 (c : Dev nD) (t : Fin cfg0.N) (d0 d1 d2) (b : Fin 32) :
    newAcc (F := Ideal) (grid0.coords t) (win0_0.fill (grid0.coords t) d0 (iblk m c 0 t)) (win0_1.fill (grid0.coords t) d1 (iblk m c 1 t))
      (win0_2.fill (grid0.coords t) d2 (iblk m c 2 t)) (fun _ => (0 : EReal)) (ix3 (0 : Fin 1) (4 : Fin 5) b) = pointTerm m c t 4 b := by
  refine (newAcc_row4_f _ _ _ _ _ b).trans ?_
  show (0 : EReal) + _ = _
  rw [zero_add]
  unfold pointTerm
  refine Finset.sum_congr rfl fun r _ => ?_
  rw [valid_apply]
  by_cases h : (t.val % 34) * 256 + r.val < 8525
  · rw [if_pos h, dif_pos h, mul_one, fill1_apply m c t d1 b r _ h]
    rfl
  · rw [if_neg h, dif_neg h, mul_zero]

end Cert.KernelIdeal.Hand
end
-- ==== Proof.RowReg.lean ====
/-
  The regression sum (row 3 of the five running sums): what one grid point adds to it.

  For column b of the block and each of its 256 rows r the body forms the predicted box
  (gx - o₀, gy - o₁, gx + o₂, gy + o₃) from the anchor centre and the four offsets, takes the target box from the
  targets' words 81 … 84, computes their generalized intersection over union, and adds
  (1 - GIoU) · centerness · [in-box word = 1] · [the anchor exists] over the rows. Where the anchor exists the
  staging buffers hold the argument arrays' words and the summand is the specification's; past the arrays' end the
  last factor is 0 and the product is 0 whatever the buffers hold.
-/
import proofs.«430690_j60112362275593_1_alg».proof.Proof.BodyIdeal
import proofs.«430690_j60112362275593_1_alg».proof.Proof.BlockRead
import proofs.«430690_j60112362275593_1_alg».proof.Proof.PointSum
import proofs.«430690_j60112362275593_1_alg».proof.Proof.Spec
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open scoped BigOperators

namespace Reg

/-! ## Layout operations of the body read at an index -/

section Layout
variable {α : Type}

/-- A rank-3 array cut along its last axis from `o` reads, at `(a, b, j)`, the source at `(a, b, k)` with `k = o + j`. -/
theorem slice3_last {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

/-- An `[a, b, 1]` array cast to `[a, b]` reads, at `(i, j)`, the operand at `(i, j, 0)`. -/
theorem squeeze3_last {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    omega)

/-- One column of a rank-3 array as a matrix: the slice of width one at `o` along the last axis, squeezed. -/
theorem column {a b n : ℕ} (o : Nat) (X : (⟨3, ![a, b, n]⟩ : Shape).Idx → α)
    (h : (⟨3, ![a, b, n]⟩ : Shape).Slices ![0, 0, o] ⟨3, ![a, b, 1]⟩)
    (h' : (⟨3, ![a, b, 1]⟩ : Shape).ShapeCasts ⟨2, ![a, b]⟩) (i : Fin a) (j : Fin b) (k : Fin n) (hk : k.val = o) :
    shapeCast ⟨2, ![a, b]⟩ (extractStridedSlice ⟨3, ![a, b, 1]⟩ ![0, 0, o] X h) h' (ix2 i j) = X (ix3 i j k) :=
  (squeeze3_last _ h' i j).trans (slice3_last o X h i j (0 : Fin 1) k (by show k.val = o + 0; omega))

/-- A `[1, b, c]` array broadcast to `[a, b, c]` reads, at `(p, i, j)`, the operand's one slab at `(i, j)`. -/
theorem broadcast_slab {a b c : ℕ} (v : (⟨3, ![1, b, c]⟩ : Shape).Idx → α)
    (h : (⟨3, ![1, b, c]⟩ : Shape).Broadcasts ⟨3, ![a, b, c]⟩) (p : Fin a) (i : Fin b) (j : Fin c) :
    broadcastTo ⟨3, ![a, b, c]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if b = 1 then 0 else i.val
    split
    · have := i.isLt; omega
    · rfl
  | ⟨2, _⟩ =>
    show j.val = if c = 1 then 0 else j.val
    split
    · have := j.isLt; omega
    · rfl

end Layout

section Pieces
variable {α : Type}

/-- The predicted box's concatenation read in its first half. -/
theorem cat_box_left (x y : S32x256x2.Idx → α) (h : Shape.Concatenates [S32x256x2, S32x256x2] S32x256x4 2)
    (b : Fin 32) (r : Fin 256) (c : Fin 2) (c4 : Fin 4) (hc : c4.val = c.val) :
    concatenate S32x256x4 2 [⟨S32x256x2, x⟩, ⟨S32x256x2, y⟩] h (ix3 b r c4) = x (ix3 b r c) :=
  concatenate_pair_apply_left 2 x y h _ rfl _ (fun a => by
    match a with
    | ⟨0, _⟩ => rfl
    | ⟨1, _⟩ => rfl
    | ⟨2, _⟩ => exact hc.symm)

/-- The predicted box's concatenation read in its second half. -/
theorem cat_box_right (x y : S32x256x2.Idx → α) (h : Shape.Concatenates [S32x256x2, S32x256x2] S32x256x4 2)
    (b : Fin 32) (r : Fin 256) (c : Fin 2) (c4 : Fin 4) (hc : c.val + 2 = c4.val) :
    concatenate S32x256x4 2 [⟨S32x256x2, x⟩, ⟨S32x256x2, y⟩] h (ix3 b r c4) = y (ix3 b r c) :=
  concatenate_pair_apply_right 2 x y h _ rfl rfl _
    (fun a ha => by
      match a with
      | ⟨0, _⟩ => rfl
      | ⟨1, _⟩ => rfl
      | ⟨2, _⟩ => exact absurd rfl ha)
    hc

/-- The five sum vectors stacked: row 3 of the stack is the fourth vector. -/
theorem stack_row3 (x0 x1 x2 x3 x4 : S1x32.Idx → α)
    (h : Shape.Concatenates [S1x32, S1x32, S1x32, S1x32, S1x32] S5x32 0) (b : Fin 32) :
    concatenate S5x32 0 [⟨S1x32, x0⟩, ⟨S1x32, x1⟩, ⟨S1x32, x2⟩, ⟨S1x32, x3⟩, ⟨S1x32, x4⟩] h (ix2 (3 : Fin 5) b)
      = x3 (ix2 (0 : Fin 1) b) := by
  show x3 _ = x3 _
  congr 1
  funext a
  match a with
  | ⟨0, _⟩ => rfl
  | ⟨1, _⟩ => rfl

end Pieces

/-- The sum along the 256 rows of a block, at column `b`. -/
theorem rowsum (v : FVec Ideal S32x256 .f32) (h : S32x256.Reduces [1] S32) (hφ : FKind.Formats .f32)
    (hacc : (0x00000000#32 : BitVec (FTy.f32).bits) = FKind.add.neutral .f32 hφ) (b : Fin 32) :
    multiReduction (F := Ideal) .add [1] S32 v 0x00000000#32 h hφ hacc (ix1 b) = ∑ r : Fin 256, v (ix2 b r) := by
  refine (Ideal.multiReduction_add_single v 0x00000000#32 h hφ hacc (ix1 b)).trans ?_
  refine Finset.sum_congr rfl fun r _ => congrArg v ?_
  funext a
  match a with
  | ⟨0, _⟩ => rfl
  | ⟨1, _⟩ => rfl

/-! ## The indicator of "this word equals 1" -/

end Reg

/-- The body's indicator: the comparison with 1 widened to a word and read as a number. -/
theorem ind_eq_g (y : EReal) :
    (FloatOps.sitofp (F := Ideal) .f32 ((FloatOps.cmpf (F := Ideal) (φ := .f32) .oeq y (Ideal.ofBits .f32 0x3F800000#32)).setWidth 32) : EReal)
      = Spec.ind y := by
  unfold Spec.ind Spec.one
  show (((BitVec.setWidth 32 (Ideal.cmp .oeq y (Ideal.ofBits .f32 0x3F800000#32))).toInt : ℝ) : EReal) = _
  unfold Ideal.cmp
  by_cases h : y = Ideal.ofBits .f32 0x3F800000#32
  · rw [if_pos h]
    simp [h]
  · rw [if_neg h]
    simp [h]

namespace Reg

/-! ## Columns of the blocks -/

section Columns
variable (V : FVec Ideal S32x256x4 .f32) (X1 : FVec Ideal S32x256x88 .f32)
  (b : Fin 32) (r : Fin 256)

theorem col4_0 (h : S32x256x4.Slices ![0, 0, 0] S32x256x1) :
    extractStridedSlice S32x256x1 ![0, 0, 0] V h (ix3 b r (0 : Fin 1)) = V (ix3 b r (0 : Fin 4)) :=
  slice3_last 0 V h b r 0 0 rfl
theorem col4_1 (h : S32x256x4.Slices ![0, 0, 1] S32x256x1) :
    extractStridedSlice S32x256x1 ![0, 0, 1] V h (ix3 b r (0 : Fin 1)) = V (ix3 b r (1 : Fin 4)) :=
  slice3_last 1 V h b r 0 1 rfl
theorem col4_2 (h : S32x256x4.Slices ![0, 0, 2] S32x256x1) :
    extractStridedSlice S32x256x1 ![0, 0, 2] V h (ix3 b r (0 : Fin 1)) = V (ix3 b r (2 : Fin 4)) :=
  slice3_last 2 V h b r 0 2 rfl
theorem col4_3 (h : S32x256x4.Slices ![0, 0, 3] S32x256x1) :
    extractStridedSlice S32x256x1 ![0, 0, 3] V h (ix3 b r (0 : Fin 1)) = V (ix3 b r (3 : Fin 4)) :=
  slice3_last 3 V h b r 0 3 rfl
theorem col88_80 (h : S32x256x88.Slices ![0, 0, 80] S32x256x1) :
    extractStridedSlice S32x256x1 ![0, 0, 80] X1 h (ix3 b r (0 : Fin 1)) = X1 (ix3 b r (80 : Fin 88)) :=
  slice3_last 80 X1 h b r 0 80 rfl
theorem col88_86 (h : S32x256x88.Slices ![0, 0, 86] S32x256x1) :
    extractStridedSlice S32x256x1 ![0, 0, 86] X1 h (ix3 b r (0 : Fin 1)) = X1 (ix3 b r (86 : Fin 88)) :=
  slice3_last 86 X1 h b r 0 86 rfl

end Columns

/-! ## The two boxes -/

section Boxes
variable (X0 : Vec Ideal S32x256x85 .f32) (X1 : Vec Ideal S32x256x88 .f32) (X2 : Vec Ideal S256x2 .f32)
  (b : Fin 32) (r : Fin 256)

/-- The anchor centres as the body lays them over the 32 batch rows. -/
theorem centres_apply (h1 : S256x2.ShapeCasts S1x256x2) (h2 : S1x256x2.ShapeCasts S1x256x2)
    (h3 : S1x256x2.Broadcasts S32x256x2) (c : Fin 2) :
    broadcastTo S32x256x2 (shapeCast S1x256x2 (shapeCast S1x256x2 X2 h1) h2) h3 (ix3 b r c) = X2 (ix2 r c) :=
  (broadcast_slab _ h3 b r c).trans
    ((congrFun (shapeCast_self _ h2) _).trans (shapeCast_ab_1ab_apply X2 h1 0 r c))

/-- The predicted box's left and top: the centre less the offset. -/
theorem pred_lo (c : Fin 2) (c4 : Fin 4) (c85 : Fin 85) (h4 : c4.val = c.val) (h85 : c85.val = 81 + c.val) :
    k0_pay13 X0 X2 (ix3 b r c4) = X2 (ix2 r c) - X0 (ix3 b r c85) := by
  unfold k0_pay13
  refine (cat_box_left _ _ _ b r c c4 h4).trans ?_
  refine (subf_apply _ _ _).trans (congrArg₂ (· - ·) (centres_apply X2 b r _ _ _ c) ?_)
  exact (slice3_last 0 _ _ b r c (⟨c.val, by omega⟩ : Fin 4) (by show c.val = 0 + c.val; omega)).trans
    (slice3_last 81 X0 _ b r _ c85 h85)

/-- The predicted box's right and bottom: the centre plus the offset. -/
theorem pred_hi (c : Fin 2) (c4 : Fin 4) (c85 : Fin 85) (h4 : c.val + 2 = c4.val) (h85 : c85.val = 83 + c.val) :
    k0_pay13 X0 X2 (ix3 b r c4) = X2 (ix2 r c) + X0 (ix3 b r c85) := by
  unfold k0_pay13
  refine (cat_box_right _ _ _ b r c c4 h4).trans ?_
  refine (addf_apply _ _ _).trans (congrArg₂ (· + ·) (centres_apply X2 b r _ _ _ c) ?_)
  exact (slice3_last 2 _ _ b r c (⟨2 + c.val, by omega⟩ : Fin 4) rfl).trans
    (slice3_last 81 X0 _ b r _ c85 (by show c85.val = 81 + (2 + c.val); omega))

/-- The target box: the targets' words 81 … 84. -/
theorem targ_apply (k : Fin 4) (k88 : Fin 88) (hk : k88.val = 81 + k.val) :
    k0_pay14 X1 (ix3 b r k) = X1 (ix3 b r k88) := by
  unfold k0_pay14
  exact slice3_last 81 X1 _ b r k k88 hk

end Boxes

/-! ## The chain from the two boxes to the summand, at row `r` of column `b` -/

section Chain
variable (X0 : Vec Ideal S32x256x85 .f32) (X1 : Vec Ideal S32x256x88 .f32) (X2 : Vec Ideal S256x2 .f32)
  (V77 V78 : FVec Ideal S32x256x4 .f32) (v83 v88 : FVec Ideal S32x256 .f32) (b : Fin 32) (r : Fin 256)

local notation "Z" => (Ideal.ofBits FTy.f32 0x00000000#32 : EReal)
local notation "E" => (Ideal.ofBits FTy.f32 0x358637BD#32 : EReal)
local notation "O" => (Ideal.ofBits FTy.f32 0x3F800000#32 : EReal)

/-- The larger of the two lefts. -/
theorem pay15_apply :
    k0_pay15 X0 X1 X2 (ix2 b r) = max (k0_pay13 X0 X2 (ix3 b r (0 : Fin 4))) (k0_pay14 X1 (ix3 b r (0 : Fin 4))) := by
  unfold k0_pay15
  simp only [maximumf_apply, squeeze3_last, col4_0]

/-- The larger of the two tops. -/
theorem pay16_apply :
    k0_pay16 X0 X1 X2 (ix2 b r) = max (k0_pay13 X0 X2 (ix3 b r (1 : Fin 4))) (k0_pay14 X1 (ix3 b r (1 : Fin 4))) := by
  unfold k0_pay16
  simp only [maximumf_apply, squeeze3_last, col4_1]

/-- The intersection's area. -/
theorem pay17_apply :
    k0_pay17 V77 V78 v83 v88 (ix2 b r)
      = max (min (V77 (ix3 b r (2 : Fin 4))) (V78 (ix3 b r (2 : Fin 4))) - v83 (ix2 b r)) Z
        * max (min (V77 (ix3 b r (3 : Fin 4))) (V78 (ix3 b r (3 : Fin 4))) - v88 (ix2 b r)) Z := by
  unfold k0_pay17
  simp only [mulf_apply, maximumf_apply, minimumf_apply, subf_apply, broadcast_apply, squeeze3_last, col4_2, col4_3, Ideal.ofBits_def]

/-- The union's area: the two boxes' areas less the intersection's. -/
theorem pay18_apply :
    k0_pay18 V77 V78 v83 v88 (ix2 b r)
      = (max (V77 (ix3 b r (2 : Fin 4)) - V77 (ix3 b r (0 : Fin 4))) Z * max (V77 (ix3 b r (3 : Fin 4)) - V77 (ix3 b r (1 : Fin 4))) Z
          + max (V78 (ix3 b r (2 : Fin 4)) - V78 (ix3 b r (0 : Fin 4))) Z * max (V78 (ix3 b r (3 : Fin 4)) - V78 (ix3 b r (1 : Fin 4))) Z)
        - k0_pay17 V77 V78 v83 v88 (ix2 b r) := by
  unfold k0_pay18
  simp only [mulf_apply, addf_apply, maximumf_apply, subf_apply, broadcast_apply, squeeze3_last, col4_0, col4_1, col4_2, col4_3, Ideal.ofBits_def]

/-- The intersection over the union. -/
theorem pay19_apply :
    k0_pay19 V77 V78 v83 v88 (ix2 b r)
      = Ideal.div (k0_pay17 V77 V78 v83 v88 (ix2 b r)) (k0_pay18 V77 V78 v83 v88 (ix2 b r) + E) := by
  unfold k0_pay19
  simp only [divf_apply, addf_apply, broadcast_apply, Ideal.ofBits_def]

/-- The predicted box's left, as the last part of the body reads it. -/
theorem pay20_apply : k0_pay20 V77 (ix3 b r (0 : Fin 1)) = V77 (ix3 b r (0 : Fin 4)) := by
  unfold k0_pay20
  exact slice3_last 0 V77 _ b r 0 0 rfl

end Chain

/-! ## The regression sum -/

section Sum
variable (X1 : FVec Ideal S32x256x88 .f32)

local notation "Z" => (Ideal.ofBits FTy.f32 0x00000000#32 : EReal)
local notation "E" => (Ideal.ofBits FTy.f32 0x358637BD#32 : EReal)
local notation "O" => (Ideal.ofBits FTy.f32 0x3F800000#32 : EReal)

/-- Row 3 of the sums the last part of the body forms: the sum found plus, over the 256 rows, one less the GIoU (the
    intersection over the union, less the part of the hull outside the union over the hull) times the centerness, the
    in-box indicator and the mask. -/
theorem pay21_row3 (v13 : FVec Ideal S32x256 .f32) (v49 v51 v68 : FVec Ideal S32 .f32) (V77 V78 : FVec Ideal S32x256x4 .f32)
    (v137 v140 : FVec Ideal S32x256 .f32) (v141 : FVec Ideal S32x256x1 .f32) (S : Vec Ideal S1x5x32 .f32) (b : Fin 32) :
    k0_pay21 X1 v13 v49 v51 v68 V77 V78 v137 v140 v141 S (ix3 (0 : Fin 1) (3 : Fin 5) b)
      = S (ix3 (0 : Fin 1) (3 : Fin 5) b) + ∑ r : Fin 256,
          (((O - (v140 (ix2 b r)
                - Ideal.div
                    ((max (V77 (ix3 b r (2 : Fin 4))) (V78 (ix3 b r (2 : Fin 4))) - min (v141 (ix3 b r (0 : Fin 1))) (V78 (ix3 b r (0 : Fin 4))))
                        * (max (V77 (ix3 b r (3 : Fin 4))) (V78 (ix3 b r (3 : Fin 4))) - min (V77 (ix3 b r (1 : Fin 4))) (V78 (ix3 b r (1 : Fin 4))))
                      - v137 (ix2 b r))
                    ((max (V77 (ix3 b r (2 : Fin 4))) (V78 (ix3 b r (2 : Fin 4))) - min (v141 (ix3 b r (0 : Fin 1))) (V78 (ix3 b r (0 : Fin 4))))
                        * (max (V77 (ix3 b r (3 : Fin 4))) (V78 (ix3 b r (3 : Fin 4))) - min (V77 (ix3 b r (1 : Fin 4))) (V78 (ix3 b r (1 : Fin 4))))
                      + E)))
              * X1 (ix3 b r (80 : Fin 88)))
            * Spec.ind (X1 (ix3 b r (86 : Fin 88))))
          * v13 (ix2 b r) := by
  unfold k0_pay21
  refine (addf_apply _ _ _).trans (congrArg (S (ix3 (0 : Fin 1) (3 : Fin 5) b) + ·) ?_)
  refine (shapeCast_ab_1ab_apply _ _ (0 : Fin 1) (3 : Fin 5) b).trans ?_
  refine (stack_row3 _ _ _ _ _ _ b).trans ?_
  refine (shapeCast_a_1a_apply _ _ (0 : Fin 1) b).trans ?_
  refine (rowsum _ _ _ _ b).trans ?_
  refine Finset.sum_congr rfl fun r _ => ?_
  simp only [mulf_apply, addf_apply, subf_apply, divf_apply, maximumf_apply, minimumf_apply, broadcast_apply,
    sitofp_apply, extui_apply, cmpf_apply, col4_0, col4_1, col4_2, col4_3, col88_80, col88_86, squeeze3_last,
    Ideal.ofBits_def, ind_eq_g]

end Sum

end Reg

/-! ## The regression sum of a point -/

section Point
variable (X0 : Vec Ideal S32x256x85 .f32) (X1 : Vec Ideal S32x256x88 .f32) (X2 : Vec Ideal S256x2 .f32)

/-- The regression summand from the words of the three blocks at row `r` of column `b`. -/
def regTerm (b : Fin 32) (r : Fin 256) : EReal :=
  ((Spec.one - Spec.giou (X2 (ix2 r (0 : Fin 2)) - X0 (ix3 b r (81 : Fin 85))) (X2 (ix2 r (1 : Fin 2)) - X0 (ix3 b r (82 : Fin 85)))
        (X2 (ix2 r (0 : Fin 2)) + X0 (ix3 b r (83 : Fin 85))) (X2 (ix2 r (1 : Fin 2)) + X0 (ix3 b r (84 : Fin 85)))
        (X1 (ix3 b r (81 : Fin 88))) (X1 (ix3 b r (82 : Fin 88))) (X1 (ix3 b r (83 : Fin 88))) (X1 (ix3 b r (84 : Fin 88))))
      * X1 (ix3 b r (80 : Fin 88)))
    * Spec.ind (X1 (ix3 b r (86 : Fin 88)))

/-- Row 3 of the scratch after the body, started from zero: the masked summands over the block's 256 rows. -/
theorem row3_read (i : grid0.Coords) (b : Fin 32) :
    newAcc (F := Ideal) i X0 X1 X2 (fun _ => (0 : EReal)) (ix3 (0 : Fin 1) (3 : Fin 5) b)
      = ∑ r : Fin 256, regTerm X0 X1 X2 b r * k0_pay3 (F := Ideal) i (ix2 b r) := by
  unfold newAcc k0_pay1
  refine (congrFun (shapeCast_self _ _) _).trans ?_
  refine (Reg.pay21_row3 X1 _ _ _ _ _ _ _ _ _ _ b).trans ?_
  refine (zero_add _).trans ?_
  refine Finset.sum_congr rfl fun r _ => ?_
  refine congrArg (· * k0_pay3 (F := Ideal) i (ix2 b r)) ?_
  rw [Reg.pay19_apply, Reg.pay18_apply, Reg.pay17_apply, Reg.pay15_apply, Reg.pay16_apply, Reg.pay20_apply,
    Reg.pred_lo X0 X2 b r 0 0 81 rfl rfl, Reg.pred_lo X0 X2 b r 1 1 82 rfl rfl,
    Reg.pred_hi X0 X2 b r 0 2 83 rfl rfl, Reg.pred_hi X0 X2 b r 1 3 84 rfl rfl,
    Reg.targ_apply X1 b r 0 81 rfl, Reg.targ_apply X1 b r 1 82 rfl, Reg.targ_apply X1 b r 2 83 rfl,
    Reg.targ_apply X1 b r 3 84 rfl]
  unfold regTerm Spec.giou Spec.one Spec.zero Spec.eps
  rfl

end Point

/-! ## At the filled blocks -/

variable (m : (ℓ : Loc nD τ sig) → Buf (Elt Ideal) ℓ)

/-- What grid point `t` adds to the regression sum of column `b`: the specification's summands of the anchors the
    block holds that exist; a row past the arrays' end adds 0 whatever fills the buffers there. -/
theorem delta_row3 (c : Dev nD) (t : Fin cfg0.N) (d0) (d1) (d2) (b : Fin 32) :
    newAcc (F := Ideal) (grid0.coords t) (win0_0.fill (grid0.coords t) d0 (iblk m c 0 t))
        (win0_1.fill (grid0.coords t) d1 (iblk m c 1 t)) (win0_2.fill (grid0.coords t) d2 (iblk m c 2 t))
        (fun _ => (0 : EReal)) (ix3 (0 : Fin 1) (3 : Fin 5) b)
      = pointTerm m c t 3 b := by
  rw [row3_read]
  unfold pointTerm
  refine Finset.sum_congr rfl fun r _ => ?_
  rw [valid_apply]
  by_cases h : (t.val % 34) * 256 + r.val < 8525
  · rw [if_pos h, dif_pos h, mul_one]
    unfold regTerm
    rw [fill0_apply m c t d0 b r 81 h, fill0_apply m c t d0 b r 82 h, fill0_apply m c t d0 b r 83 h,
      fill0_apply m c t d0 b r 84 h, fill1_apply m c t d1 b r 80 h, fill1_apply m c t d1 b r 81 h,
      fill1_apply m c t d1 b r 82 h, fill1_apply m c t d1 b r 83 h, fill1_apply m c t d1 b r 84 h,
      fill1_apply m c t d1 b r 86 h, fill2_apply m c t d2 r 0 h, fill2_apply m c t d2 r 1 h]
    rfl
  · rw [if_neg h, dif_neg h, mul_zero]

end Cert.KernelIdeal.Hand

end
-- ==== Proof.PointValue.lean ====
/-
  The body's arithmetic at the ideal instance, read at an index: the five running sums after a point are the sums
  found plus what the point adds (`pointSum`), whatever fills the staging buffers past the arrays' end — a row
  past the end is multiplied by the mask's 0, and 0 · x = 0 for every extended real.
-/
import proofs.«430690_j60112362275593_1_alg».proof.Proof.BodyIdeal
import proofs.«430690_j60112362275593_1_alg».proof.Proof.PointSum
import proofs.«430690_j60112362275593_1_alg».proof.Proof.RowCls
import proofs.«430690_j60112362275593_1_alg».proof.Proof.RowConf
import proofs.«430690_j60112362275593_1_alg».proof.Proof.RowReg
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem Idealize.ShloMosaic.ValueIdx
open scoped BigOperators

variable (m : (ℓ : Loc nD τ sig) → Buf (Elt Ideal) ℓ)

/-- The zero the scratch is reset to is the real number 0. -/
theorem pay2_zero : (k0_pay2 (F := Ideal)) = fun _ => (0 : EReal) := by
  funext j
  unfold k0_pay2
  rw [shapeCast_self]
  show Ideal.ofBits .f32 0x00000000#32 = 0
  exact Ideal.ofBits_zero_f32

/-- The body adds to the sums it finds: the new sums are the old ones plus what the body makes of zero sums. -/
theorem newAcc_eq_add (i : grid0.Coords) (X0 : Vec Ideal S32x256x85 .f32) (X1 : Vec Ideal S32x256x88 .f32) (X2 : Vec Ideal S256x2 .f32)
    (S : Vec Ideal S1x5x32 .f32) :
    newAcc (F := Ideal) i X0 X1 X2 S = fun j => S j + newAcc (F := Ideal) i X0 X1 X2 (fun _ => (0 : EReal)) j := by
  funext j
  unfold newAcc k0_pay1 k0_pay21
  rw [shapeCast_self, shapeCast_self]
  show S j + _ = S j + ((0 : EReal) + _)
  rw [zero_add]

/-- After the body at point t, with the input buffers holding their blocks (filled past the arrays' end with
    anything), the five running sums are the sums found plus the point's own. -/
theorem newAcc_fill (c : Dev nD) (t : Fin cfg0.N) (d0 d1 d2) (S : Vec Ideal S1x5x32 .f32) :
    newAcc (F := Ideal) (grid0.coords t) (win0_0.fill (grid0.coords t) d0 (iblk m c 0 t)) (win0_1.fill (grid0.coords t) d1 (iblk m c 1 t))
      (win0_2.fill (grid0.coords t) d2 (iblk m c 2 t)) S = fun j => S j + pointSum m c t j := by
  rw [newAcc_eq_add]
  funext j
  obtain ⟨a, k, b, rfl⟩ : ∃ (a : Fin 1) (k : Fin 5) (b : Fin 32), j = ix3 a k b := ⟨j 0, j 1, j 2, eq_ix3 j⟩
  obtain rfl : a = 0 := Subsingleton.elim _ _
  show S _ + _ = S _ + pointTerm m c t k b
  congr 1
  match k with
  | ⟨0, _⟩ => exact delta_row0 m c t d0 d1 d2 b
  | ⟨1, _⟩ => exact delta_row1 m c t d0 d1 d2 b
  | ⟨2, _⟩ => exact delta_row2 m c t d0 d1 d2 b
  | ⟨3, _⟩ => exact delta_row3 m c t d0 d1 d2 b
  | ⟨4, _⟩ => exact delta_row4 m c t d0 d1 d2 b

end Cert.KernelIdeal.Hand

end
-- ==== Proof.Tail.lean ====
/-
  The scalar that the host computes from the kernel's [2,5,32] result and the positive counts: the two [5,32]
  halves are laid side by side as a [5,64] array of five sums per batch row; the first three rows are divided by
  the counts and averaged over the 64 batch rows (the third times 5), the fourth is summed, times 5, and divided by
  the total of the fifth, at least 1.
-/
import proofs.«430690_j60112362275593_1_alg».proof.Proof.Gen.KernelIdeal.Launch
import proofs.«430690_j60112362275593_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open scoped BigOperators

/-- The host operations after the kernel, composed in their own order as one function of the kernel's result `o`
    and the positive counts `nn`. -/
def tailFn (o : Vec Ideal S2x5x32 .f32) (nn : IVec S64 32) : Vec Ideal S_ .f32 :=
  have v1 : (⟨S1x5x32, .f32⟩ : BufTy).Contents (Elt Ideal) := ((extractStridedSlice S1x5x32 ![0, 0, 0] · slices_S2x5x32_S1x5x32_0_0_0) : (⟨S2x5x32, .f32⟩ : BufTy).Contents (Elt Ideal) → (⟨S1x5x32, .f32⟩ : BufTy).Contents (Elt Ideal)) o
  have v2 : (⟨S5x32, .f32⟩ : BufTy).Contents (Elt Ideal) := shapeCast S5x32 v1 shapeCasts_S1x5x32_S5x32
  have v3 : (⟨S1x5x32, .f32⟩ : BufTy).Contents (Elt Ideal) := ((extractStridedSlice S1x5x32 ![1, 0, 0] · slices_S2x5x32_S1x5x32_1_0_0) : (⟨S2x5x32, .f32⟩ : BufTy).Contents (Elt Ideal) → (⟨S1x5x32, .f32⟩ : BufTy).Contents (Elt Ideal)) o
  have v4 : (⟨S5x32, .f32⟩ : BufTy).Contents (Elt Ideal) := shapeCast S5x32 v3 shapeCasts_S1x5x32_S5x32
  have v5 : (⟨S5x64, .f32⟩ : BufTy).Contents (Elt Ideal) := ((fun a b => concatenate S5x64 1 [⟨S5x32, a⟩, ⟨S5x32, b⟩] concatenates_S5x32_S5x32_S5x64_d1) : (⟨S5x32, .f32⟩ : BufTy).Contents (Elt Ideal) → (⟨S5x32, .f32⟩ : BufTy).Contents (Elt Ideal) → (⟨S5x64, .f32⟩ : BufTy).Contents (Elt Ideal)) v2 v4
  have v6 : (⟨S1x64, .f32⟩ : BufTy).Contents (Elt Ideal) := ((extractStridedSlice S1x64 ![0, 0] · slices_S5x64_S1x64_0_0) : (⟨S5x64, .f32⟩ : BufTy).Contents (Elt Ideal) → (⟨S1x64, .f32⟩ : BufTy).Contents (Elt Ideal)) v5
  have v7 : (⟨S64, .f32⟩ : BufTy).Contents (Elt Ideal) := shapeCast S64 v6 shapeCasts_S1x64_S64
  have v8 : (⟨S1x64, .f32⟩ : BufTy).Contents (Elt Ideal) := ((extractStridedSlice S1x64 ![1, 0] · slices_S5x64_S1x64_1_0) : (⟨S5x64, .f32⟩ : BufTy).Contents (Elt Ideal) → (⟨S1x64, .f32⟩ : BufTy).Contents (Elt Ideal)) v5
  have v9 : (⟨S64, .f32⟩ : BufTy).Contents (Elt Ideal) := shapeCast S64 v8 shapeCasts_S1x64_S64
  have v10 : (⟨S1x64, .f32⟩ : BufTy).Contents (Elt Ideal) := ((extractStridedSlice S1x64 ![2, 0] · slices_S5x64_S1x64_2_0) : (⟨S5x64, .f32⟩ : BufTy).Contents (Elt Ideal) → (⟨S1x64, .f32⟩ : BufTy).Contents (Elt Ideal)) v5
  have v11 : (⟨S64, .f32⟩ : BufTy).Contents (Elt Ideal) := shapeCast S64 v10 shapeCasts_S1x64_S64
  have v12 : (⟨S1x64, .f32⟩ : BufTy).Contents (Elt Ideal) := ((extractStridedSlice S1x64 ![3, 0] · slices_S5x64_S1x64_3_0) : (⟨S5x64, .f32⟩ : BufTy).Contents (Elt Ideal) → (⟨S1x64, .f32⟩ : BufTy).Contents (Elt Ideal)) v5
  have v13 : (⟨S64, .f32⟩ : BufTy).Contents (Elt Ideal) := shapeCast S64 v12 shapeCasts_S1x64_S64
  have v14 : (⟨S1x64, .f32⟩ : BufTy).Contents (Elt Ideal) := ((extractStridedSlice S1x64 ![4, 0] · slices_S5x64_S1x64_4_0) : (⟨S5x64, .f32⟩ : BufTy).Contents (Elt Ideal) → (⟨S1x64, .f32⟩ : BufTy).Contents (Elt Ideal)) v5
  have v15 : (⟨S64, .f32⟩ : BufTy).Contents (Elt Ideal) := shapeCast S64 v14 shapeCasts_S1x64_S64
  have v16 : (⟨S64, .f32⟩ : BufTy).Contents (Elt Ideal) := (sitofp (F := Ideal) .f32 : (⟨S64, .i32⟩ : BufTy).Contents (Elt Ideal) → (⟨S64, .f32⟩ : BufTy).Contents (Elt Ideal)) nn
  have v17 : (⟨S64, .f32⟩ : BufTy).Contents (Elt Ideal) := (Host.divf (F := Ideal) (φ := .f32) : (⟨S64, .f32⟩ : BufTy).Contents (Elt Ideal) → (⟨S64, .f32⟩ : BufTy).Contents (Elt Ideal) → (⟨S64, .f32⟩ : BufTy).Contents (Elt Ideal)) v7 v16
  have cst : (⟨S_, .f32⟩ : BufTy).Contents (Elt Ideal) := constant (F := Ideal) S_ .f32 0x00000000#32
  have v18 : (⟨S_, .f32⟩ : BufTy).Contents (Elt Ideal) := ((fun x v => Host.reduceAdd (F := Ideal) (φ := .f32) x v reducesTo_S64_S_d0 h_S_) : (⟨S64, .f32⟩ : BufTy).Contents (Elt Ideal) → (⟨S_, .f32⟩ : BufTy).Contents (Elt Ideal) → (⟨S_, .f32⟩ : BufTy).Contents (Elt Ideal)) v17 cst
  have cst_0 : (⟨S_, .f32⟩ : BufTy).Contents (Elt Ideal) := constant (F := Ideal) S_ .f32 0x42800000#32
  have v19 : (⟨S_, .f32⟩ : BufTy).Contents (Elt Ideal) := (Host.divf (F := Ideal) (φ := .f32) : (⟨S_, .f32⟩ : BufTy).Contents (Elt Ideal) → (⟨S_, .f32⟩ : BufTy).Contents (Elt Ideal) → (⟨S_, .f32⟩ : BufTy).Contents (Elt Ideal)) v18 cst_0
  have v20 : (⟨S64, .f32⟩ : BufTy).Contents (Elt Ideal) := (Host.divf (F := Ideal) (φ := .f32) : (⟨S64, .f32⟩ : BufTy).Contents (Elt Ideal) → (⟨S64, .f32⟩ : BufTy).Contents (Elt Ideal) → (⟨S64, .f32⟩ : BufTy).Contents (Elt Ideal)) v9 v16
  have cst_1 : (⟨S_, .f32⟩ : BufTy).Contents (Elt Ideal) := constant (F := Ideal) S_ .f32 0x00000000#32
  have v21 : (⟨S_, .f32⟩ : BufTy).Contents (Elt Ideal) := ((fun x v => Host.reduceAdd (F := Ideal) (φ := .f32) x v reducesTo_S64_S_d0 h_S_) : (⟨S64, .f32⟩ : BufTy).Contents (Elt Ideal) → (⟨S_, .f32⟩ : BufTy).Contents (Elt Ideal) → (⟨S_, .f32⟩ : BufTy).Contents (Elt Ideal)) v20 cst_1
  have cst_2 : (⟨S_, .f32⟩ : BufTy).Contents (Elt Ideal) := constant (F := Ideal) S_ .f32 0x42800000#32
  have v22 : (⟨S_, .f32⟩ : BufTy).Contents (Elt Ideal) := (Host.divf (F := Ideal) (φ := .f32) : (⟨S_, .f32⟩ : BufTy).Contents (Elt Ideal) → (⟨S_, .f32⟩ : BufTy).Contents (Elt Ideal) → (⟨S_, .f32⟩ : BufTy).Contents (Elt Ideal)) v21 cst_2
  have v23 : (⟨S64, .f32⟩ : BufTy).Contents (Elt Ideal) := (Host.divf (F := Ideal) (φ := .f32) : (⟨S64, .f32⟩ : BufTy).Contents (Elt Ideal) → (⟨S64, .f32⟩ : BufTy).Contents (Elt Ideal) → (⟨S64, .f32⟩ : BufTy).Contents (Elt Ideal)) v11 v16
  have cst_3 : (⟨S_, .f32⟩ : BufTy).Contents (Elt Ideal) := constant (F := Ideal) S_ .f32 0x00000000#32
  have v24 : (⟨S_, .f32⟩ : BufTy).Contents (Elt Ideal) := ((fun x v => Host.reduceAdd (F := Ideal) (φ := .f32) x v reducesTo_S64_S_d0 h_S_) : (⟨S64, .f32⟩ : BufTy).Contents (Elt Ideal) → (⟨S_, .f32⟩ : BufTy).Contents (Elt Ideal) → (⟨S_, .f32⟩ : BufTy).Contents (Elt Ideal)) v23 cst_3
  have cst_4 : (⟨S_, .f32⟩ : BufTy).Contents (Elt Ideal) := constant (F := Ideal) S_ .f32 0x42800000#32
  have v25 : (⟨S_, .f32⟩ : BufTy).Contents (Elt Ideal) := (Host.divf (F := Ideal) (φ := .f32) : (⟨S_, .f32⟩ : BufTy).Contents (Elt Ideal) → (⟨S_, .f32⟩ : BufTy).Contents (Elt Ideal) → (⟨S_, .f32⟩ : BufTy).Contents (Elt Ideal)) v24 cst_4
  have cst_5 : (⟨S_, .f32⟩ : BufTy).Contents (Elt Ideal) := constant (F := Ideal) S_ .f32 0x40A00000#32
  have v26 : (⟨S_, .f32⟩ : BufTy).Contents (Elt Ideal) := (mulf (F := Ideal) (φ := .f32) : (⟨S_, .f32⟩ : BufTy).Contents (Elt Ideal) → (⟨S_, .f32⟩ : BufTy).Contents (Elt Ideal) → (⟨S_, .f32⟩ : BufTy).Contents (Elt Ideal)) cst_5 v25
  have cst_6 : (⟨S_, .f32⟩ : BufTy).Contents (Elt Ideal) := constant (F := Ideal) S_ .f32 0x00000000#32
  have v27 : (⟨S_, .f32⟩ : BufTy).Contents (Elt Ideal) := ((fun x v => Host.reduceAdd (F := Ideal) (φ := .f32) x v reducesTo_S64_S_d0 h_S_) : (⟨S64, .f32⟩ : BufTy).Contents (Elt Ideal) → (⟨S_, .f32⟩ : BufTy).Contents (Elt Ideal) → (⟨S_, .f32⟩ : BufTy).Contents (Elt Ideal)) v15 cst_6
  have cst_7 : (⟨S_, .f32⟩ : BufTy).Contents (Elt Ideal) := constant (F := Ideal) S_ .f32 0x3F800000#32
  have v28 : (⟨S_, .f32⟩ : BufTy).Contents (Elt Ideal) := (maximumf (F := Ideal) (φ := .f32) : (⟨S_, .f32⟩ : BufTy).Contents (Elt Ideal) → (⟨S_, .f32⟩ : BufTy).Contents (Elt Ideal) → (⟨S_, .f32⟩ : BufTy).Contents (Elt Ideal)) v27 cst_7
  have cst_8 : (⟨S_, .f32⟩ : BufTy).Contents (Elt Ideal) := constant (F := Ideal) S_ .f32 0x00000000#32
  have v29 : (⟨S_, .f32⟩ : BufTy).Contents (Elt Ideal) := ((fun x v => Host.reduceAdd (F := Ideal) (φ := .f32) x v reducesTo_S64_S_d0 h_S_) : (⟨S64, .f32⟩ : BufTy).Contents (Elt Ideal) → (⟨S_, .f32⟩ : BufTy).Contents (Elt Ideal) → (⟨S_, .f32⟩ : BufTy).Contents (Elt Ideal)) v13 cst_8
  have cst_9 : (⟨S_, .f32⟩ : BufTy).Contents (Elt Ideal) := constant (F := Ideal) S_ .f32 0x40A00000#32
  have v30 : (⟨S_, .f32⟩ : BufTy).Contents (Elt Ideal) := (mulf (F := Ideal) (φ := .f32) : (⟨S_, .f32⟩ : BufTy).Contents (Elt Ideal) → (⟨S_, .f32⟩ : BufTy).Contents (Elt Ideal) → (⟨S_, .f32⟩ : BufTy).Contents (Elt Ideal)) cst_9 v29
  have v31 : (⟨S_, .f32⟩ : BufTy).Contents (Elt Ideal) := (Host.divf (F := Ideal) (φ := .f32) : (⟨S_, .f32⟩ : BufTy).Contents (Elt Ideal) → (⟨S_, .f32⟩ : BufTy).Contents (Elt Ideal) → (⟨S_, .f32⟩ : BufTy).Contents (Elt Ideal)) v30 v28
  have v32 : (⟨S_, .f32⟩ : BufTy).Contents (Elt Ideal) := (addf (F := Ideal) (φ := .f32) : (⟨S_, .f32⟩ : BufTy).Contents (Elt Ideal) → (⟨S_, .f32⟩ : BufTy).Contents (Elt Ideal) → (⟨S_, .f32⟩ : BufTy).Contents (Elt Ideal)) v19 v22
  have v33 : (⟨S_, .f32⟩ : BufTy).Contents (Elt Ideal) := (addf (F := Ideal) (φ := .f32) : (⟨S_, .f32⟩ : BufTy).Contents (Elt Ideal) → (⟨S_, .f32⟩ : BufTy).Contents (Elt Ideal) → (⟨S_, .f32⟩ : BufTy).Contents (Elt Ideal)) v32 v26
  have v34 : (⟨S_, .f32⟩ : BufTy).Contents (Elt Ideal) := (addf (F := Ideal) (φ := .f32) : (⟨S_, .f32⟩ : BufTy).Contents (Elt Ideal) → (⟨S_, .f32⟩ : BufTy).Contents (Elt Ideal) → (⟨S_, .f32⟩ : BufTy).Contents (Elt Ideal)) v33 v31
  v34

/-! ## The host operations read at an index -/

/-- The five sums per batch row as the host lays them out: batch row `bg` lies in block `bg / 32` at column `bg % 32`. -/
def metrics (o : Vec Ideal S2x5x32 .f32) (k : Fin 5) (bg : Fin 64) : EReal :=
  o (ix3 (⟨bg.val / 32, by omega⟩ : Fin 2) k (⟨bg.val % 32, Nat.mod_lt _ (by decide)⟩ : Fin 32))

/-- The positive counts as extended reals. -/
def counts (nn : IVec S64 32) (b : Fin 64) : EReal := (((nn (ix1 b)).toInt : ℝ) : EReal)

/-- Block 0 of the result as a [5,32] array. -/
theorem half0_apply (x : S2x5x32.Idx → EReal) (h : S2x5x32.Slices ![0, 0, 0] S1x5x32) (h' : S1x5x32.ShapeCasts S5x32)
    (k : Fin 5) (c : Fin 32) :
    shapeCast S5x32 (extractStridedSlice S1x5x32 ![0, 0, 0] x h) h' (ix2 k c) = x (ix3 (0 : Fin 2) k c) := by
  rw [shapeCast_1ab_ab_apply]
  exact extractStridedSlice_apply _ _ _ _ _ (fun ax => by
    match ax with
    | ⟨0, _⟩ => rfl
    | ⟨1, _⟩ => exact (Nat.zero_add _).symm
    | ⟨2, _⟩ => exact (Nat.zero_add _).symm)

/-- Block 1 of the result as a [5,32] array. -/
theorem half1_apply (x : S2x5x32.Idx → EReal) (h : S2x5x32.Slices ![1, 0, 0] S1x5x32) (h' : S1x5x32.ShapeCasts S5x32)
    (k : Fin 5) (c : Fin 32) :
    shapeCast S5x32 (extractStridedSlice S1x5x32 ![1, 0, 0] x h) h' (ix2 k c) = x (ix3 (1 : Fin 2) k c) := by
  rw [shapeCast_1ab_ab_apply]
  exact extractStridedSlice_apply _ _ _ _ _ (fun ax => by
    match ax with
    | ⟨0, _⟩ => rfl
    | ⟨1, _⟩ => exact (Nat.zero_add _).symm
    | ⟨2, _⟩ => exact (Nat.zero_add _).symm)

/-- Two [5,32] arrays side by side: column `bg` is column `bg` of the first below 32 and column `bg - 32` of the second
    from 32 on. -/
theorem cat_apply (a b : S5x32.Idx → EReal) (h : Shape.Concatenates [S5x32, S5x32] S5x64 1) (k : Fin 5) (bg : Fin 64) :
    concatenate S5x64 1 [⟨S5x32, a⟩, ⟨S5x32, b⟩] h (ix2 k bg)
      = if bg.val / 32 = 0 then a (ix2 k (⟨bg.val % 32, Nat.mod_lt _ (by decide)⟩ : Fin 32))
        else b (ix2 k (⟨bg.val % 32, Nat.mod_lt _ (by decide)⟩ : Fin 32)) := by
  have hb := bg.isLt
  split
  · next h0 =>
    refine concatenate_pair_apply_left (1 : Fin 2) a b h (ix2 k bg) rfl _ (fun ax => ?_)
    match ax with
    | ⟨0, _⟩ => rfl
    | ⟨1, _⟩ => show bg.val % 32 = bg.val; omega
  · next h0 =>
    refine concatenate_pair_apply_right (1 : Fin 2) a b h (ix2 k bg) rfl rfl _ (fun ax hax => ?_) ?_
    · match ax with
      | ⟨0, _⟩ => rfl
      | ⟨1, _⟩ => exact absurd rfl hax
    · show bg.val % 32 + 32 = bg.val; omega

/-- Row `r` of a [5,64] array as a vector. -/
theorem row_apply (o : ℕ) (r : Fin 5) (hr : r.val = o) (x : S5x64.Idx → EReal) (h : S5x64.Slices ![o, 0] S1x64)
    (h' : S1x64.ShapeCasts S64) (b : Fin 64) :
    shapeCast S64 (extractStridedSlice S1x64 ![o, 0] x h) h' (ix1 b) = x (ix2 r b) := by
  rw [shapeCast_1a_a_apply]
  exact slice2_axis0_apply o x h (0 : Fin 1) b r (by rw [hr]; rfl)

/-- A rank-1 index set is its one coordinate's range … -/
def idxEquiv1 {n : Nat} : (⟨1, ![n]⟩ : Shape).Idx ≃ Fin n where
  toFun i := i 0
  invFun b := ix1 b
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ b : Fin n, f (ix1 b) := by
  rw [← Equiv.sum_comp (idxEquiv1 (n := n)).symm f]
  rfl

/-- The host's sum of a 64-vector from a zero word is the sum of its entries. -/
theorem reduce64 (x : S64.Idx → EReal) (h : S64.ReducesTo [0] S_) (hu : 0 < S_.numel) (j : S_.Idx) :
    Host.reduceAdd (F := Ideal) (φ := .f32) x (constant (F := Ideal) S_ .f32 0x00000000#32) h hu j = ∑ b : Fin 64, x (ix1 b) := by
  show Ideal.hostReduceAdd h x (Ideal.ofBits .f32 0x00000000#32) j = _
  rw [Ideal.hostReduceAdd_total h (fun b => b.elim0), Ideal.ofBits_zero_f32, zero_add]
  exact sum_idx1 x

/-- The [5,64] array the host builds is `metrics`. -/
theorem metrics_eq (o : Vec Ideal S2x5x32 .f32) (h0 : S2x5x32.Slices ![0, 0, 0] S1x5x32) (h1 : S2x5x32.Slices ![1, 0, 0] S1x5x32)
    (h' : S1x5x32.ShapeCasts S5x32) (h : Shape.Concatenates [S5x32, S5x32] S5x64 1) (k : Fin 5) (bg : Fin 64) :
    concatenate S5x64 1 [⟨S5x32, shapeCast S5x32 (extractStridedSlice S1x5x32 ![0, 0, 0] o h0) h'⟩,
        ⟨S5x32, shapeCast S5x32 (extractStridedSlice S1x5x32 ![1, 0, 0] o h1) h'⟩] h (ix2 k bg) = metrics o k bg := by
  rw [cat_apply, half0_apply, half1_apply]
  unfold metrics
  have hb := bg.isLt
  split
  · next h0 => exact congrArg o (by congr 1; exact Fin.ext h0.symm)
  · next h0 => exact congrArg o (by congr 1; exact Fin.ext (show (1 : ℕ) = bg.val / 32 by omega))

/-- The host's quotient at an index is the quotient of the entries. -/
theorem hostDivf_apply {s : Shape} (x y : FVec Ideal s .f32) (i : s.Idx) :
    Host.divf (F := Ideal) (φ := .f32) x y i = Ideal.div (x i) (y i) := rfl

/-- The scalar the host computes is the loss of the five sums per batch row and the counts. -/
theorem tail_eq_metrics (o : Vec Ideal S2x5x32 .f32) (nn : IVec S64 32) :
    tailFn o nn = fun _ => Spec.lossOf (metrics o) (counts nn) := by
  funext j
  unfold tailFn
  dsimp only
  simp only [addf_apply, mulf_apply, maximumf_apply, constant_apply, hostDivf_apply, reduce64,
    row_apply 0 0 rfl, row_apply 1 1 rfl, row_apply 2 2 rfl, row_apply 3 3 rfl, row_apply 4 4 rfl, sitofp_apply]
  have hm : ∀ (k : Fin 5) (bg : Fin 64), concatenate S5x64 1
      [⟨S5x32, shapeCast S5x32 (extractStridedSlice S1x5x32 ![0, 0, 0] o slices_S2x5x32_S1x5x32_0_0_0) shapeCasts_S1x5x32_S5x32⟩,
       ⟨S5x32, shapeCast S5x32 (extractStridedSlice S1x5x32 ![1, 0, 0] o slices_S2x5x32_S1x5x32_1_0_0) shapeCasts_S1x5x32_S5x32⟩]
      concatenates_S5x32_S5x32_S5x64_d1 (ix2 k bg) = metrics o k bg := fun k bg => metrics_eq o _ _ _ _ k bg
  simp only [hm]
  rfl

/-- The same with the layout and the counts written out. -/
theorem tail_eq (o : Vec Ideal S2x5x32 .f32) (nn : IVec S64 32) :
    tailFn o nn = fun _ => Spec.lossOf
      (fun k bg => o (ix3 (⟨bg.val / 32, by omega⟩ : Fin 2) k (⟨bg.val % 32, Nat.mod_lt _ (by decide)⟩ : Fin 32)))
      (fun b => (((nn (ix1 b)).toInt : ℝ) : EReal)) :=
  tail_eq_metrics o nn

end Cert.KernelIdeal.Hand

end
-- ==== Proof.RunIdeal.lean ====
/-
  The run of the idealized kernel with its result named: the five running sums after each grid point as a sum
  over the points of the same outer coordinate, the proof data built from them, the body obligation, the launch,
  the output array after the run as a sum over the grid points, and the operations after the region applied to it.
-/
import proofs.«430690_j60112362275593_1_alg».proof.Proof.BodyIdeal
import proofs.«430690_j60112362275593_1_alg».proof.Proof.PointSum
import proofs.«430690_j60112362275593_1_alg».proof.Proof.PointValue
import proofs.«430690_j60112362275593_1_alg».proof.Proof.Tail
import Idealize.ShloMosaic.Lib.Pipeline.Value
import Idealize.ShloMosaic.Lib.StableHlo.Run
import Idealize.ShloMosaic.Lib.ValueIdx

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open scoped BigOperators

local notation "𝕄" => MT nD τ sig Unit (Elt Ideal) ℕ (UR sig nD τ) ℕ

variable (m : (ℓ : Loc nD τ sig) → Buf (Elt Ideal) ℓ) (ρ : Dev nD → PrngReg)

/-! ## The running sums after each point -/

/-- What the point at position n adds to the five running sums; nothing past the grid. -/
def ptAt (c : Dev nD) (n : ℕ) : S1x5x32.Idx → EReal :=
  if h : n < cfg0.N then pointSum m c ⟨n, h⟩ else fun _ => 0

theorem ptAt_lt (c : Dev nD) (n : ℕ) (h : n < cfg0.N) : ptAt m c n = pointSum m c ⟨n, h⟩ := dif_pos h

/-- The scratch after the point at position n: zero at the first point of each outer coordinate, else what the
    point before left, plus the point's own sums. -/
def accAt (c : Dev nD) : (n : ℕ) → n < cfg0.N → Vec Ideal S1x5x32 .f32
  | 0, hn => fun j => (fun _ => (0 : EReal)) j + pointSum m c ⟨0, hn⟩ j
  | n + 1, hn => fun j => (if (n + 1) % 34 = 0 then (fun _ => (0 : EReal)) else accAt c n (Nat.lt_of_succ_lt hn)) j + pointSum m c ⟨n + 1, hn⟩ j

/-- One step of the recursion, at a point: the sums found (zero where the inner coordinate is 0) plus the point's. -/
theorem accAt_step (c : Dev nD) (t : Fin cfg0.N) (S : Vec Ideal S1x5x32 .f32)
    (hS : ∀ h : t.val ≠ 0, S = accAt m c (t.val - 1) (Nat.lt_of_le_of_lt (Nat.sub_le _ _) t.isLt)) :
    (fun j => (if t.val % 34 = 0 then (fun _ => (0 : EReal)) else S) j + pointSum m c t j) = accAt m c t.val t.isLt := by
  obtain ⟨n, hn⟩ := t
  cases n with
  | zero => rfl
  | succ n => rw [hS (Nat.succ_ne_zero n)]; rfl

/-- The scratch after a point is the sum of what the points of its outer coordinate up to it add. -/
theorem accAt_eq_range (c : Dev nD) : ∀ (n : ℕ) (hn : n < cfg0.N),
    accAt m c n hn = fun j => ∑ u ∈ Finset.range (n % 34 + 1), ptAt m c (34 * (n / 34) + u) j
  | 0, hn => by
    funext j
    show (0 : EReal) + pointSum m c ⟨0, hn⟩ j = _
    rw [zero_add, show 0 % 34 + 1 = 1 from rfl, Finset.sum_range_one, show 34 * (0 / 34) + 0 = 0 from rfl, ptAt_lt m c 0 hn]
  | n + 1, hn => by
    funext j
    by_cases h0 : (n + 1) % 34 = 0
    · show (if (n + 1) % 34 = 0 then (fun _ => (0 : EReal)) else accAt m c n (Nat.lt_of_succ_lt hn)) j + pointSum m c ⟨n + 1, hn⟩ j = _
      rw [if_pos h0, h0, Finset.sum_range_one, show 34 * ((n + 1) / 34) + 0 = n + 1 by omega, ptAt_lt m c (n + 1) hn]
      exact zero_add _
    · show (if (n + 1) % 34 = 0 then (fun _ => (0 : EReal)) else accAt m c n (Nat.lt_of_succ_lt hn)) j + pointSum m c ⟨n + 1, hn⟩ j = _
      rw [if_neg h0, accAt_eq_range c n (Nat.lt_of_succ_lt hn), show (n + 1) % 34 + 1 = (n % 34 + 1) + 1 by omega,
        Finset.sum_range_succ, show (n + 1) / 34 = n / 34 by omega, show 34 * (n / 34) + (n % 34 + 1) = n + 1 by omega,
        ptAt_lt m c (n + 1) hn]

theorem accAt_eq (c : Dev nD) (t : Fin cfg0.N) :
    accAt m c t.val t.isLt = fun j => ∑ u ∈ Finset.range (t.val % 34 + 1), ptAt m c (34 * (t.val / 34) + u) j :=
  accAt_eq_range m c t.val t.isLt

/-! ## The invariant and the proof data -/

/-- The region invariant before position n: before the first point the scoped rest at anything; afterwards the
    scratch at the sums the point before left, and the generator register at some state. -/
def PhiS (c : Dev nD) : (n : ℕ) → n ≤ cfg0.N → sProp 𝕄
  | 0, _ => Pipeline.ΦA spec0 c
  | n + 1, hn => iprop(iprop(owns (c : Thread nD τ) (Memref.whole cc0_scratch0) fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) (Memref.whole cc0_scratch0) fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) (Memref.whole cc0_scratch0) fullShare (accAt m c (n - 1) (by omega))) ∗ (∃ r, prngReg c r)) := by
  cases n with
  | zero => exact absurd rfl hz
  | succ n => rfl

/-- The class invariant with the scratch as a memref owned at some contents. -/
theorem PhiA0_eq (c : Dev nD) :
    (Pipeline.ΦA spec0 c : sProp 𝕄)
      = iprop(iprop((∃ d, owns (c : Thread nD τ) (Memref.whole cc0_scratch0 : Memref sig .tc .vmem S1x5x32 .f32) fullShare d)) ∗ (∃ r, prngReg c r)) := by
  unfold Pipeline.ΦA; rw [scopedRest0_eq]; simp only [owns_whole]; try rfl

/-- The proof data of the one pipeline on core c: the arrays as the region finds them; after the body at point t
    each input's buffer at its block (filled out past the array's end with zero, which nothing reads) and the
    output's at the running sums; the invariant above; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => win0_1.fill (grid0.coords t) (fun _ => (0 : EReal)) (iblk m c 1 t)
    | ⟨2, _⟩ => win0_2.fill (grid0.coords t) (fun _ => (0 : EReal)) (iblk m c 2 t)
    | ⟨3, _⟩ => accAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = win0_0.fill (grid0.coords t) (fun _ => (0 : EReal)) (iblk m c 0 t) := by dsimp only [dats]
theorem after0_1 (c : Dev nD) (t : Fin cfg0.N) : (dats m 0 c).after 1 t = win0_1.fill (grid0.coords t) (fun _ => (0 : EReal)) (iblk m c 1 t) := by dsimp only [dats]
theorem after0_2 (c : Dev nD) (t : Fin cfg0.N) : (dats m 0 c).after 2 t = win0_2.fill (grid0.coords t) (fun _ => (0 : EReal)) (iblk m c 2 t) := by dsimp only [dats]
theorem after0_3 (c : Dev nD) (t : Fin cfg0.N) : (dats m 0 c).after 3 t = accAt m c t.val t.isLt := by dsimp only [dats]

/-- Each input's buffer, just fetched: its block on the part inside the array, d elsewhere. -/
theorem before_0 (c : Dev nD) (t : Fin cfg0.N) (d) :
    (dats m 0 c).before 0 t d = win0_0.fill (grid0.coords t) d (iblk m c 0 t) := by
  unfold Dat.before; rw [if_pos (fetch0_0 t)]; unfold Dat.fetched Dat.blockOf iblk; rw [A_eq]
theorem before_1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq]
theorem before_2 (c : Dev nD) (t : Fin cfg0.N) (d) :
    (dats m 0 c).before 2 t d = win0_2.fill (grid0.coords t) d (iblk m c 2 t) := by
  unfold Dat.before; rw [if_pos (fetch0_2 t)]; unfold Dat.fetched Dat.blockOf iblk; rw [A_eq]

/-! ## Where the output window is idle -/

/-- The output's buffer is stored into only at the points whose inner coordinate is 33; -/
theorem idle0_3_iff : ∀ t : Fin cfg0.N, cfg0.idle 3 (grid0.coords t) = true ↔ t.val % 34 ≠ 33 :=
  (by decide +kernel : ∀ t : Fin grid0.N, idle0 3 (grid0.coords t) = true ↔ t.val % 34 ≠ 33)

theorem idleAt0_3 (t : Fin cfg0.N) (h : t.val % 34 ≠ 33) : cfg0.idle 3 (grid0.coords t) = true := (idle0_3_iff t).mpr h
theorem liveAt0_3 (t : Fin cfg0.N) (h : t.val % 34 = 33) : cfg0.idle 3 (grid0.coords t) = false := by
  cases hi : cfg0.idle 3 (grid0.coords t)
  · rfl
  · exact absurd h ((idle0_3_iff t).mp hi)
theorem noFlush0_3 (t : Fin cfg0.N) (h : t.val % 34 ≠ 33) : (cfg0.win 3).flush t = false := by
  cases hf : (cfg0.win 3).flush t
  · rfl
  · exact absurd ((flush0_3 t).mp hf) h

/-! ## The body obligation -/

/-- What the obligation asks of each input's buffer after the body: its block on the part inside the array. -/
theorem leaves_0 (c : Dev nD) (t : Fin cfg0.N) :
    (dats m 0 c).leaves 0 t = iprop(∃ d, owns (c : Thread nD τ) (win0_0.stage (cfg0.slots t 0)) fullShare (win0_0.fill (grid0.coords t) d (iblk m c 0 t))) := by
  show iprop(∃ d, owns (c : Thread nD τ) (win0_0.stage (cfg0.slots t 0)) fullShare (win0_0.fill (grid0.coords t) d (win0_0.cut (grid0.coords t) ((dats m 0 c).after 0 t)))) = _
  rw [after0_0, win0_0.cut_fill]
theorem leaves_1 (c : Dev nD) (t : Fin cfg0.N) :
    (dats m 0 c).leaves 1 t = iprop(∃ d, owns (c : Thread nD τ) (win0_1.stage (cfg0.slots t 1)) fullShare (win0_1.fill (grid0.coords t) d (iblk m c 1 t))) := by
  show iprop(∃ d, owns (c : Thread nD τ) (win0_1.stage (cfg0.slots t 1)) fullShare (win0_1.fill (grid0.coords t) d (win0_1.cut (grid0.coords t) ((dats m 0 c).after 1 t)))) = _
  rw [after0_1, win0_1.cut_fill]
theorem leaves_2 (c : Dev nD) (t : Fin cfg0.N) :
    (dats m 0 c).leaves 2 t = iprop(∃ d, owns (c : Thread nD τ) (win0_2.stage (cfg0.slots t 2)) fullShare (win0_2.fill (grid0.coords t) d (iblk m c 2 t))) := by
  show iprop(∃ d, owns (c : Thread nD τ) (win0_2.stage (cfg0.slots t 2)) fullShare (win0_2.fill (grid0.coords t) d (win0_2.cut (grid0.coords t) ((dats m 0 c).after 2 t)))) = _
  rw [after0_2, win0_2.cut_fill]
/-- Of the output's buffer at a point that writes it back: the running sums. -/
theorem leaves_3_live (c : Dev nD) (t : Fin cfg0.N) (h : t.val % 34 = 33) :
    (dats m 0 c).leaves 3 t = owns (c : Thread nD τ) (win0_3.stage (cfg0.slots t 3)) fullShare (accAt m c t.val t.isLt) := by
  unfold Dat.leaves; rw [liveAt0_3 t h, ← after0_3]

/-- The body at a point, from the scratch at the sums the point before left (at anything at the first point) and the
    buffers as the pipeline hands them: the scratch ends at this point's sums, each buffer as the obligation asks. -/
theorem body_core (c : Dev nD) (t : Fin cfg0.N) (S : Vec Ideal S1x5x32 .f32)
    (hS : ∀ h : t.val ≠ 0, S = accAt m c (t.val - 1) (Nat.lt_of_le_of_lt (Nat.sub_le _ _) t.isLt)) (K : PUnit → sProp 𝕄) :
    iprop((owns (c : Thread nD τ) (Memref.whole cc0_scratch0) fullShare S
            ∗ (∃ d, owns (c : Thread nD τ) (win0_0.stage (cfg0.slots t 0)) fullShare (win0_0.fill (grid0.coords t) d (iblk m c 0 t)))
            ∗ (∃ d, owns (c : Thread nD τ) (win0_1.stage (cfg0.slots t 1)) fullShare (win0_1.fill (grid0.coords t) d (iblk m c 1 t)))
            ∗ (∃ d, owns (c : Thread nD τ) (win0_2.stage (cfg0.slots t 2)) fullShare (win0_2.fill (grid0.coords t) d (iblk m c 2 t)))
            ∗ (∃ d, owns (c : Thread nD τ) (win0_3.stage (cfg0.slots t 3)) fullShare ((dats m 0 c).before 3 t d)))
          ∗ (iprop(owns (c : Thread nD τ) (Memref.whole cc0_scratch0) fullShare (accAt m c t.val t.isLt)
                  ∗ (dats m 0 c).leaves 0 t ∗ (dats m 0 c).leaves 1 t ∗ (dats m 0 c).leaves 2 t ∗ (dats m 0 c).leaves 3 t) -∗ K ⟨⟩))
      ⊢ wp frame (wpE (defs₀ (F := Ideal)) Variants.none c none) Set.univ (bodyAt0 (F := Ideal) t) K := by
  iintro ⟨⟨HS, ⟨%d0, H0⟩, ⟨%d1, H1⟩, ⟨%d2, H2⟩, ⟨%d3, H3⟩⟩, Hk⟩
  have hacc : accAfter (F := Ideal) t (win0_0.fill (grid0.coords t) d0 (iblk m c 0 t)) (win0_1.fill (grid0.coords t) d1 (iblk m c 1 t))
      (win0_2.fill (grid0.coords t) d2 (iblk m c 2 t)) S = accAt m c t.val t.isLt := by
    unfold accAfter
    rw [newAcc_fill, pay2_zero]
    exact accAt_step m c t S hS
  iapply (sound_body (F := Ideal) c t (win0_0.fill (grid0.coords t) d0 (iblk m c 0 t)) (win0_1.fill (grid0.coords t) d1 (iblk m c 1 t))
    (win0_2.fill (grid0.coords t) d2 (iblk m c 2 t)) ((dats m 0 c).before 3 t d3) S K)
  isplitl [H0 H1 H2 H3 HS]
  · isplitl [H0]; · iexact H0
    isplitl [H1]; · iexact H1
    isplitl [H2]; · iexact H2
    isplitl [H3]; · iexact H3
    iexact HS
  unfold outAfter
  rw [hacc, leaves_0, leaves_1, leaves_2]
  by_cases h33 : t.val % 34 = 33
  · rw [if_pos h33, leaves_3_live m c t h33]
    iintro ⟨H0, H1, H2, H3, HS⟩
    iapply Hk
    isplitl [HS]; · iexact HS
    isplitl [H0]; · iexists d0; iexact H0
    isplitl [H1]; · iexists d1; iexact H1
    isplitl [H2]; · iexists d2; iexact H2
    iexact H3
  · rw [if_neg h33, (dats m 0 c).leaves_idle 3 t (idleAt0_3 t h33) (noFlush0_3 t h33)]
    iintro ⟨H0, H1, H2, H3, HS⟩
    iapply Hk
    isplitl [HS]; · iexact HS
    isplitl [H0]; · iexists d0; iexact H0
    isplitl [H1]; · iexists d1; iexact H1
    isplitl [H2]; · iexists d2; iexact H2
    iexists d3; iexact H3

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t)

/-- The body at any point: the invariant hands it the scratch at what the point before left (at anything at the
    first point) and the generator register, and takes the scratch back at this point's sums; the core owes nothing
    throughout. -/
theorem sound_body' (c : Dev nD) (t : Fin cfg0.N) :
    bodyPre m c t ⊢ wp frame (wpE (defs₀ (F := Ideal)) Variants.none c none) Set.univ (bodyAt0 (F := Ideal) t) (fun _ => bodyPost m c t) := by
  unfold bodyPre bodyPost
  simp only [before_0, before_1, before_2]
  rw [show (dats m 0 c).owesAt () t.succ = (dats m 0 c).owesAt () t.castSucc from rfl]
  rw [show (dats m 0 c).Φ t.succ = PhiS m c (t.val + 1) t.isLt from rfl, PhiS_succ, PhiS_castSucc]
  by_cases hz : t.val = 0
  · rw [PhiS_zero m c _ _ hz, PhiA0_eq]
    iintro ⟨⟨⟨%S, HS⟩, Hg⟩, Ho, H0, H1, H2, H3⟩
    iapply (body_core m c t S (fun h => absurd hz h) _)
    isplitl [HS H0 H1 H2 H3]
    · isplitl [HS]; · iexact HS
      isplitl [H0]; · iexact H0
      isplitl [H1]; · iexact H1
      isplitl [H2]; · iexact H2
      iexact H3
    iintro ⟨HS, H0, H1, H2, H3⟩
    isplitl [HS Hg]
    · isplitl [HS]; · iexact HS
      iexact Hg
    isplitl [Ho]; · iexact Ho
    isplitl [H0]; · iexact H0
    isplitl [H1]; · iexact H1
    isplitl [H2]; · iexact H2
    iexact H3
  · rw [PhiS_pos m c _ _ hz]
    iintro ⟨⟨HS, Hg⟩, Ho, H0, H1, H2, H3⟩
    iapply (body_core m c t _ (fun _ => rfl) _)
    isplitl [HS H0 H1 H2 H3]
    · isplitl [HS]; · iexact HS
      isplitl [H0]; · iexact H0
      isplitl [H1]; · iexact H1
      isplitl [H2]; · iexact H2
      iexact H3
    iintro ⟨HS, H0, H1, H2, H3⟩
    isplitl [HS Hg]
    · isplitl [HS]; · iexact HS
      iexact Hg
    isplitl [Ho]; · iexact Ho
    isplitl [H0]; · iexact H0
    isplitl [H1]; · iexact H1
    isplitl [H2]; · iexact H2
    iexact H3

/-- The library's body obligation, at every point. -/
theorem body_obligation (c : Dev nD) : BodyObligationLoose (dats m 0 c) (defs₀ (F := Ideal)) Variants.none () Set.univ := fun t => by
  rw [bigSep_W0, bigSep_W0]
  exact sound_body' m c t

/-! ## The run and the frame -/

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 68 := N_0; omega)

set_option backward.isDefEq.respectTransparency.types false in
/-- At the compiled mesh, from any memory with zero counters: every weakly fair execution of the program on the
    TensorCores terminates, and every final state has every array of the pipeline at what the library computes from
    the proof data and every other unscoped buffer as the operations after the region leave it. -/
theorem run_main : θ_run defs (onTc (τ := τ) (main (F := Ideal))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The four argument arrays end as launched. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-! ## The output array after the run -/

theorem lt_N {n : ℕ} (h : n < 68) : n < cfg0.N := lt_of_lt_of_eq h (show cfg0.N = 68 from N_0).symm

theorem sum_bound (p : Fin 2) (u : Fin 34) : 34 * p.val + u.val < cfg0.N := lt_N (by omega)

/-- The output array as a function of the argument arrays: entry (p, k, b) is the sum over the 34 points of outer
    coordinate p of what each adds to sum k of column b. -/
def outFn (c : Dev nD) : Vec Ideal S2x5x32 .f32 := fun j : S2x5x32.Idx =>
  ∑ u : Fin 34, pointSum m c ⟨34 * (j 0).val + u.val, sum_bound (j 0) u⟩ (ValueIdx.ix3 (0 : Fin 1) (j 1) (j 2))

theorem outFn_apply (c : Dev nD) (j : S2x5x32.Idx) :
    outFn m c j = ∑ u : Fin 34, pointSum m c ⟨34 * (j 0).val + u.val, sum_bound (j 0) u⟩ (ValueIdx.ix3 (0 : Fin 1) (j 1) (j 2)) := rfl

theorem pointSum_congr (c : Dev nD) (t t' : Fin cfg0.N) (j j' : S1x5x32.Idx) (ht : t.val = t'.val)
    (h1 : (j 1).val = (j' 1).val) (h2 : (j 2).val = (j' 2).val) : pointSum m c t j = pointSum m c t' j' := by
  have e : t = t' := Fin.ext ht
  subst e
  unfold pointSum
  rw [show j 1 = j' 1 from Fin.ext h1, show j 2 = j' 2 from Fin.ext h2]

/-- The output window's block index at a point: the outer coordinate, then zeros. -/
theorem idx_facts3 : ∀ t : Fin cfg0.N, win0_3.index t (0 : Fin 3) = t.val / 34 ∧ win0_3.index t (1 : Fin 3) = 0 ∧ win0_3.index t (2 : Fin 3) = 0 :=
  (by decide +kernel : ∀ t : Fin grid0.N, win0_3.index t (0 : Fin 3) = t.val / 34 ∧ win0_3.index t (1 : Fin 3) = 0 ∧ win0_3.index t (2 : Fin 3) = 0)

/-- What a point of inner coordinate 33 writes back is its block of the function above. -/
theorem flushed3_eq (c : Dev nD) (t : Fin cfg0.N) (h33 : t.val % 34 = 33) :
    (dats m 0 c).flushed 3 t = ((cfg0.win 3).blk t).view.read (Elt Ideal) (outFn m c) := by
  show (cfg0.win 3).cut (grid0.coords t) ((dats m 0 c).after 3 t) = _
  rw [after0_3, accAt_eq]
  obtain ⟨e0, e1, e2⟩ := idx_facts3 t
  have hN : t.val < 68 := lt_of_lt_of_eq t.isLt (show cfg0.N = 68 from N_0)
  funext y
  show (∑ u ∈ Finset.range (t.val % 34 + 1), ptAt m c (34 * (t.val / 34) + u) ((cfg0.win 3).xinj (grid0.coords t) y))
    = outFn m c (((cfg0.win 3).blk t).view.emb y)
  have hy0 : (y 0).val < 1 := (y 0).isLt
  have hy1 : (y 1).val < 5 := (y 1).isLt
  have hy2 : (y 2).val < 32 := (y 2).isLt
  have q0 : ((((cfg0.win 3).blk t).view.emb y) 0).val = t.val / 34 := by
    show win0_3.index t (0 : Fin 3) * 1 + 1 * (y 0).val = _; omega
  have q1 : ((((cfg0.win 3).blk t).view.emb y) 1).val = (y 1).val := by
    show win0_3.index t (1 : Fin 3) * 5 + 1 * (y 1).val = _; omega
  have q2 : ((((cfg0.win 3).blk t).view.emb y) 2).val = (y 2).val := by
    show win0_3.index t (2 : Fin 3) * 32 + 1 * (y 2).val = _; omega
  rw [h33, Finset.sum_range]
  unfold outFn
  refine Finset.sum_congr rfl fun u _ => ?_
  have hu : u.val < 34 := u.isLt
  rw [ptAt_lt m c _ (lt_N (by omega) : 34 * (t.val / 34) + u.val < cfg0.N)]
  exact pointSum_congr m c _ _ _ _ (by show 34 * (t.val / 34) + u.val = 34 * _ + u.val; rw [q0]) q1.symm q2.symm

/-- An index of the output array is in a point's block iff each coordinate is in the block's range on its axis. -/
theorem mem_blk3 (t : Fin cfg0.N) (i : S2x5x32.Idx) :
    i ∈ ((cfg0.win 3).blk t).view.set ↔ ∀ a : Fin 3, win0_3.index t a * S1x5x32.size a ≤ (i a).val ∧ (i a).val < win0_3.index t a * S1x5x32.size a + S1x5x32.size a := by
  show i ∈ ((View.whole main_v0).slice (win0_3.rect t)).set ↔ _
  rw [View.set_slice_whole, Rect.mem_set_unit]
  exact Iff.rfl

/-- Every index of the output array is in the block of the last point of its outer coordinate. -/
theorem cover3 (i : S2x5x32.Idx) : ∃ t : Fin cfg0.N, (cfg0.win 3).flush t = true ∧ i ∈ ((cfg0.win 3).blk t).view.set := by
  have hi0 : (i 0).val < 2 := (i 0).isLt
  have hi1 : (i 1).val < 5 := (i 1).isLt
  have hi2 : (i 2).val < 32 := (i 2).isLt
  refine ⟨⟨34 * (i 0).val + 33, lt_N (by omega)⟩, (flush0_3 _).mpr (by show (34 * (i 0).val + 33) % 34 = 33; omega), ?_⟩
  rw [mem_blk3]
  obtain ⟨e0, e1, e2⟩ := idx_facts3 ⟨34 * (i 0).val + 33, lt_N (by omega)⟩
  have e0' : win0_3.index ⟨34 * (i 0).val + 33, lt_N (by omega)⟩ (0 : Fin 3) = (i 0).val := by
    rw [e0]; show (34 * (i 0).val + 33) / 34 = _; omega
  intro a
  match a with
  | ⟨0, _⟩ => show win0_3.index _ (0 : Fin 3) * 1 ≤ (i 0).val ∧ (i 0).val < win0_3.index _ (0 : Fin 3) * 1 + 1; rw [e0']; omega
  | ⟨1, _⟩ => show win0_3.index _ (1 : Fin 3) * 5 ≤ (i 1).val ∧ (i 1).val < win0_3.index _ (1 : Fin 3) * 5 + 5; rw [e1]; omega
  | ⟨2, _⟩ => show win0_3.index _ (2 : Fin 3) * 32 ≤ (i 2).val ∧ (i 2).val < win0_3.index _ (2 : Fin 3) * 32 + 32; rw [e2]; omega

/-- The output array after the run: each block, written back once at the last point of its outer coordinate, holds
    the sums over that coordinate's 34 points. -/
theorem out_final (c : Dev nD) : (dats m 0 c).arrAt 3 cfg0.N = outFn m c :=
  (dats m 0 c).arrAt_eq_of_cover 3 (outFn m c) (fun t hf => flushed3_eq m c t ((flush0_3 t).mp hf)) cover3

/-! ## The operations after the region -/

set_option maxHeartbeats 4000000 in
/-- The operations after the region, run on any contents, leave in their last result the function of the output
    array's and the counts' contents that composes them. -/
theorem tail_after (W : Valuation τ sig (Elt Ideal)) :
    (StableHlo.after (hostOps1 (F := Ideal)) W (Proc.devRef .tc main_v34) : S_.Idx → EReal)
      = tailFn (W (Proc.devRef .tc main_v0)) (W (Proc.devRef .tc main_arg3)) := by
  after_results_simp; rfl

/-- After the run the last result holds that function of the output array as a sum over the grid points and of the
    counts as launched. -/
theorem tail_value (c : Dev nD) :
    (Pipeline.afterTail₀ cfgs (dats m) 0 (V0 m) [hostOps1] c main_v34 : S_.Idx → EReal)
      = tailFn (outFn m c) (m ((c : Thread nD τ).loc main_arg3)) := by
  unfold Pipeline.afterTail₀
  simp only [List.flatten_cons, List.flatten_nil, List.append_nil]
  rw [tail_after, Pipeline.withArrays_arr spec0 launch0.win.arr_inj c _ _ 3,
    Pipeline.withArrays_of_ne _ c (V0 m c) _ main_arg3 (by exact (by decide : ∀ w, Pipeline.arrRef spec0 w ≠ main_arg3)), out_final]
  rfl

/-- THE RUN WITH ITS RESULT NAMED: every weakly fair execution terminates with the scalar result at the composed
    function of the output array's sums and the counts, and the four arguments as launched. -/
theorem run_value : θ_run defs (onTc (τ := τ) (main (F := Ideal))) ⟨m, fun _ => 0, ρ⟩ (fun r => ∀ c : Dev nD,
      r.2.mem ((c.tc : Thread nD τ).loc main_v34) = tailFn (outFn m c) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).2 main_v34 (Pipeline.mem_restRefs_of main_v34 (by decide) (by decide))).trans (tail_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.Hand

end
-- ==== Proof.LibMaskedSum.lean ====
/-
  Regrouping a sum over consecutive naturals into blocks: n consecutive indices covered by N blocks of B,
  the last block overhanging, each overhanging position contributing nothing.
-/
import Mathlib.Algebra.BigOperators.Fin
import Mathlib.Algebra.BigOperators.Intervals
import Mathlib.Logic.Equiv.Fin.Basic

namespace Cert.LibMaskedSum

open scoped BigOperators

variable {M : Type*} [AddCommMonoid M]

/-- A function on `Fin n` extended by `0` to all naturals. -/
def ext0 {n : ℕ} (f : Fin n → M) (x : ℕ) : M := if h : x < n then f ⟨x, h⟩ else 0

theorem ext0_val {n : ℕ} (f : Fin n → M) (d : Fin n) : ext0 f d.val = f d := dif_pos d.isLt
theorem ext0_of_not_lt {n : ℕ} (f : Fin n → M) (x : ℕ) (hx : ¬ x < n) : ext0 f x = 0 := dif_neg hx

/-- The sum of a function of `u * B + r` over `N` blocks of `B` positions is its sum over the first `N * B` naturals. -/
theorem sum_blocks (N B : ℕ) (g : ℕ → M) :
    ∑ u : Fin N, ∑ r : Fin B, g (u.val * B + r.val) = ∑ x ∈ Finset.range (N * B), g x := by
  rw [← Fin.sum_univ_eq_sum_range g (N * B), ← finProdFinEquiv.sum_comp, Fintype.sum_prod_type]
  refine Finset.sum_congr rfl fun u _ => Finset.sum_congr rfl fun r _ => ?_
  rw [finProdFinEquiv_apply_val, Nat.add_comm, Nat.mul_comm]

/-- A sum over `Fin n` is the sum over `N` blocks of `B` consecutive positions (`n ≤ N * B`), position `r` of block `u`
    being index `u * B + r` when that is below `n` and contributing `0` otherwise. -/
theorem sum_blocks_masked (N B n : ℕ) (hn : n ≤ N * B) (f : Fin n → M) :
    ∑ u : Fin N, ∑ r : Fin B, (if h : u.val * B + r.val < n then f ⟨u.val * B + r.val, h⟩ else 0) = ∑ d : Fin n, f d := by
  have e : ∀ (u : Fin N) (r : Fin B), (if h : u.val * B + r.val < n then f ⟨u.val * B + r.val, h⟩ else 0)
      = ext0 f (u.val * B + r.val) := fun _ _ => rfl
  simp only [e]
  rw [sum_blocks N B (ext0 f),
    ← Finset.sum_subset (Finset.range_mono hn) fun x _ hx => ext0_of_not_lt f x (by simpa using hx),
    ← Fin.sum_univ_eq_sum_range (ext0 f) n]
  exact Finset.sum_congr rfl fun d _ => ext0_val f d

end Cert.LibMaskedSum
-- ==== Proof.Regroup.lean ====
/-
  The 34 grid points of one half of the batch together cover every anchor exactly once: what they add to a running
  sum, summed over the points, is the sum over all 8525 anchors (the last block's overhanging rows add nothing).
-/
import proofs.«430690_j60112362275593_1_alg».proof.Proof.PointSum
import proofs.«430690_j60112362275593_1_alg».proof.Proof.LibMaskedSum

noncomputable section

namespace Cert.KernelIdeal.Hand

open Cert.KernelIdeal Cert.KernelIdeal.Gen
open Idealize.ShloMosaic Idealize.ShloMosaic.TcCoe Idealize.SL.Sem
open scoped BigOperators

/-- Point `34 p + u` is one of the grid's 68 points. -/
theorem point_lt (p : Fin 2) (u : Fin 34) : 34 * p.val + u.val < cfg0.N := by
  have hp := p.isLt; have hu := u.isLt; rw [show cfg0.N = 68 from N_0]; omega

/-- Batch row `32 p + b` is one of the 64. -/
theorem row_lt (p : Fin 2) (b : Fin 32) : 32 * p.val + b.val < 64 := by
  have hp := p.isLt; have hb := b.isLt; omega

variable (m : (ℓ : Loc nD τ sig) → Buf (Elt Ideal) ℓ)

/-- Summed over the 34 points of half `p`, what each point adds to sum `k` of column `b` is that sum over all anchors
    of batch row `32 p + b`. -/
theorem pointTerm_sum (c : Dev nD) (p : Fin 2) (k : Fin 5) (b : Fin 32) :
    ∑ u : Fin 34, pointTerm m c ⟨34 * p.val + u.val, point_lt p u⟩ k b
      = Spec.rowSum (outsArr m c) (gresArr m c) (gridsArr m c) k ⟨32 * p.val + b.val, row_lt p b⟩ := by
  unfold Spec.rowSum
  rw [← Cert.LibMaskedSum.sum_blocks_masked 34 256 8525 (by decide)
    (fun d => Spec.rowTerm (outsArr m c) (gresArr m c) (gridsArr m c) k ⟨32 * p.val + b.val, row_lt p b⟩ d)]
  refine Finset.sum_congr rfl fun u _ => ?_
  unfold pointTerm
  refine Finset.sum_congr rfl fun r _ => ?_
  have hu : (34 * p.val + u.val) % 34 = u.val := by have := u.isLt; omega
  have hp : (34 * p.val + u.val) / 34 = p.val := by have := u.isLt; omega
  by_cases h : u.val * 256 + r.val < 8525
  · have h' : ((⟨34 * p.val + u.val, point_lt p u⟩ : Fin cfg0.N).val % 34) * 256 + r.val < 8525 := by
      show (34 * p.val + u.val) % 34 * 256 + r.val < 8525
      rw [hu]; exact h
    rw [dif_pos h, dif_pos h']
    have e1 : rowOf ⟨34 * p.val + u.val, point_lt p u⟩ b = ⟨32 * p.val + b.val, row_lt p b⟩ :=
      Fin.ext (by show 32 * ((34 * p.val + u.val) / 34) + b.val = 32 * p.val + b.val; rw [hp])
    have e2 : anchorOf ⟨34 * p.val + u.val, point_lt p u⟩ r h' = ⟨u.val * 256 + r.val, h⟩ :=
      Fin.ext (by show (34 * p.val + u.val) % 34 * 256 + r.val = u.val * 256 + r.val; rw [hu])
    rw [e1, e2]
  · rw [dif_neg h, dif_neg (by show ¬ (34 * p.val + u.val) % 34 * 256 + r.val < 8525; rw [hu]; exact h)]

end Cert.KernelIdeal.Hand

end
-- ==== Proof.KernelValue.lean ====
/-
  The idealized kernel's scalar is the loss of its four argument arrays: the output array after the run holds, per
  half p of the batch, the sums over that half's 34 grid points of what each point adds; those are the sums over all
  anchors; and the host operations after the region make the loss of them.
-/
import proofs.«430690_j60112362275593_1_alg».proof.Proof.RunIdeal
import proofs.«430690_j60112362275593_1_alg».proof.Proof.Regroup

noncomputable section

namespace Cert.KernelIdeal.Hand

open Cert.KernelIdeal Cert.KernelIdeal.Gen
open Idealize.ShloMosaic Idealize.ShloMosaic.TcCoe Idealize.SL.Sem Idealize.ShloMosaic.ValueIdx
open scoped BigOperators

variable (m : (ℓ : Loc nD τ sig) → Buf (Elt Ideal) ℓ)

/-- Entry (k, b) of block p of the output array after the run is sum k of batch row 32·p + b over all anchors. -/
theorem outFn_rowSum (c : Dev nD) (p : Fin 2) (k : Fin 5) (b : Fin 32) :
    outFn m c (ix3 p k b) = Spec.rowSum (outsArr m c) (gresArr m c) (gridsArr m c) k ⟨32 * p.val + b.val, row_lt p b⟩ :=
  pointTerm_sum m c p k b

/-- The host operations after the region, applied to the output array and the positive counts, give the loss. -/
theorem kernel_value (c : Dev nD) :
    tailFn (outFn m c) (m ((c.tc : Thread nD τ).loc main_arg3))
      = fun _ => Spec.loss (outsArr m c) (gresArr m c) (gridsArr m c) (numsArr m c) := by
  rw [tail_eq]
  funext _
  unfold Spec.loss
  congr 1
  funext k bg
  rw [outFn_rowSum]
  congr 1
  exact Fin.ext (by show 32 * (bg.val / 32) + bg.val % 32 = bg.val; omega)

end Cert.KernelIdeal.Hand

end
-- ==== Proof.RefCls.lean ====
/-
  The reference's three batch-mean terms, read as the specification's sums.

  The positive-class and negative-class focal terms are summed over anchors and classes per batch row, the confidence
  term over anchors; each row sum is divided by the row's positive count, the 64 quotients are averaged, and the third
  mean is scaled by 5. A sum over the two trailing axes of a rank-3 array, read at a batch row, is the iterated sum over
  the two coordinates; the elementwise terms are the specification's lpos, lneg and conf once the sigmoid is read as the
  logistic function and the comparison-with-one followed by the conversion as the indicator.
-/
import proofs.«430690_j60112362275593_1_alg».proof.Proof.Gen.ReferenceIdeal.Read
import proofs.«430690_j60112362275593_1_alg».proof.Proof.Spec
import Idealize.ShloMosaic.Lib.ValueIdx

noncomputable section

namespace Cert.ReferenceIdeal.RefValue.Cls

open Cert.ReferenceIdeal Cert.ReferenceIdeal.Gen Idealize.ShloMosaic Idealize.ShloMosaic.ValueIdx
open scoped BigOperators

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-1 index set is its coordinate range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Dropping the two trailing coordinates of (a, d, c) leaves the row a. -/
theorem drop_trailing2 (h : (⟨3, ![64, 8525, 80]⟩ : Shape).ReducesTo [1, 2] (⟨1, ![64]⟩ : Shape))
    (a b : Fin 64) (d : Fin 8525) (c : Fin 80) : (h.drop (ix3 a d c) = ix1 b) ↔ a = b := by
  have hv : (h.drop (ix3 a d c) 0 : Nat) = a.val := Shape.ReducesTo.drop_apply_val_of_eq h (ix3 a d c) 0 0
  constructor
  · intro e
    have h0 := congrArg Fin.val (congrFun e 0)
    exact Fin.ext (hv.symm.trans h0)
  · intro e
    subst e
    funext k
    match k with
    | ⟨0, _⟩ => exact Fin.ext hv

/-- The host's sum over the two trailing axes of a rank-3 array, read at a row: the initial value plus the iterated
    sum over the two trailing coordinates. -/
theorem hostReduceAdd_trailing2 (h : (⟨3, ![64, 8525, 80]⟩ : Shape).ReducesTo [1, 2] (⟨1, ![64]⟩ : Shape))
    (x : (⟨3, ![64, 8525, 80]⟩ : Shape).Idx → EReal) (init : EReal) (b : Fin 64) :
    Ideal.hostReduceAdd h x init (ix1 b) = init + ∑ d : Fin 8525, ∑ c : Fin 80, x (ix3 b d c) := by
  unfold Ideal.hostReduceAdd
  refine congrArg (init + ·) ?_
  rw [Finset.sum_filter, sum_idx3]
  simp only [drop_trailing2 h]
  rw [Finset.sum_eq_single b]
  · simp
  · intro a _ ha
    simp [ha]
  · intro hn
    exact absurd (Finset.mem_univ _) hn

/-- The word of 1.0 denotes the extended real 1. -/
theorem ofBits_one : Ideal.ofBits .f32 0x3F800000#32 = (1 : EReal) := by
  simp [Ideal.ofBits, Ideal.ieee, -EReal.coe_mul]; norm_num

/-- The comparison with the word of 1.0, converted to a float, is the indicator of "equals 1". -/
theorem ind_eq (y : EReal) :
    (((Ideal.cmp .oeq y (Ideal.ofBits .f32 0x3F800000#32)).toNat : ℝ) : EReal) = Spec.ind y := by
  unfold Ideal.cmp Spec.ind Spec.one
  by_cases h : y = Ideal.ofBits .f32 0x3F800000#32
  · simp [h]
  · simp [h]

/-- The reference's positive-class focal term is the specification's. -/
theorem lpos_eq (x g : EReal) :
    ((Ideal.ofBits .f32 0xBE800000#32
        * ((Ideal.ofBits .f32 0x3F800000#32 - Ideal.div (Ideal.ofBits .f32 0x3F800000#32) (Ideal.ofBits .f32 0x3F800000#32 + Ideal.exp (-x)))
          * (Ideal.ofBits .f32 0x3F800000#32 - Ideal.div (Ideal.ofBits .f32 0x3F800000#32) (Ideal.ofBits .f32 0x3F800000#32 + Ideal.exp (-x)))))
      * Ideal.log (Ideal.div (Ideal.ofBits .f32 0x3F800000#32) (Ideal.ofBits .f32 0x3F800000#32 + Ideal.exp (-x)) + Ideal.ofBits .f32 0x358637BD#32))
      * (((Ideal.cmp .oeq g (Ideal.ofBits .f32 0x3F800000#32)).toNat : ℝ) : EReal)
    = Spec.lpos x g := by
  rw [ind_eq]
  unfold Spec.lpos Spec.negQuarter Spec.eps Spec.one Ideal.logistic
  rw [ofBits_one]

/-- The reference's negative-class focal term is the specification's. -/
theorem lneg_eq (x g : EReal) :
    ((Ideal.ofBits .f32 0xBF400000#32
        * (Ideal.div (Ideal.ofBits .f32 0x3F800000#32) (Ideal.ofBits .f32 0x3F800000#32 + Ideal.exp (-x))
          * Ideal.div (Ideal.ofBits .f32 0x3F800000#32) (Ideal.ofBits .f32 0x3F800000#32 + Ideal.exp (-x))))
      * Ideal.log ((Ideal.ofBits .f32 0x3F800000#32 - Ideal.div (Ideal.ofBits .f32 0x3F800000#32) (Ideal.ofBits .f32 0x3F800000#32 + Ideal.exp (-x))) + Ideal.ofBits .f32 0x358637BD#32))
      * (Ideal.ofBits .f32 0x3F800000#32 - (((Ideal.cmp .oeq g (Ideal.ofBits .f32 0x3F800000#32)).toNat : ℝ) : EReal))
    = Spec.lneg x g := by
  rw [ind_eq]
  unfold Spec.lneg Spec.negThreeQuarters Spec.eps Spec.one Ideal.logistic
  rw [ofBits_one]

/-- The reference's confidence term is the specification's. -/
theorem conf_eq (x g : EReal) :
    (-(Ideal.log (Ideal.div (Ideal.ofBits .f32 0x3F800000#32) (Ideal.ofBits .f32 0x3F800000#32 + Ideal.exp (-x)) + Ideal.ofBits .f32 0x358637BD#32)))
      * (((Ideal.cmp .oeq g (Ideal.ofBits .f32 0x3F800000#32)).toNat : ℝ) : EReal)
    = Spec.conf x g := by
  rw [ind_eq]
  unfold Spec.conf Spec.eps Ideal.logistic
  rw [ofBits_one]

variable (x0 : (⟨S64x8525x85, .f32⟩ : BufTy).Contents (Elt Ideal)) (x1 : (⟨S64x8525x88, .f32⟩ : BufTy).Contents (Elt Ideal))
  (x2 : (⟨S8525x2, .f32⟩ : BufTy).Contents (Elt Ideal)) (x3 : (⟨S64, .i32⟩ : BufTy).Contents (Elt Ideal))

/-- The class slice of the scores reads the array at the same coordinates. -/
theorem idx_v1_eq (b : Fin 64) (d : Fin 8525) (c : Fin 80) :
    Read.idx_main_v1 (ix3 b d c) = ix3 b d (Fin.castLE (by decide : 80 ≤ 85) c) :=
  funext fun a => Fin.ext (by match a with | ⟨0, _⟩ => rfl | ⟨1, _⟩ => rfl | ⟨2, _⟩ => rfl)

/-- The class slice of the targets reads the array at the same coordinates. -/
theorem idx_v8_eq (b : Fin 64) (d : Fin 8525) (c : Fin 80) :
    Read.idx_main_v8 (ix3 b d c) = ix3 b d (Fin.castLE (by decide : 80 ≤ 88) c) :=
  funext fun a => Fin.ext (by match a with | ⟨0, _⟩ => rfl | ⟨1, _⟩ => rfl | ⟨2, _⟩ => rfl)

/-- The reference's positive-class term at (b, d, c). -/
theorem v21_at (b : Fin 64) (d : Fin 8525) (c : Fin 80) :
    Read.val_main_v21 (F := Ideal) x0 x1 (ix3 b d c)
      = Spec.lpos (x0 (ix3 b d (Fin.castLE (by decide : 80 ≤ 85) c))) (x1 (ix3 b d (Fin.castLE (by decide : 80 ≤ 88) c))) := by
  rw [← idx_v1_eq, ← idx_v8_eq, ← lpos_eq]
  simp only [Read.val_main_v21_apply, Read.val_main_v20_apply, Read.val_main_v16_apply, Read.val_main_v15_apply,
    Read.val_main_cst_3_apply, Read.val_main_v14_apply, Read.val_main_v13_apply, Read.val_main_v12_apply,
    Read.val_main_cst_2_apply, Read.val_main_v7_apply, Read.val_main_v6_apply, Read.val_main_cst_0_apply,
    Read.val_main_v5_apply, Read.val_main_v4_apply, Read.val_main_cst_apply, Read.val_main_v3_apply,
    Read.val_main_v2_apply, Read.val_main_v1_apply, Read.val_main_v19_apply, Read.val_main_v18_apply,
    Read.val_main_v17_apply, Read.val_main_cst_4_apply, Read.val_main_v11_apply, Read.val_main_v10_apply,
    Read.val_main_v8_apply, Read.val_main_v9_apply, Read.val_main_cst_1_apply,
    Ideal.ofBits_def, Ideal.addf_def, Ideal.subf_def, Ideal.mulf_def, Ideal.hostDivf_def, Ideal.hostNegf_def,
    Ideal.negf_def, Ideal.hostUnary_exp_def, Ideal.hostUnary_log_def]
  rfl

/-- The reference's negative-class term at (b, d, c). -/
theorem v33_at (b : Fin 64) (d : Fin 8525) (c : Fin 80) :
    Read.val_main_v33 (F := Ideal) x0 x1 (ix3 b d c)
      = Spec.lneg (x0 (ix3 b d (Fin.castLE (by decide : 80 ≤ 85) c))) (x1 (ix3 b d (Fin.castLE (by decide : 80 ≤ 88) c))) := by
  rw [← idx_v1_eq, ← idx_v8_eq, ← lneg_eq]
  simp only [Read.val_main_v33_apply, Read.val_main_v30_apply, Read.val_main_v24_apply, Read.val_main_v23_apply,
    Read.val_main_cst_5_apply, Read.val_main_v22_apply, Read.val_main_v29_apply, Read.val_main_v28_apply,
    Read.val_main_v26_apply, Read.val_main_v25_apply, Read.val_main_cst_6_apply, Read.val_main_v27_apply,
    Read.val_main_cst_7_apply, Read.val_main_v32_apply, Read.val_main_v31_apply, Read.val_main_cst_8_apply,
    Read.val_main_v7_apply, Read.val_main_v6_apply, Read.val_main_cst_0_apply,
    Read.val_main_v5_apply, Read.val_main_v4_apply, Read.val_main_cst_apply, Read.val_main_v3_apply,
    Read.val_main_v2_apply, Read.val_main_v1_apply, Read.val_main_v11_apply, Read.val_main_v10_apply,
    Read.val_main_v8_apply, Read.val_main_v9_apply, Read.val_main_cst_1_apply,
    Ideal.ofBits_def, Ideal.addf_def, Ideal.subf_def, Ideal.mulf_def, Ideal.hostDivf_def, Ideal.hostNegf_def,
    Ideal.negf_def, Ideal.hostUnary_exp_def, Ideal.hostUnary_log_def]
  rfl

/-- The confidence score's slice and reshape read the scores at (b, d, 80). -/
theorem idx_v47_eq (b : Fin 64) (d : Fin 8525) :
    Read.idx_main_v47 (Read.idx_main_v48 (ix2 b d)) = ix3 b d (80 : Fin 85) :=
  funext fun a => Fin.ext (by
    have hb : b.val < 64 := b.isLt
    have hd : d.val < 8525 := d.isLt
    match a with
    | ⟨0, _⟩ => show (b.val * 8525 + d.val) / 8525 = b.val; omega
    | ⟨1, _⟩ => show (b.val * 8525 + d.val) / 1 % 8525 = d.val; omega
    | ⟨2, _⟩ => rfl)

/-- The centre-radius mask's slice and reshape read the targets at (b, d, 85). -/
theorem idx_v42_eq (b : Fin 64) (d : Fin 8525) :
    Read.idx_main_v42 (Read.idx_main_v43 (ix2 b d)) = ix3 b d (85 : Fin 88) :=
  funext fun a => Fin.ext (by
    have hb : b.val < 64 := b.isLt
    have hd : d.val < 8525 := d.isLt
    match a with
    | ⟨0, _⟩ => show (b.val * 8525 + d.val) / 8525 = b.val; omega
    | ⟨1, _⟩ => show (b.val * 8525 + d.val) / 1 % 8525 = d.val; omega
    | ⟨2, _⟩ => rfl)

/-- The reference's confidence term at (b, d). -/
theorem v59_at (b : Fin 64) (d : Fin 8525) :
    Read.val_main_v59 (F := Ideal) x0 x1 (ix2 b d)
      = Spec.conf (x0 (ix3 b d (80 : Fin 85))) (x1 (ix3 b d (85 : Fin 88))) := by
  rw [← idx_v47_eq, ← idx_v42_eq, ← conf_eq]
  simp only [Read.val_main_v59_apply, Read.val_main_v58_apply, Read.val_main_v57_apply, Read.val_main_v56_apply,
    Read.val_main_v54_apply, Read.val_main_v53_apply, Read.val_main_cst_17_apply, Read.val_main_v52_apply,
    Read.val_main_v51_apply, Read.val_main_cst_16_apply, Read.val_main_v50_apply, Read.val_main_v49_apply,
    Read.val_main_v48_apply, Read.val_main_v47_apply, Read.val_main_v55_apply, Read.val_main_cst_18_apply,
    Read.val_main_v46_apply, Read.val_main_v45_apply, Read.val_main_v43_apply, Read.val_main_v42_apply,
    Read.val_main_v44_apply, Read.val_main_cst_15_apply,
    Ideal.ofBits_def, Ideal.addf_def, Ideal.subf_def, Ideal.mulf_def, Ideal.hostDivf_def, Ideal.hostNegf_def,
    Ideal.negf_def, Ideal.hostUnary_exp_def, Ideal.hostUnary_log_def]
  rfl

/-- The reference's positive-class sum of batch row b is the specification's first row sum. -/
theorem v34_at (b : Fin 64) : Read.val_main_v34 (F := Ideal) x0 x1 (ix1 b) = Spec.rowSum x0 x1 x2 0 b := by
  unfold Read.val_main_v34
  simp only [Host.reduceAdd, Ideal.hostReduceAdd_def]
  rw [hostReduceAdd_trailing2]
  simp only [v21_at, Read.val_main_cst_9_apply, Ideal.ofBits_def, Ideal.ofBits_zero_f32, zero_add]
  rfl

/-- The reference's negative-class sum of batch row b is the specification's second row sum. -/
theorem v38_at (b : Fin 64) : Read.val_main_v38 (F := Ideal) x0 x1 (ix1 b) = Spec.rowSum x0 x1 x2 1 b := by
  unfold Read.val_main_v38
  simp only [Host.reduceAdd, Ideal.hostReduceAdd_def]
  rw [hostReduceAdd_trailing2]
  simp only [v33_at, Read.val_main_cst_12_apply, Ideal.ofBits_def, Ideal.ofBits_zero_f32, zero_add]
  rfl

/-- The anchor sum reads the confidence terms of row b at (b, k). -/
theorem idx_v60_eq (b : Fin 64) (k : Fin 8525) : Read.idx_main_v60 (ix1 b) k = ix2 b k :=
  funext fun a => Fin.ext (by match a with | ⟨0, _⟩ => rfl | ⟨1, _⟩ => rfl)

/-- The reference's confidence sum of batch row b is the specification's third row sum. -/
theorem v60_at (b : Fin 64) : Read.val_main_v60 (F := Ideal) x0 x1 (ix1 b) = Spec.rowSum x0 x1 x2 2 b := by
  rw [Read.val_main_v60_apply]
  simp only [idx_v60_eq, v59_at, Read.val_main_cst_19_apply, Ideal.ofBits_def, Ideal.ofBits_zero_f32, zero_add]
  rfl

end Cert.ReferenceIdeal.RefValue.Cls

namespace Cert.ReferenceIdeal.RefValue

open Cert.ReferenceIdeal Cert.ReferenceIdeal.Gen Idealize.ShloMosaic Idealize.ShloMosaic.ValueIdx
open scoped BigOperators
open Cert.ReferenceIdeal.RefValue.Cls

variable (x0 : (⟨S64x8525x85, .f32⟩ : BufTy).Contents (Elt Ideal)) (x1 : (⟨S64x8525x88, .f32⟩ : BufTy).Contents (Elt Ideal))
  (x2 : (⟨S8525x2, .f32⟩ : BufTy).Contents (Elt Ideal)) (x3 : (⟨S64, .i32⟩ : BufTy).Contents (Elt Ideal))

/-- The batch mean of the positive-class row sums over the positive counts. -/
theorem ref_v37 : Read.val_main_v37 (F := Ideal) x0 x1 x3
    = fun _ => Ideal.div (∑ b : Fin 64, Ideal.div (Spec.rowSum x0 x1 x2 0 b) ((((x3 (ix1 b) : BitVec 32).toInt : ℝ) : EReal))) Spec.sixtyFour := by
  funext i
  rw [Read.val_main_v37_apply, Read.val_main_v36_apply, sum_idx1]
  simp only [Read.val_main_v35_apply, v34_at x0 x1 x2, Read.val_main_v0_apply, Read.val_main_cst_10_apply,
    Read.val_main_cst_11_apply, Ideal.ofBits_def, Ideal.ofBits_zero_f32, zero_add, Ideal.hostDivf_def]
  rfl

/-- The batch mean of the negative-class row sums over the positive counts. -/
theorem ref_v41 : Read.val_main_v41 (F := Ideal) x0 x1 x3
    = fun _ => Ideal.div (∑ b : Fin 64, Ideal.div (Spec.rowSum x0 x1 x2 1 b) ((((x3 (ix1 b) : BitVec 32).toInt : ℝ) : EReal))) Spec.sixtyFour := by
  funext i
  rw [Read.val_main_v41_apply, Read.val_main_v40_apply, sum_idx1]
  simp only [Read.val_main_v39_apply, v38_at x0 x1 x2, Read.val_main_v0_apply, Read.val_main_cst_13_apply,
    Read.val_main_cst_14_apply, Ideal.ofBits_def, Ideal.ofBits_zero_f32, zero_add, Ideal.hostDivf_def]
  rfl

/-- Five times the batch mean of the confidence row sums over the positive counts. -/
theorem ref_v64 : Read.val_main_v64 (F := Ideal) x0 x1 x3
    = fun _ => Spec.five * Ideal.div (∑ b : Fin 64, Ideal.div (Spec.rowSum x0 x1 x2 2 b) ((((x3 (ix1 b) : BitVec 32).toInt : ℝ) : EReal))) Spec.sixtyFour := by
  funext i
  rw [Read.val_main_v64_apply, Read.val_main_v63_apply, Read.val_main_v62_apply, sum_idx1]
  simp only [Read.val_main_v61_apply, v60_at x0 x1 x2, Read.val_main_v0_apply, Read.val_main_cst_20_apply,
    Read.val_main_cst_21_apply, Read.val_main_cst_22_apply, Ideal.ofBits_def, Ideal.ofBits_zero_f32, zero_add,
    Ideal.hostDivf_def, Ideal.mulf_def]
  rfl

/-- The sum of the three batch-mean terms. -/
theorem ref_v176 : Read.val_main_v176 (F := Ideal) x0 x1 x3
    = fun _ =>
      (Ideal.div (∑ b : Fin 64, Ideal.div (Spec.rowSum x0 x1 x2 0 b) ((((x3 (ix1 b) : BitVec 32).toInt : ℝ) : EReal))) Spec.sixtyFour
        + Ideal.div (∑ b : Fin 64, Ideal.div (Spec.rowSum x0 x1 x2 1 b) ((((x3 (ix1 b) : BitVec 32).toInt : ℝ) : EReal))) Spec.sixtyFour)
      + Spec.five * Ideal.div (∑ b : Fin 64, Ideal.div (Spec.rowSum x0 x1 x2 2 b) ((((x3 (ix1 b) : BitVec 32).toInt : ℝ) : EReal))) Spec.sixtyFour := by
  funext i
  rw [Read.val_main_v176_apply, Read.val_main_v175_apply, ref_v37 x0 x1 x2 x3, ref_v41 x0 x1 x2 x3, ref_v64 x0 x1 x2 x3]
  rfl

end Cert.ReferenceIdeal.RefValue

end
-- ==== Proof.RefReg.lean ====
/-
  The reference's regression term, read at the extended reals.

  The reference forms, for every batch row b and anchor d, the predicted box (grids - offsets[0:2], grids + offsets[2:4]),
  the target box gres[.., 81:85], their generalized intersection over union, and the summand
  (1 - GIoU) · centerness · mask with mask the indicator of gres[.., 86] = 1. Summed over all (b, d) this is the sum over
  the batch rows of the specification's fourth row sum; the mask summed likewise is the sum of the fifth row sums; the
  regression loss is five times the first over the second, the second taken at least one.
-/
import proofs.«430690_j60112362275593_1_alg».proof.Proof.Gen.ReferenceIdeal.Read
import proofs.«430690_j60112362275593_1_alg».proof.Proof.Spec
import Idealize.ShloMosaic.Lib.ValueIdx

noncomputable section

namespace Cert.ReferenceIdeal.RefValue

open Cert.ReferenceIdeal Cert.ReferenceIdeal.Read Idealize.ShloMosaic Idealize.ShloMosaic.ValueIdx
open scoped BigOperators

variable (x0 : (⟨S64x8525x85, .f32⟩ : BufTy).Contents (Elt Ideal)) (x1 : (⟨S64x8525x88, .f32⟩ : BufTy).Contents (Elt Ideal))
  (x2 : (⟨S8525x2, .f32⟩ : BufTy).Contents (Elt Ideal))

/-- The index a [64, 8525, 1] → [64, 8525] reshape reads at (b, d) is (b, d, 0). -/
private theorem reshape_idx (b : Fin 64) (d : Fin 8525) : idx_main_v66 (ix2 b d) = ix3 b d (0 : Fin 1) := by
  funext a
  refine Fin.ext ?_
  match a with
  | ⟨0, _⟩ => show (b.val * 8525 + d.val) / 8525 = b.val; omega
  | ⟨1, _⟩ => show (b.val * 8525 + d.val) / 1 % 8525 = d.val; omega
  | ⟨2, _⟩ => rfl

/-- A one-channel slice [.., k:k+1] of a [64, 8525, 4] array, reshaped to [64, 8525], reads channel k. -/
private theorem sl0 (b : Fin 64) (d : Fin 8525) : idx_main_v80 (idx_main_v81 (ix2 b d)) = ix3 b d (0 : Fin 4) := by
  rw [show idx_main_v81 (ix2 b d) = ix3 b d (0 : Fin 1) from reshape_idx b d]
  funext a; refine Fin.ext ?_
  match a with
  | ⟨0, _⟩ => rfl
  | ⟨1, _⟩ => rfl
  | ⟨2, _⟩ => rfl
private theorem sl1 (b : Fin 64) (d : Fin 8525) : idx_main_v85 (idx_main_v86 (ix2 b d)) = ix3 b d (1 : Fin 4) := by
  rw [show idx_main_v86 (ix2 b d) = ix3 b d (0 : Fin 1) from reshape_idx b d]
  funext a; refine Fin.ext ?_
  match a with
  | ⟨0, _⟩ => rfl
  | ⟨1, _⟩ => rfl
  | ⟨2, _⟩ => rfl
private theorem sl2 (b : Fin 64) (d : Fin 8525) : idx_main_v90 (idx_main_v91 (ix2 b d)) = ix3 b d (2 : Fin 4) := by
  rw [show idx_main_v91 (ix2 b d) = ix3 b d (0 : Fin 1) from reshape_idx b d]
  funext a; refine Fin.ext ?_
  match a with
  | ⟨0, _⟩ => rfl
  | ⟨1, _⟩ => rfl
  | ⟨2, _⟩ => rfl
private theorem sl3 (b : Fin 64) (d : Fin 8525) : idx_main_v95 (idx_main_v96 (ix2 b d)) = ix3 b d (3 : Fin 4) := by
  rw [show idx_main_v96 (ix2 b d) = ix3 b d (0 : Fin 1) from reshape_idx b d]
  funext a; refine Fin.ext ?_
  match a with
  | ⟨0, _⟩ => rfl
  | ⟨1, _⟩ => rfl
  | ⟨2, _⟩ => rfl

/-! The twenty-four one-channel readings of the predicted box (main_v78) and of the target box (main_v79). -/
private theorem v81_at (b : Fin 64) (d : Fin 8525) :
    val_main_v81 (F := Ideal) x0 x2 (ix2 b d) = val_main_v78 (F := Ideal) x0 x2 (ix3 b d (0 : Fin 4)) := by
  rw [val_main_v81_apply, val_main_v80_apply]; exact congrArg _ (sl0 b d)
private theorem v83_at (b : Fin 64) (d : Fin 8525) :
    val_main_v83 (F := Ideal) x1 (ix2 b d) = val_main_v79 (F := Ideal) x1 (ix3 b d (0 : Fin 4)) := by
  rw [val_main_v83_apply, val_main_v82_apply]; exact congrArg _ (sl0 b d)
private theorem v86_at (b : Fin 64) (d : Fin 8525) :
    val_main_v86 (F := Ideal) x0 x2 (ix2 b d) = val_main_v78 (F := Ideal) x0 x2 (ix3 b d (1 : Fin 4)) := by
  rw [val_main_v86_apply, val_main_v85_apply]; exact congrArg _ (sl1 b d)
private theorem v88_at (b : Fin 64) (d : Fin 8525) :
    val_main_v88 (F := Ideal) x1 (ix2 b d) = val_main_v79 (F := Ideal) x1 (ix3 b d (1 : Fin 4)) := by
  rw [val_main_v88_apply, val_main_v87_apply]; exact congrArg _ (sl1 b d)
private theorem v91_at (b : Fin 64) (d : Fin 8525) :
    val_main_v91 (F := Ideal) x0 x2 (ix2 b d) = val_main_v78 (F := Ideal) x0 x2 (ix3 b d (2 : Fin 4)) := by
  rw [val_main_v91_apply, val_main_v90_apply]; exact congrArg _ (sl2 b d)
private theorem v93_at (b : Fin 64) (d : Fin 8525) :
    val_main_v93 (F := Ideal) x1 (ix2 b d) = val_main_v79 (F := Ideal) x1 (ix3 b d (2 : Fin 4)) := by
  rw [val_main_v93_apply, val_main_v92_apply]; exact congrArg _ (sl2 b d)
private theorem v96_at (b : Fin 64) (d : Fin 8525) :
    val_main_v96 (F := Ideal) x0 x2 (ix2 b d) = val_main_v78 (F := Ideal) x0 x2 (ix3 b d (3 : Fin 4)) := by
  rw [val_main_v96_apply, val_main_v95_apply]; exact congrArg _ (sl3 b d)
private theorem v98_at (b : Fin 64) (d : Fin 8525) :
    val_main_v98 (F := Ideal) x1 (ix2 b d) = val_main_v79 (F := Ideal) x1 (ix3 b d (3 : Fin 4)) := by
  rw [val_main_v98_apply, val_main_v97_apply]; exact congrArg _ (sl3 b d)
private theorem v106_at (b : Fin 64) (d : Fin 8525) :
    val_main_v106 (F := Ideal) x0 x2 (ix2 b d) = val_main_v78 (F := Ideal) x0 x2 (ix3 b d (2 : Fin 4)) := by
  rw [val_main_v106_apply, val_main_v105_apply]; exact congrArg _ (sl2 b d)
private theorem v108_at (b : Fin 64) (d : Fin 8525) :
    val_main_v108 (F := Ideal) x0 x2 (ix2 b d) = val_main_v78 (F := Ideal) x0 x2 (ix3 b d (0 : Fin 4)) := by
  rw [val_main_v108_apply, val_main_v107_apply]; exact congrArg _ (sl0 b d)
private theorem v112_at (b : Fin 64) (d : Fin 8525) :
    val_main_v112 (F := Ideal) x0 x2 (ix2 b d) = val_main_v78 (F := Ideal) x0 x2 (ix3 b d (3 : Fin 4)) := by
  rw [val_main_v112_apply, val_main_v111_apply]; exact congrArg _ (sl3 b d)
private theorem v114_at (b : Fin 64) (d : Fin 8525) :
    val_main_v114 (F := Ideal) x0 x2 (ix2 b d) = val_main_v78 (F := Ideal) x0 x2 (ix3 b d (1 : Fin 4)) := by
  rw [val_main_v114_apply, val_main_v113_apply]; exact congrArg _ (sl1 b d)
private theorem v119_at (b : Fin 64) (d : Fin 8525) :
    val_main_v119 (F := Ideal) x1 (ix2 b d) = val_main_v79 (F := Ideal) x1 (ix3 b d (2 : Fin 4)) := by
  rw [val_main_v119_apply, val_main_v118_apply]; exact congrArg _ (sl2 b d)
private theorem v121_at (b : Fin 64) (d : Fin 8525) :
    val_main_v121 (F := Ideal) x1 (ix2 b d) = val_main_v79 (F := Ideal) x1 (ix3 b d (0 : Fin 4)) := by
  rw [val_main_v121_apply, val_main_v120_apply]; exact congrArg _ (sl0 b d)
private theorem v125_at (b : Fin 64) (d : Fin 8525) :
    val_main_v125 (F := Ideal) x1 (ix2 b d) = val_main_v79 (F := Ideal) x1 (ix3 b d (3 : Fin 4)) := by
  rw [val_main_v125_apply, val_main_v124_apply]; exact congrArg _ (sl3 b d)
private theorem v127_at (b : Fin 64) (d : Fin 8525) :
    val_main_v127 (F := Ideal) x1 (ix2 b d) = val_main_v79 (F := Ideal) x1 (ix3 b d (1 : Fin 4)) := by
  rw [val_main_v127_apply, val_main_v126_apply]; exact congrArg _ (sl1 b d)
private theorem v137_at (b : Fin 64) (d : Fin 8525) :
    val_main_v137 (F := Ideal) x0 x2 (ix2 b d) = val_main_v78 (F := Ideal) x0 x2 (ix3 b d (0 : Fin 4)) := by
  rw [val_main_v137_apply, val_main_v136_apply]; exact congrArg _ (sl0 b d)
private theorem v139_at (b : Fin 64) (d : Fin 8525) :
    val_main_v139 (F := Ideal) x1 (ix2 b d) = val_main_v79 (F := Ideal) x1 (ix3 b d (0 : Fin 4)) := by
  rw [val_main_v139_apply, val_main_v138_apply]; exact congrArg _ (sl0 b d)
private theorem v142_at (b : Fin 64) (d : Fin 8525) :
    val_main_v142 (F := Ideal) x0 x2 (ix2 b d) = val_main_v78 (F := Ideal) x0 x2 (ix3 b d (1 : Fin 4)) := by
  rw [val_main_v142_apply, val_main_v141_apply]; exact congrArg _ (sl1 b d)
private theorem v144_at (b : Fin 64) (d : Fin 8525) :
    val_main_v144 (F := Ideal) x1 (ix2 b d) = val_main_v79 (F := Ideal) x1 (ix3 b d (1 : Fin 4)) := by
  rw [val_main_v144_apply, val_main_v143_apply]; exact congrArg _ (sl1 b d)
private theorem v147_at (b : Fin 64) (d : Fin 8525) :
    val_main_v147 (F := Ideal) x0 x2 (ix2 b d) = val_main_v78 (F := Ideal) x0 x2 (ix3 b d (2 : Fin 4)) := by
  rw [val_main_v147_apply, val_main_v146_apply]; exact congrArg _ (sl2 b d)
private theorem v149_at (b : Fin 64) (d : Fin 8525) :
    val_main_v149 (F := Ideal) x1 (ix2 b d) = val_main_v79 (F := Ideal) x1 (ix3 b d (2 : Fin 4)) := by
  rw [val_main_v149_apply, val_main_v148_apply]; exact congrArg _ (sl2 b d)
private theorem v152_at (b : Fin 64) (d : Fin 8525) :
    val_main_v152 (F := Ideal) x0 x2 (ix2 b d) = val_main_v78 (F := Ideal) x0 x2 (ix3 b d (3 : Fin 4)) := by
  rw [val_main_v152_apply, val_main_v151_apply]; exact congrArg _ (sl3 b d)
private theorem v154_at (b : Fin 64) (d : Fin 8525) :
    val_main_v154 (F := Ideal) x1 (ix2 b d) = val_main_v79 (F := Ideal) x1 (ix3 b d (3 : Fin 4)) := by
  rw [val_main_v154_apply, val_main_v153_apply]; exact congrArg _ (sl3 b d)

/-! The target box: channel k of main_v79 is gres[.., 81 + k]. -/
private theorem v79_0 (b : Fin 64) (d : Fin 8525) :
    val_main_v79 (F := Ideal) x1 (ix3 b d (0 : Fin 4)) = x1 (ix3 b d (81 : Fin 88)) := by
  rw [val_main_v79_apply]; congr 1; funext a; refine Fin.ext ?_
  match a with
  | ⟨0, _⟩ => rfl
  | ⟨1, _⟩ => rfl
  | ⟨2, _⟩ => rfl
private theorem v79_1 (b : Fin 64) (d : Fin 8525) :
    val_main_v79 (F := Ideal) x1 (ix3 b d (1 : Fin 4)) = x1 (ix3 b d (82 : Fin 88)) := by
  rw [val_main_v79_apply]; congr 1; funext a; refine Fin.ext ?_
  match a with
  | ⟨0, _⟩ => rfl
  | ⟨1, _⟩ => rfl
  | ⟨2, _⟩ => rfl
private theorem v79_2 (b : Fin 64) (d : Fin 8525) :
    val_main_v79 (F := Ideal) x1 (ix3 b d (2 : Fin 4)) = x1 (ix3 b d (83 : Fin 88)) := by
  rw [val_main_v79_apply]; congr 1; funext a; refine Fin.ext ?_
  match a with
  | ⟨0, _⟩ => rfl
  | ⟨1, _⟩ => rfl
  | ⟨2, _⟩ => rfl
private theorem v79_3 (b : Fin 64) (d : Fin 8525) :
    val_main_v79 (F := Ideal) x1 (ix3 b d (3 : Fin 4)) = x1 (ix3 b d (84 : Fin 88)) := by
  rw [val_main_v79_apply]; congr 1; funext a; refine Fin.ext ?_
  match a with
  | ⟨0, _⟩ => rfl
  | ⟨1, _⟩ => rfl
  | ⟨2, _⟩ => rfl

/-! The predicted box: main_v78 joins grids - offsets[0:2] and grids + offsets[2:4] along the last axis, so its channels
    0 and 1 come from the first piece and its channels 2 and 3 from the second. -/
private theorem v78_0 (b : Fin 64) (d : Fin 8525) :
    val_main_v78 (F := Ideal) x0 x2 (ix3 b d (0 : Fin 4)) = x2 (ix2 d (0 : Fin 2)) - x0 (ix3 b d (81 : Fin 85)) := by
  unfold val_main_v78
  refine (concatenate_pair_apply_left (s₁ := S64x8525x2) (s₂ := S64x8525x2) (t := S64x8525x4) _ _ _ _ _ rfl
    (ix3 b d (0 : Fin 2)) (fun a => ?_)).trans ?_
  · match a with
    | ⟨0, _⟩ => rfl
    | ⟨1, _⟩ => rfl
    | ⟨2, _⟩ => rfl
  · have e2 : idx_main_v71 (idx_main_v73 (ix3 b d (0 : Fin 2))) = ix2 d (0 : Fin 2) := by
      funext a; refine Fin.ext ?_
      match a with
      | ⟨0, _⟩ => rfl
      | ⟨1, _⟩ => rfl
    have e0 : idx_main_v70 (idx_main_v72 (ix3 b d (0 : Fin 2))) = ix3 b d (81 : Fin 85) := by
      funext a; refine Fin.ext ?_
      match a with
      | ⟨0, _⟩ => rfl
      | ⟨1, _⟩ => rfl
      | ⟨2, _⟩ => rfl
    rw [val_main_v74_apply, val_main_v73_apply, val_main_v71_apply, val_main_v72_apply, val_main_v70_apply, e2, e0]
    rfl
private theorem v78_1 (b : Fin 64) (d : Fin 8525) :
    val_main_v78 (F := Ideal) x0 x2 (ix3 b d (1 : Fin 4)) = x2 (ix2 d (1 : Fin 2)) - x0 (ix3 b d (82 : Fin 85)) := by
  unfold val_main_v78
  refine (concatenate_pair_apply_left (s₁ := S64x8525x2) (s₂ := S64x8525x2) (t := S64x8525x4) _ _ _ _ _ rfl
    (ix3 b d (1 : Fin 2)) (fun a => ?_)).trans ?_
  · match a with
    | ⟨0, _⟩ => rfl
    | ⟨1, _⟩ => rfl
    | ⟨2, _⟩ => rfl
  · have e2 : idx_main_v71 (idx_main_v73 (ix3 b d (1 : Fin 2))) = ix2 d (1 : Fin 2) := by
      funext a; refine Fin.ext ?_
      match a with
      | ⟨0, _⟩ => rfl
      | ⟨1, _⟩ => rfl
    have e0 : idx_main_v70 (idx_main_v72 (ix3 b d (1 : Fin 2))) = ix3 b d (82 : Fin 85) := by
      funext a; refine Fin.ext ?_
      match a with
      | ⟨0, _⟩ => rfl
      | ⟨1, _⟩ => rfl
      | ⟨2, _⟩ => rfl
    rw [val_main_v74_apply, val_main_v73_apply, val_main_v71_apply, val_main_v72_apply, val_main_v70_apply, e2, e0]
    rfl
private theorem v78_2 (b : Fin 64) (d : Fin 8525) :
    val_main_v78 (F := Ideal) x0 x2 (ix3 b d (2 : Fin 4)) = x2 (ix2 d (0 : Fin 2)) + x0 (ix3 b d (83 : Fin 85)) := by
  unfold val_main_v78
  refine (concatenate_pair_apply_right (s₁ := S64x8525x2) (s₂ := S64x8525x2) (t := S64x8525x4) _ _ _ _ _ rfl rfl
    (ix3 b d (0 : Fin 2)) (fun a h => ?_) rfl).trans ?_
  · match a, h with
    | ⟨0, _⟩, _ => rfl
    | ⟨1, _⟩, _ => rfl
    | ⟨2, _⟩, h => exact absurd rfl h
  · have e2 : idx_main_v71 (idx_main_v76 (ix3 b d (0 : Fin 2))) = ix2 d (0 : Fin 2) := by
      funext a; refine Fin.ext ?_
      match a with
      | ⟨0, _⟩ => rfl
      | ⟨1, _⟩ => rfl
    have e0 : idx_main_v70 (idx_main_v75 (ix3 b d (0 : Fin 2))) = ix3 b d (83 : Fin 85) := by
      funext a; refine Fin.ext ?_
      match a with
      | ⟨0, _⟩ => rfl
      | ⟨1, _⟩ => rfl
      | ⟨2, _⟩ => rfl
    rw [val_main_v77_apply, val_main_v76_apply, val_main_v71_apply, val_main_v75_apply, val_main_v70_apply, e2, e0]
    rfl
private theorem v78_3 (b : Fin 64) (d : Fin 8525) :
    val_main_v78 (F := Ideal) x0 x2 (ix3 b d (3 : Fin 4)) = x2 (ix2 d (1 : Fin 2)) + x0 (ix3 b d (84 : Fin 85)) := by
  unfold val_main_v78
  refine (concatenate_pair_apply_right (s₁ := S64x8525x2) (s₂ := S64x8525x2) (t := S64x8525x4) _ _ _ _ _ rfl rfl
    (ix3 b d (1 : Fin 2)) (fun a h => ?_) rfl).trans ?_
  · match a, h with
    | ⟨0, _⟩, _ => rfl
    | ⟨1, _⟩, _ => rfl
    | ⟨2, _⟩, h => exact absurd rfl h
  · have e2 : idx_main_v71 (idx_main_v76 (ix3 b d (1 : Fin 2))) = ix2 d (1 : Fin 2) := by
      funext a; refine Fin.ext ?_
      match a with
      | ⟨0, _⟩ => rfl
      | ⟨1, _⟩ => rfl
    have e0 : idx_main_v70 (idx_main_v75 (ix3 b d (1 : Fin 2))) = ix3 b d (84 : Fin 85) := by
      funext a; refine Fin.ext ?_
      match a with
      | ⟨0, _⟩ => rfl
      | ⟨1, _⟩ => rfl
      | ⟨2, _⟩ => rfl
    rw [val_main_v77_apply, val_main_v76_apply, val_main_v71_apply, val_main_v75_apply, val_main_v70_apply, e2, e0]
    rfl

/-! The two indicator columns and the centerness column. -/

/-- The reference's indicator, a comparison with the word of 1.0 converted to a float, is `Spec.ind`. -/
private theorem ind_eq (y : EReal) :
    FloatOps.uitofp (F := Ideal) .f32 (FloatOps.cmpf (F := Ideal) (φ := .f32) .oeq y (FloatOps.ofBits .f32 0x3F800000#32)) = Spec.ind y := by
  show (((Ideal.cmp .oeq y Spec.one).toNat : ℝ) : EReal) = Spec.ind y
  unfold Spec.ind Ideal.cmp
  by_cases h : y = Spec.one
  · simp [h]
  · simp [h]

private theorem v66_at (b : Fin 64) (d : Fin 8525) : val_main_v66 (F := Ideal) x1 (ix2 b d) = x1 (ix3 b d (86 : Fin 88)) := by
  rw [val_main_v66_apply, val_main_v65_apply, reshape_idx]
  congr 1; funext a; refine Fin.ext ?_
  match a with
  | ⟨0, _⟩ => rfl
  | ⟨1, _⟩ => rfl
  | ⟨2, _⟩ => rfl

private theorem v69_at (b : Fin 64) (d : Fin 8525) : val_main_v69 (F := Ideal) x1 (ix2 b d) = Spec.ind (x1 (ix3 b d (86 : Fin 88))) := by
  rw [val_main_v69_apply, val_main_v68_apply, v66_at, val_main_v67_apply, val_main_cst_23_apply]
  exact ind_eq _

private theorem v165_at (b : Fin 64) (d : Fin 8525) : val_main_v165 (F := Ideal) x1 (ix2 b d) = x1 (ix3 b d (80 : Fin 88)) := by
  rw [val_main_v165_apply, val_main_v164_apply, show idx_main_v165 (ix2 b d) = ix3 b d (0 : Fin 1) from reshape_idx b d]
  congr 1; funext a; refine Fin.ext ?_
  match a with
  | ⟨0, _⟩ => rfl
  | ⟨1, _⟩ => rfl
  | ⟨2, _⟩ => rfl

/-! The generalized intersection over union, one named intermediate at a time; p and q below are the predicted box
    main_v78 and the target box main_v79 at (b, d). -/

private theorem v84_at (b : Fin 64) (d : Fin 8525) : val_main_v84 (F := Ideal) x0 x1 x2 (ix2 b d) = max (val_main_v78 (F := Ideal) x0 x2 (ix3 b d (0 : Fin 4))) (val_main_v79 (F := Ideal) x1 (ix3 b d (0 : Fin 4))) := by
  rw [val_main_v84_apply, v81_at, v83_at]; rfl
private theorem v89_at (b : Fin 64) (d : Fin 8525) : val_main_v89 (F := Ideal) x0 x1 x2 (ix2 b d) = max (val_main_v78 (F := Ideal) x0 x2 (ix3 b d (1 : Fin 4))) (val_main_v79 (F := Ideal) x1 (ix3 b d (1 : Fin 4))) := by
  rw [val_main_v89_apply, v86_at, v88_at]; rfl
private theorem v94_at (b : Fin 64) (d : Fin 8525) : val_main_v94 (F := Ideal) x0 x1 x2 (ix2 b d) = min (val_main_v78 (F := Ideal) x0 x2 (ix3 b d (2 : Fin 4))) (val_main_v79 (F := Ideal) x1 (ix3 b d (2 : Fin 4))) := by
  rw [val_main_v94_apply, v91_at, v93_at]; rfl
private theorem v99_at (b : Fin 64) (d : Fin 8525) : val_main_v99 (F := Ideal) x0 x1 x2 (ix2 b d) = min (val_main_v78 (F := Ideal) x0 x2 (ix3 b d (3 : Fin 4))) (val_main_v79 (F := Ideal) x1 (ix3 b d (3 : Fin 4))) := by
  rw [val_main_v99_apply, v96_at, v98_at]; rfl

/-- The intersection's area. -/
private def rInter (b : Fin 64) (d : Fin 8525) : EReal :=
  max (min (val_main_v78 (F := Ideal) x0 x2 (ix3 b d (2 : Fin 4))) (val_main_v79 (F := Ideal) x1 (ix3 b d (2 : Fin 4))) - max (val_main_v78 (F := Ideal) x0 x2 (ix3 b d (0 : Fin 4))) (val_main_v79 (F := Ideal) x1 (ix3 b d (0 : Fin 4)))) Spec.zero * max (min (val_main_v78 (F := Ideal) x0 x2 (ix3 b d (3 : Fin 4))) (val_main_v79 (F := Ideal) x1 (ix3 b d (3 : Fin 4))) - max (val_main_v78 (F := Ideal) x0 x2 (ix3 b d (1 : Fin 4))) (val_main_v79 (F := Ideal) x1 (ix3 b d (1 : Fin 4)))) Spec.zero
/-- The predicted box's area. -/
private def rAreaP (b : Fin 64) (d : Fin 8525) : EReal :=
  max (val_main_v78 (F := Ideal) x0 x2 (ix3 b d (2 : Fin 4)) - val_main_v78 (F := Ideal) x0 x2 (ix3 b d (0 : Fin 4))) Spec.zero * max (val_main_v78 (F := Ideal) x0 x2 (ix3 b d (3 : Fin 4)) - val_main_v78 (F := Ideal) x0 x2 (ix3 b d (1 : Fin 4))) Spec.zero
/-- The target box's area. -/
private def rAreaQ (b : Fin 64) (d : Fin 8525) : EReal :=
  max (val_main_v79 (F := Ideal) x1 (ix3 b d (2 : Fin 4)) - val_main_v79 (F := Ideal) x1 (ix3 b d (0 : Fin 4))) Spec.zero * max (val_main_v79 (F := Ideal) x1 (ix3 b d (3 : Fin 4)) - val_main_v79 (F := Ideal) x1 (ix3 b d (1 : Fin 4))) Spec.zero
/-- The union's area. -/
private def rUnion (b : Fin 64) (d : Fin 8525) : EReal := (rAreaP x0 x2 b d + rAreaQ x1 b d) - rInter x0 x1 x2 b d
/-- The enclosing box's area. -/
private def rHull (b : Fin 64) (d : Fin 8525) : EReal :=
  (max (val_main_v78 (F := Ideal) x0 x2 (ix3 b d (2 : Fin 4))) (val_main_v79 (F := Ideal) x1 (ix3 b d (2 : Fin 4))) - min (val_main_v78 (F := Ideal) x0 x2 (ix3 b d (0 : Fin 4))) (val_main_v79 (F := Ideal) x1 (ix3 b d (0 : Fin 4)))) * (max (val_main_v78 (F := Ideal) x0 x2 (ix3 b d (3 : Fin 4))) (val_main_v79 (F := Ideal) x1 (ix3 b d (3 : Fin 4))) - min (val_main_v78 (F := Ideal) x0 x2 (ix3 b d (1 : Fin 4))) (val_main_v79 (F := Ideal) x1 (ix3 b d (1 : Fin 4))))

/-- The reference clips below at zero as max 0 x, which is max x 0. -/
private theorem v101_at (b : Fin 64) (d : Fin 8525) : val_main_v101 (F := Ideal) x0 x1 x2 (ix2 b d) = max (min (val_main_v78 (F := Ideal) x0 x2 (ix3 b d (2 : Fin 4))) (val_main_v79 (F := Ideal) x1 (ix3 b d (2 : Fin 4))) - max (val_main_v78 (F := Ideal) x0 x2 (ix3 b d (0 : Fin 4))) (val_main_v79 (F := Ideal) x1 (ix3 b d (0 : Fin 4)))) Spec.zero := by
  rw [val_main_v101_apply, val_main_call0_v1_apply, val_main_call0_v0_apply, val_main_cst_24_apply, val_main_v100_apply, v94_at, v84_at]
  exact max_comm _ _
private theorem v103_at (b : Fin 64) (d : Fin 8525) : val_main_v103 (F := Ideal) x0 x1 x2 (ix2 b d) = max (min (val_main_v78 (F := Ideal) x0 x2 (ix3 b d (3 : Fin 4))) (val_main_v79 (F := Ideal) x1 (ix3 b d (3 : Fin 4))) - max (val_main_v78 (F := Ideal) x0 x2 (ix3 b d (1 : Fin 4))) (val_main_v79 (F := Ideal) x1 (ix3 b d (1 : Fin 4)))) Spec.zero := by
  rw [val_main_v103_apply, val_main_call1_v1_apply, val_main_call1_v0_apply, val_main_cst_25_apply, val_main_v102_apply, v99_at, v89_at]
  exact max_comm _ _
private theorem v104_at (b : Fin 64) (d : Fin 8525) : val_main_v104 (F := Ideal) x0 x1 x2 (ix2 b d) = rInter x0 x1 x2 b d := by
  rw [val_main_v104_apply, v101_at, v103_at]; rfl

private theorem v110_at (b : Fin 64) (d : Fin 8525) : val_main_v110 (F := Ideal) x0 x2 (ix2 b d) = max (val_main_v78 (F := Ideal) x0 x2 (ix3 b d (2 : Fin 4)) - val_main_v78 (F := Ideal) x0 x2 (ix3 b d (0 : Fin 4))) Spec.zero := by
  rw [val_main_v110_apply, val_main_call2_v1_apply, val_main_call2_v0_apply, val_main_cst_26_apply, val_main_v109_apply, v106_at, v108_at]
  exact max_comm _ _
private theorem v116_at (b : Fin 64) (d : Fin 8525) : val_main_v116 (F := Ideal) x0 x2 (ix2 b d) = max (val_main_v78 (F := Ideal) x0 x2 (ix3 b d (3 : Fin 4)) - val_main_v78 (F := Ideal) x0 x2 (ix3 b d (1 : Fin 4))) Spec.zero := by
  rw [val_main_v116_apply, val_main_call3_v1_apply, val_main_call3_v0_apply, val_main_cst_27_apply, val_main_v115_apply, v112_at, v114_at]
  exact max_comm _ _
private theorem v117_at (b : Fin 64) (d : Fin 8525) : val_main_v117 (F := Ideal) x0 x2 (ix2 b d) = rAreaP x0 x2 b d := by
  rw [val_main_v117_apply, v110_at, v116_at]; rfl

private theorem v123_at (b : Fin 64) (d : Fin 8525) : val_main_v123 (F := Ideal) x1 (ix2 b d) = max (val_main_v79 (F := Ideal) x1 (ix3 b d (2 : Fin 4)) - val_main_v79 (F := Ideal) x1 (ix3 b d (0 : Fin 4))) Spec.zero := by
  rw [val_main_v123_apply, val_main_call4_v1_apply, val_main_call4_v0_apply, val_main_cst_28_apply, val_main_v122_apply, v119_at, v121_at]
  exact max_comm _ _
private theorem v129_at (b : Fin 64) (d : Fin 8525) : val_main_v129 (F := Ideal) x1 (ix2 b d) = max (val_main_v79 (F := Ideal) x1 (ix3 b d (3 : Fin 4)) - val_main_v79 (F := Ideal) x1 (ix3 b d (1 : Fin 4))) Spec.zero := by
  rw [val_main_v129_apply, val_main_call5_v1_apply, val_main_call5_v0_apply, val_main_cst_29_apply, val_main_v128_apply, v125_at, v127_at]
  exact max_comm _ _
private theorem v130_at (b : Fin 64) (d : Fin 8525) : val_main_v130 (F := Ideal) x1 (ix2 b d) = rAreaQ x1 b d := by
  rw [val_main_v130_apply, v123_at, v129_at]; rfl

private theorem v132_at (b : Fin 64) (d : Fin 8525) : val_main_v132 (F := Ideal) x0 x1 x2 (ix2 b d) = rUnion x0 x1 x2 b d := by
  rw [val_main_v132_apply, val_main_v131_apply, v117_at, v130_at, v104_at]; rfl

/-- The intersection over union. -/
private theorem v135_at (b : Fin 64) (d : Fin 8525) :
    val_main_v135 (F := Ideal) x0 x1 x2 (ix2 b d) = Ideal.div (rInter x0 x1 x2 b d) (rUnion x0 x1 x2 b d + Spec.eps) := by
  rw [val_main_v135_apply, val_main_v134_apply, val_main_v133_apply, val_main_cst_30_apply, v104_at, v132_at]; rfl

private theorem v140_at (b : Fin 64) (d : Fin 8525) : val_main_v140 (F := Ideal) x0 x1 x2 (ix2 b d) = min (val_main_v78 (F := Ideal) x0 x2 (ix3 b d (0 : Fin 4))) (val_main_v79 (F := Ideal) x1 (ix3 b d (0 : Fin 4))) := by
  rw [val_main_v140_apply, v137_at, v139_at]; rfl
private theorem v145_at (b : Fin 64) (d : Fin 8525) : val_main_v145 (F := Ideal) x0 x1 x2 (ix2 b d) = min (val_main_v78 (F := Ideal) x0 x2 (ix3 b d (1 : Fin 4))) (val_main_v79 (F := Ideal) x1 (ix3 b d (1 : Fin 4))) := by
  rw [val_main_v145_apply, v142_at, v144_at]; rfl
private theorem v150_at (b : Fin 64) (d : Fin 8525) : val_main_v150 (F := Ideal) x0 x1 x2 (ix2 b d) = max (val_main_v78 (F := Ideal) x0 x2 (ix3 b d (2 : Fin 4))) (val_main_v79 (F := Ideal) x1 (ix3 b d (2 : Fin 4))) := by
  rw [val_main_v150_apply, v147_at, v149_at]; rfl
private theorem v155_at (b : Fin 64) (d : Fin 8525) : val_main_v155 (F := Ideal) x0 x1 x2 (ix2 b d) = max (val_main_v78 (F := Ideal) x0 x2 (ix3 b d (3 : Fin 4))) (val_main_v79 (F := Ideal) x1 (ix3 b d (3 : Fin 4))) := by
  rw [val_main_v155_apply, v152_at, v154_at]; rfl
private theorem v158_at (b : Fin 64) (d : Fin 8525) : val_main_v158 (F := Ideal) x0 x1 x2 (ix2 b d) = rHull x0 x1 x2 b d := by
  rw [val_main_v158_apply, val_main_v156_apply, val_main_v157_apply, v150_at, v140_at, v155_at, v145_at]; rfl

private theorem v162_at (b : Fin 64) (d : Fin 8525) :
    val_main_v162 (F := Ideal) x0 x1 x2 (ix2 b d) = Ideal.div (rHull x0 x1 x2 b d - rUnion x0 x1 x2 b d) (rHull x0 x1 x2 b d + Spec.eps) := by
  rw [val_main_v162_apply, val_main_v159_apply, val_main_v161_apply, val_main_v160_apply, val_main_cst_31_apply, v158_at, v132_at]; rfl

/-- The reference's GIoU at (b, d) is the specification's. -/
private theorem giou_at (b : Fin 64) (d : Fin 8525) : val_main_v163 (F := Ideal) x0 x1 x2 (ix2 b d) = Spec.giouAt x0 x1 x2 b d := by
  rw [val_main_v163_apply, v135_at, v162_at]
  unfold rUnion rHull rAreaP rAreaQ rInter
  rw [v78_0, v78_1, v78_2, v78_3, v79_0, v79_1, v79_2, v79_3]
  rfl

/-- The reference's regression summand at (b, d) is the specification's fourth row term. -/
private theorem term_at (b : Fin 64) (d : Fin 8525) : val_main_v171 (F := Ideal) x0 x1 x2 (ix2 b d) = Spec.rowTerm x0 x1 x2 3 b d := by
  rw [val_main_v171_apply, val_main_v170_apply, val_main_v169_apply, val_main_v168_apply, val_main_cst_34_apply, giou_at, v165_at, v69_at]
  rfl

/-- The reference's count summand at (b, d) is the specification's fifth row term. -/
private theorem count_at (b : Fin 64) (d : Fin 8525) : val_main_v69 (F := Ideal) x1 (ix2 b d) = Spec.rowTerm x0 x1 x2 4 b d := by
  rw [v69_at]; rfl

/-- The count of in-box positives: the sum over [64, 8525] of the indicator of gres[.., 86]. -/
theorem ref_v166 : Read.val_main_v166 (F := Ideal) x1 = fun _ => ∑ b : Fin 64, Spec.rowSum x0 x1 x2 4 b := by
  funext i
  rw [val_main_v166_apply, sum_idx2, val_main_cst_32_apply]
  show Ideal.ofBits .f32 0x00000000#32 + _ = _
  rw [Ideal.ofBits_zero_f32, zero_add]
  refine Finset.sum_congr rfl fun b _ => ?_
  unfold Spec.rowSum
  exact Finset.sum_congr rfl fun d _ => count_at x0 x1 x2 b d

/-- The sum over [64, 8525] of (1 - GIoU) · centerness · mask. -/
theorem ref_v172 : Read.val_main_v172 (F := Ideal) x0 x1 x2 = fun _ => ∑ b : Fin 64, Spec.rowSum x0 x1 x2 3 b := by
  funext i
  rw [val_main_v172_apply, sum_idx2, val_main_cst_35_apply]
  show Ideal.ofBits .f32 0x00000000#32 + _ = _
  rw [Ideal.ofBits_zero_f32, zero_add]
  refine Finset.sum_congr rfl fun b _ => ?_
  unfold Spec.rowSum
  exact Finset.sum_congr rfl fun d _ => term_at x0 x1 x2 b d

/-- The regression loss: five times that sum over the count, at least one. -/
theorem ref_v174 : Read.val_main_v174 (F := Ideal) x0 x1 x2 = fun _ =>
    Ideal.div (Spec.five * ∑ b : Fin 64, Spec.rowSum x0 x1 x2 3 b) (max (∑ b : Fin 64, Spec.rowSum x0 x1 x2 4 b) Spec.one) := by
  funext i
  rw [val_main_v174_apply, val_main_v173_apply, val_main_cst_36_apply, val_main_v167_apply, val_main_cst_33_apply,
    ref_v172 x0 x1 x2, ref_v166 x0 x1 x2]
  rfl

end Cert.ReferenceIdeal.RefValue
end
-- ==== Proof.RefLoss.lean ====
/-
  The reference's scalar is the loss of its four argument arrays: its last three operations add the batch means of the
  two focal terms, five times the batch mean of the confidence term, and the regression quotient.
-/
import proofs.«430690_j60112362275593_1_alg».proof.Proof.RefCls
import proofs.«430690_j60112362275593_1_alg».proof.Proof.RefReg

noncomputable section

namespace Cert.ReferenceIdeal.RefValue

open Cert.ReferenceIdeal Cert.ReferenceIdeal.Gen Idealize.ShloMosaic Idealize.ShloMosaic.ValueIdx
open scoped BigOperators

/-- The reference's result, as a function of the argument arrays, is the loss. -/
theorem ref_loss (x0 : (⟨S64x8525x85, .f32⟩ : BufTy).Contents (Elt Ideal)) (x1 : (⟨S64x8525x88, .f32⟩ : BufTy).Contents (Elt Ideal))
    (x2 : (⟨S8525x2, .f32⟩ : BufTy).Contents (Elt Ideal)) (x3 : (⟨S64, .i32⟩ : BufTy).Contents (Elt Ideal)) :
    Read.val_main_v177 (F := Ideal) x0 x1 x2 x3 = fun _ => Spec.loss x0 x1 x2 x3 := by
  funext i
  rw [Read.val_main_v177_apply, ref_v176 x0 x1 x2 x3, ref_v174 x0 x1 x2]
  rfl

end Cert.ReferenceIdeal.RefValue

end
-- ==== Proof.lean ====
/-
  Both programs compute the detection loss of Cert.Spec: four sums of focal-loss, confidence and regression terms over
  the 8525 anchors of each of 64 batch rows, and the count of in-box anchors, combined into one scalar.

  The kernel walks a grid of 2 × 34 points; a point covers 32 batch rows and 256 anchors, and the last point of each
  half overhangs the arrays by 179 anchors, which the body masks. Over the extended reals a masked anchor contributes
  0 · x = 0 whatever x is, so the five running sums the body keeps in its scratch are sums of the existing anchors
  only; after the 34th point of a half they are that half's sums over all anchors, and the host operations after the
  region make the loss of them. The reference computes the same summands over whole arrays; its sums over (anchor,
  class) and over (batch row, anchor) are the same finite sums regrouped.

  At the word level nothing is claimed of the values: the kernel runs to the end whatever its buffers hold, and its
  arguments are inputs only.
-/
import proofs.«430690_j60112362275593_1_alg».proof.Defs
import proofs.«430690_j60112362275593_1_alg».proof.Proof.Gen.Kernel
import proofs.«430690_j60112362275593_1_alg».proof.Proof.Gen.Kernel.Skeleton
import proofs.«430690_j60112362275593_1_alg».proof.Proof.Gen.Kernel.Launch
import proofs.«430690_j60112362275593_1_alg».proof.Proof.Gen.Kernel.Points
import proofs.«430690_j60112362275593_1_alg».proof.Proof.Gen.Kernel.Frame
import proofs.«430690_j60112362275593_1_alg».proof.Proof.Gen.KernelIdeal
import proofs.«430690_j60112362275593_1_alg».proof.Proof.Gen.KernelIdeal.Skeleton
import proofs.«430690_j60112362275593_1_alg».proof.Proof.Gen.KernelIdeal.Launch
import proofs.«430690_j60112362275593_1_alg».proof.Proof.Gen.KernelIdeal.Points
import proofs.«430690_j60112362275593_1_alg».proof.Proof.Gen.KernelIdeal.Frame
import proofs.«430690_j60112362275593_1_alg».proof.Proof.Gen.ReferenceIdeal
import proofs.«430690_j60112362275593_1_alg».proof.Proof.Gen.Pre_finite_inputs
import proofs.«430690_j60112362275593_1_alg».proof.Proof.Gen.ReferenceIdeal.Run
import proofs.«430690_j60112362275593_1_alg».proof.Proof.Gen.ReferenceIdeal.Read
import proofs.«430690_j60112362275593_1_alg».proof.Proof.FrameBits
import proofs.«430690_j60112362275593_1_alg».proof.Proof.KernelValue
import proofs.«430690_j60112362275593_1_alg».proof.Proof.RefLoss
import Idealize.ShloMosaic.Adequacy
import Idealize.ShloMosaic.Init

noncomputable section

namespace Cert.Proof

open Idealize.ShloMosaic Idealize.ShloMosaic.TcCoe Idealize.SL.Sem

/-- The word-level kernel runs to the end and leaves its arguments as they were. -/
theorem frame_k : Cert.frame_Kernel := fun m ρ _ => Cert.Kernel.HandRel.frame (F := Bits) m ρ

/-- So does the idealized kernel. -/
theorem frame_ki : Cert.frame_KernelIdeal := fun m ρ _ => Cert.KernelIdeal.Hand.frame m ρ

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From arguments that agree, both idealized programs end with the loss of those arguments. -/
theorem algebraic : Cert.algebraic_KernelIdeal_ReferenceIdeal := by
  intro m ρ m' ρ' _ hagree
  refine ⟨fun c => fun _ => Cert.Spec.loss (Cert.KernelIdeal.Hand.outsArr m c) (Cert.KernelIdeal.Hand.gresArr m c)
    (Cert.KernelIdeal.Hand.gridsArr m c) (Cert.KernelIdeal.Hand.numsArr m c), ?_, ?_⟩
  · exact (θ_run Cert.KernelIdeal.defs _ _).mono
      (fun r h c => ⟨(h c).1.trans (Cert.KernelIdeal.Hand.kernel_value m c), (h c).2⟩)
      (Cert.KernelIdeal.Hand.run_value m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v177_eq, Cert.ReferenceIdeal.RefValue.ref_loss,
      (hagree c).1, (hagree c).2.1, (hagree c).2.2.1, (hagree c).2.2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
